-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v45)) (v2 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_v13_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S128x1024 : Shape := ⟨2, ![128, 1024]⟩
abbrev S50257x1024 : Shape := ⟨2, ![50257, 1024]⟩
abbrev S128x2048 : Shape := ⟨2, ![128, 2048]⟩
abbrev S128 : Shape := ⟨1, ![128]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S128x2048 : S_.BroadcastsInDim S128x2048 (![] : Fin 0 → Fin S128x2048.rank)
  reducesTo_S128x2048_S_d0_1 : S128x2048.ReducesTo [0, 1] S_
  bcast_S_S128 : S_.BroadcastsInDim S128 (![] : Fin 0 → Fin S128.rank)
  reducesTo_S128_S_d0 : S128.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_

variable [Facts]

def fn_part3 {F : FTy → Type} [FloatOps F] (main_arg12 : FVec F S50257x1024 .f32) (main_arg13 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  main_v63

def fn_part2 {F : FTy → Type} [FloatOps F] (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg12 main_arg13 main_v48 main_v49 main_v50

def fn_part1 {F : FTy → Type} [FloatOps F] (main_arg5 : FVec F S128 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v13 : IVec S_ 1) (main_v16 : IVec S128x2048 1) : IVec S_ 1 :=
  let main_c_5 : IVec S_ 1 := constantI S_ 1 1#1
  let main_v17 : IVec S_ 1 := (fun x v => Host.reduce IntOp.andi x v reducesTo_S128x2048_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S1 32) (main_arg1 : FVec F S1x1x1024 .f32) (main_arg2 : FVec F S128x1024 .f32) (main_arg3 : FVec F S50257x1024 .f32) (main_arg4 : FVec F S128x2048 .f32) (main_arg5 : FVec F S128 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S128x1024 .f32 := Host.absf main_arg2
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S128x2048 .f32 := Host.absf main_arg4
  let main_cst_4 : FVec F S_ .f32 := constant S_ .f32 0x7F800000#32
  let main_v15 : FVec F S128x2048 .f32 := broadcastInDim S128x2048 ![] bcast_S_S128x2048 main_cst_4
  let main_v16 : IVec S128x2048 1 := cmpf .olt main_v14 main_v15
  fn_part1 (F := F) main_arg5 main_arg6 main_arg7 main_arg8 main_arg9 main_arg10 main_arg11 main_arg12 main_arg13 main_v13 main_v16
-- ==== Kernel.lean ====
abbrev S1 : Shape := ⟨1, ![1]⟩
abbrev S1x1x1024 : Shape := ⟨3, ![1, 1, 1024]⟩
abbrev S128x1024 : Shape := ⟨2, ![128, 1024]⟩
abbrev S50257x1024 : Shape := ⟨2, ![50257, 1024]⟩
abbrev S128x2048 : Shape := ⟨2, ![128, 2048]⟩
abbrev S128 : Shape := ⟨1, ![128]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x128 : Shape := ⟨2, ![1, 128]⟩
abbrev S1x3072 : Shape := ⟨2, ![1, 3072]⟩
abbrev S1x50257 : Shape := ⟨2, ![1, 50257]⟩
abbrev S1x2048 : Shape := ⟨2, ![1, 2048]⟩
abbrev S1536x1024 : Shape := ⟨2, ![1536, 1024]⟩
abbrev S1x1536 : Shape := ⟨2, ![1, 1536]⟩
abbrev S2048x1024 : Shape := ⟨2, ![2048, 1024]⟩

abbrev nBuf : Space → Nat
  | .hbm => 83
  | .vmem => 26
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S128x1024, .f32⟩
  | .hbm, ⟨3, _⟩ => ⟨S50257x1024, .f32⟩
  | .hbm, ⟨4, _⟩ => ⟨S128x2048, .f32⟩
  | .hbm, ⟨5, _⟩ => ⟨S128, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1024, .f32⟩
  | .hbm, ⟨24, _⟩ => ⟨S1x128, .f32⟩
  | .hbm, ⟨25, _⟩ => ⟨S1x1024, .f32⟩
  | .hbm, ⟨26, _⟩ => ⟨S1x3072, .f32⟩
  | .hbm, ⟨27, _⟩ => ⟨S1x3072, .f32⟩
  | .hbm, ⟨28, _⟩ => ⟨S1x50257, .f32⟩
  | .hbm, ⟨29, _⟩ => ⟨S1x1024, .f32⟩
  | .hbm, ⟨30, _⟩ => ⟨S1x128, .f32⟩
  | .hbm, ⟨31, _⟩ => ⟨S1x3072, .f32⟩
  | .hbm, ⟨32, _⟩ => ⟨S1x3072, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S_, .f32⟩
  | .hbm, ⟨52, _⟩ => ⟨S1x1024, .f32⟩
  | .hbm, ⟨53, _⟩ => ⟨S1x1024, .f32⟩
  | .hbm, ⟨54, _⟩ => ⟨S_, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x50257, .f32⟩
  | .hbm, ⟨67, _⟩ => ⟨S_, .f32⟩
  | .hbm, ⟨68, _⟩ => ⟨S1, .f32⟩
  | .hbm, ⟨69, _⟩ => ⟨S_, .f32⟩
  | .hbm, ⟨70, _⟩ => ⟨S1, .f32⟩
  | .hbm, ⟨71, _⟩ => ⟨S1, .f32⟩
  | .hbm, ⟨72, _⟩ => ⟨S1x1, .f32⟩
  | .hbm, ⟨73, _⟩ => ⟨S1x50257, .f32⟩
  | .hbm, ⟨74, _⟩ => ⟨S1x50257, .f32⟩
  | .hbm, ⟨75, _⟩ => ⟨S1x50257, .f32⟩
  | .hbm, ⟨76, _⟩ => ⟨S_, .f32⟩
  | .hbm, ⟨77, _⟩ => ⟨S1, .f32⟩
  | .hbm, ⟨78, _⟩ => ⟨S1x1, .f32⟩
  | .hbm, ⟨79, _⟩ => ⟨S1x1, .f32⟩
  | .hbm, ⟨80, _⟩ => ⟨S1x50257, .f32⟩
  | .hbm, ⟨81, _⟩ => ⟨S1x50257, .f32⟩
  | .hbm, ⟨82, _⟩ => ⟨S1x1x1024, .f32⟩
  | .local _ .vmem, ⟨0, _⟩ => ⟨S1x1024, .f32⟩
  | .local _ .vmem, ⟨1, _⟩ => ⟨S1x1024, .f32⟩
  | .local _ .vmem, ⟨2, _⟩ => ⟨S128x1024, .f32⟩
  | .local _ .vmem, ⟨3, _⟩ => ⟨S128x2048, .f32⟩
  | .local _ .vmem, ⟨4, _⟩ => ⟨S1x128, .f32⟩
  | .local _ .vmem, ⟨5, _⟩ => ⟨S1024x2048, .f32⟩
  | .local _ .vmem, ⟨6, _⟩ => ⟨S1x1024, .f32⟩
  | .local _ .vmem, ⟨7, _⟩ => ⟨S1x1024, .f32⟩
  | .local _ .vmem, ⟨8, _⟩ => ⟨S1x128, .f32⟩
  | .local _ .vmem, ⟨9, _⟩ => ⟨S1x1024, .f32⟩
  | .local _ .vmem, ⟨10, _⟩ => ⟨S1x1024, .f32⟩
  | .local _ .vmem, ⟨11, _⟩ => ⟨S1536x1024, .f32⟩
  | .local _ .vmem, ⟨12, _⟩ => ⟨S1536x1024, .f32⟩
  | .local _ .vmem, ⟨13, _⟩ => ⟨S1x1536, .f32⟩
  | .local _ .vmem, ⟨14, _⟩ => ⟨S1x1536, .f32⟩
  | .local _ .vmem, ⟨15, _⟩ => ⟨S1x1536, .f32⟩
  | .local _ .vmem, ⟨16, _⟩ => ⟨S1x1536, .f32⟩
  | .local _ .vmem, ⟨17, _⟩ => ⟨S1x1536, .f32⟩
  | .local _ .vmem, ⟨18, _⟩ => ⟨S1x1536, .f32⟩
  | .local _ .vmem, ⟨19, _⟩ => ⟨S1x1024, .f32⟩
  | .local _ .vmem, ⟨20, _⟩ => ⟨S2048x1024, .f32⟩
  | .local _ .vmem, ⟨21, _⟩ => ⟨S2048x1024, .f32⟩
  | .local _ .vmem, ⟨22, _⟩ => ⟨S1x2048, .f32⟩
  | .local _ .vmem, ⟨23, _⟩ => ⟨S1x2048, .f32⟩
  | .local _ .vmem, ⟨24, _⟩ => ⟨S1x2048, .f32⟩
  | .local _ .vmem, ⟨25, _⟩ => ⟨S1x2048, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev main_v14_0 : Ref sig .tc := ⟨.hbm, 31, rfl⟩
abbrev main_v14_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_v24 : Ref sig .tc := ⟨.hbm, 43, rfl⟩
abbrev main_v25 : Ref sig .tc := ⟨.hbm, 44, rfl⟩
abbrev main_cst_1 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_2 : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_4 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call0_cst : Ref sig .tc := ⟨.hbm, 67, rfl⟩
abbrev main_call0_v0 : Ref sig .tc := ⟨.hbm, 68, rfl⟩
abbrev main_call0_cst_0 : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_cst_1 : Ref sig .tc := ⟨.hbm, 76, rfl⟩
abbrev main_call0_v7 : Ref sig .tc := ⟨.hbm, 77, rfl⟩
abbrev main_call0_v8 : Ref sig .tc := ⟨.hbm, 78, rfl⟩
abbrev main_call0_v9 : Ref sig .tc := ⟨.hbm, 79, rfl⟩
abbrev main_call0_v10 : Ref sig .tc := ⟨.hbm, 80, rfl⟩
abbrev main_v44 : Ref sig .tc := ⟨.hbm, 81, rfl⟩
abbrev main_v45 : Ref sig .tc := ⟨.hbm, 82, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc1_sem7_0 : DmaSem sig := 17
abbrev cc1_sem7_1 : DmaSem sig := 18
abbrev cc2_sem0_0 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1536x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1536x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x1536 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x1536 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 2 → Memref sig .tc .vmem S1x1536 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1536 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  shapeCasts_S128_S1x128 : S128.ShapeCasts S1x128
  shapeCasts_S1024_S1x1024 : S1024.ShapeCasts S1x1024
  shapeCasts_S3072_S1x3072 : S3072.ShapeCasts S1x3072
  shapeCasts_S50257_S1x50257 : S50257.ShapeCasts S1x50257
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  concatenates_S1x1024_S1x1024_S1x2048_d1 : Shape.Concatenates [S1x1024, S1x1024] S1x2048 1
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S1x128_S1 : S1x128.Reduces [1] S1
  shapeCasts_S1_S1x1 : S1.ShapeCasts S1x1
  broadcasts_S1x1_S1x128 : S1x1.Broadcasts S1x128
  inb_S128x1024_S128x1024_0_0 : ∀ a, (![0, 0] : Fin 2 → Nat) a + S128x1024.size a ≤ S128x1024.size a
  h_S128x1024 : 0 < S128x1024.numel
  inb_S1024x2048_S1024x2048_0_0 : ∀ a, (![0, 0] : Fin 2 → Nat) a + S1024x2048.size a ≤ S1024x2048.size a
  h_S1024x2048 : 0 < S1024x2048.numel
  inb_S1536x1024_S1536x1024_0_0 : ∀ a, (![0, 0] : Fin 2 → Nat) a + S1536x1024.size a ≤ S1536x1024.size a
  h_S1536x1024 : 0 < S1536x1024.numel
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  bcast_S_S1x1024 : S_.BroadcastsInDim S1x1024 (![] : Fin 0 → Fin S1x1024.rank)
  inb_S2048x1024_S2048x1024_0_0 : ∀ a, (![0, 0] : Fin 2 → Nat) a + S2048x1024.size a ≤ S2048x1024.size a
  h_S2048x1024 : 0 < S2048x1024.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reducesTo_S1x50257_S1_d1 : S1x50257.ReducesTo [1] S1
  h_S_ : 0 < S_.numel
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S128x2048_S1x128_1_1_0_0_n_n_wf : DotDims.WF S1x2048 S128x2048 S1x128 [1] [1] [0] [0] [] []
  dot_S1x128_S128x1024_S1x1024_1_0_0_1_n_n_wf : DotDims.WF S1x128 S128x1024 S1x1024 [1] [0] [0] [1] [] []
  dot_S1x2048_S1024x2048_S1x1024_1_1_0_0_n_n_wf : DotDims.WF S1x2048 S1024x2048 S1x1024 [1] [1] [0] [0] [] []
  dot_S1x1024_S1536x1024_S1x1536_1_1_0_0_n_n_wf : DotDims.WF S1x1024 S1536x1024 S1x1536 [1] [1] [0] [0] [] []
  dot_S1x1024_S2048x1024_S1x2048_1_1_0_0_n_n_wf : DotDims.WF S1x1024 S2048x1024 S1x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x1024.size a
  hwx0_2 : ∀ i : grid0.Coords, EltTy.bits .f32 = 32 ∨ (Rect.block (s := S128x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S128x2048.size a
  hwx0_3 : ∀ i : grid0.Coords, EltTy.bits .f32 = 32 ∨ (Rect.block (s := S128x2048) S128x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .f32 = 32 ∨ (Rect.block (s := S1024x2048) S1024x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1536x1024.size a ≤ S3072x1024.size a
  hwx1_2 : ∀ i : grid1.Coords, EltTy.bits .f32 = 32 ∨ (Rect.block (s := S3072x1024) S1536x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1536x1024.size a ≤ S3072x1024.size a
  hwx1_3 : ∀ i : grid1.Coords, EltTy.bits .f32 = 32 ∨ (Rect.block (s := S3072x1024) S1536x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1536.size a ≤ S1x3072.size a
  hwx1_4 : ∀ i : grid1.Coords, EltTy.bits .f32 = 32 ∨ (Rect.block (s := S1x3072) S1x1536.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1536.size a ≤ S1x3072.size a
  hwx1_5 : ∀ i : grid1.Coords, EltTy.bits .f32 = 32 ∨ (Rect.block (s := S1x3072) S1x1536.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1536.size a ≤ S1x3072.size a
  hwx1_6 : ∀ i : grid1.Coords, EltTy.bits .f32 = 32 ∨ (Rect.block (s := S1x3072) S1x1536.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1536.size a ≤ S1x3072.size a
  hwx1_7 : ∀ i : grid1.Coords, EltTy.bits .f32 = 32 ∨ (Rect.block (s := S1x3072) S1x1536.size (cc1_transform_7 i) (hinb1_7 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1024.size a ≤ S1x1024.size a
  hwx2_0 : ∀ i : grid2.Coords, EltTy.bits .f32 = 32 ∨ (Rect.block (s := S1x1024) S1x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S2048x1024.size a < S50257x1024.size a
  hwx2_1 : ∀ i : grid2.Coords, EltTy.bits .f32 = 32 ∨ (Rect.unit (s := S50257x1024) (fun a => cc2_transform_1 i a * S2048x1024.size a) (fun a => (Pipeline.Clip.of (cc2_transform_1 i a) (S2048x1024.size a) (S50257x1024.size a)).extent (S2048x1024.size a)) fun a => Pipeline.Clip.inb (Pipeline.Clip.ok_of (hstart2_1 i a))).WholeWords (EltTy.packing .f32)
  hwxs2_1 : ∀ i : grid2.Coords, EltTy.bits .f32 = 32 ∨ (Rect.unit (s := S2048x1024) (fun _ => 0) (fun a => (Pipeline.Clip.of (cc2_transform_1 i a) (S2048x1024.size a) (S50257x1024.size a)).extent (S2048x1024.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1x2048.size a < S1x50257.size a
  hwx2_2 : ∀ i : grid2.Coords, EltTy.bits .f32 = 32 ∨ (Rect.unit (s := S1x50257) (fun a => cc2_transform_2 i a * S1x2048.size a) (fun a => (Pipeline.Clip.of (cc2_transform_2 i a) (S1x2048.size a) (S1x50257.size a)).extent (S1x2048.size a)) fun a => Pipeline.Clip.inb (Pipeline.Clip.ok_of (hstart2_2 i a))).WholeWords (EltTy.packing .f32)
  hwxs2_2 : ∀ i : grid2.Coords, EltTy.bits .f32 = 32 ∨ (Rect.unit (s := S1x2048) (fun _ => 0) (fun a => (Pipeline.Clip.of (cc2_transform_2 i a) (S1x2048.size a) (S1x50257.size a)).extent (S1x2048.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S1x2048.size a < S1x50257.size a
  hwx2_3 : ∀ i : grid2.Coords, EltTy.bits .f32 = 32 ∨ (Rect.unit (s := S1x50257) (fun a => cc2_transform_3 i a * S1x2048.size a) (fun a => (Pipeline.Clip.of (cc2_transform_3 i a) (S1x2048.size a) (S1x50257.size a)).extent (S1x2048.size a)) fun a => Pipeline.Clip.inb (Pipeline.Clip.ok_of (hstart2_3 i a))).WholeWords (EltTy.packing .f32)
  hwxs2_3 : ∀ i : grid2.Coords, EltTy.bits .f32 = 32 ∨ (Rect.unit (s := S1x2048) (fun _ => 0) (fun a => (Pipeline.Clip.of (cc2_transform_3 i a) (S1x2048.size a) (S1x50257.size a)).extent (S1x2048.size a)) fun a => (Nat.zero_add _).trans_le (Pipeline.Clip.extent_le (Pipeline.Clip.ok_of (hstart2_3 i a)))).WholeWords (EltTy.packing .f32)

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S128x2048_S1x128_1_1_0_0_n_n : DotDims S1x2048 S128x2048 S1x128 where
  lhsContracting := [1]
  rhsContracting := [1]
  lhsNonContracting := [0]
  rhsNonContracting := [0]
  lhsBatch := []
  rhsBatch := []
  wf := dot_S1x2048_S128x2048_S1x128_1_1_0_0_n_n_wf
def dot_S1x128_S128x1024_S1x1024_1_0_0_1_n_n : DotDims S1x128 S128x1024 S1x1024 where
  lhsContracting := [1]
  rhsContracting := [0]
  lhsNonContracting := [0]
  rhsNonContracting := [1]
  lhsBatch := []
  rhsBatch := []
  wf := dot_S1x128_S128x1024_S1x1024_1_0_0_1_n_n_wf
def dot_S1x2048_S1024x2048_S1x1024_1_1_0_0_n_n : DotDims S1x2048 S1024x2048 S1x1024 where
  lhsContracting := [1]
  rhsContracting := [1]
  lhsNonContracting := [0]
  rhsNonContracting := [0]
  lhsBatch := []
  rhsBatch := []
  wf := dot_S1x2048_S1024x2048_S1x1024_1_1_0_0_n_n_wf
def dot_S1x1024_S1536x1024_S1x1536_1_1_0_0_n_n : DotDims S1x1024 S1536x1024 S1x1536 where
  lhsContracting := [1]
  rhsContracting := [1]
  lhsNonContracting := [0]
  rhsNonContracting := [0]
  lhsBatch := []
  rhsBatch := []
  wf := dot_S1x1024_S1536x1024_S1x1536_1_1_0_0_n_n_wf
def dot_S1x1024_S2048x1024_S1x2048_1_1_0_0_n_n : DotDims S1x1024 S2048x1024 S1x2048 where
  lhsContracting := [1]
  rhsContracting := [1]
  lhsNonContracting := [0]
  rhsNonContracting := [0]
  lhsBatch := []
  rhsBatch := []
  wf := dot_S1x1024_S2048x1024_S1x2048_1_1_0_0_n_n_wf

abbrev win0_0 : Pipeline.Window sig grid0 :=
  Pipeline.Window.ofSpec (Memref.whole main_v6) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13_0) S1x1024.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13_1) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v13_0) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S1536x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S1536x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x1536.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x1536.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14_0) S1x1536.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v14_1) S1x1536.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v42) S1x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_arg12) S2048x1024.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v12) S1x2048.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v43) S1x2048.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S128x1024 : Shape := ⟨2, ![128, 1024]⟩
abbrev S50257x1024 : Shape := ⟨2, ![50257, 1024]⟩
abbrev S128x2048 : Shape := ⟨2, ![128, 2048]⟩
abbrev S128 : Shape := ⟨1, ![128]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x128 : Shape := ⟨2, ![2048, 128]⟩
abbrev S1x128 : Shape := ⟨2, ![1, 128]⟩
abbrev S2048x1024 : Shape := ⟨2, ![2048, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 113
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S128x1024, .f32⟩
  | .hbm, ⟨3, _⟩ => ⟨S50257x1024, .f32⟩
  | .hbm, ⟨4, _⟩ => ⟨S128x2048, .f32⟩
  | .hbm, ⟨5, _⟩ => ⟨S128, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1024, .f32⟩
  | .hbm, ⟨24, _⟩ => ⟨S1x2048, .f32⟩
  | .hbm, ⟨25, _⟩ => ⟨S2048x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1x1, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1, .f32⟩
  | .hbm, ⟨40, _⟩ => ⟨S1x1, .f32⟩
  | .hbm, ⟨41, _⟩ => ⟨S1x128, .f32⟩
  | .hbm, ⟨42, _⟩ => ⟨S1x128, .f32⟩
  | .hbm, ⟨43, _⟩ => ⟨S1x1024, .f32⟩
  | .hbm, ⟨44, _⟩ => ⟨S1x2048, .f32⟩
  | .hbm, ⟨45, _⟩ => ⟨S2048x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1024x3072, .f32⟩
  | .hbm, ⟨53, _⟩ => ⟨S1x3072, .f32⟩
  | .hbm, ⟨54, _⟩ => ⟨S1x3072, .f32⟩
  | .hbm, ⟨55, _⟩ => ⟨S1x3072, .f32⟩
  | .hbm, ⟨56, _⟩ => ⟨S1024x3072, .f32⟩
  | .hbm, ⟨57, _⟩ => ⟨S1x3072, .f32⟩
  | .hbm, ⟨58, _⟩ => ⟨S1x3072, .f32⟩
  | .hbm, ⟨59, _⟩ => ⟨S1x3072, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S_, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1024x50257, .f32⟩
  | .hbm, ⟨94, _⟩ => ⟨S1x50257, .f32⟩
  | .hbm, ⟨95, _⟩ => ⟨S1x50257, .f32⟩
  | .hbm, ⟨96, _⟩ => ⟨S1x50257, .f32⟩
  | .hbm, ⟨97, _⟩ => ⟨S_, .f32⟩
  | .hbm, ⟨98, _⟩ => ⟨S1, .f32⟩
  | .hbm, ⟨99, _⟩ => ⟨S_, .f32⟩
  | .hbm, ⟨100, _⟩ => ⟨S1, .f32⟩
  | .hbm, ⟨101, _⟩ => ⟨S1, .f32⟩
  | .hbm, ⟨102, _⟩ => ⟨S1x1, .f32⟩
  | .hbm, ⟨103, _⟩ => ⟨S1x50257, .f32⟩
  | .hbm, ⟨104, _⟩ => ⟨S1x50257, .f32⟩
  | .hbm, ⟨105, _⟩ => ⟨S1x50257, .f32⟩
  | .hbm, ⟨106, _⟩ => ⟨S_, .f32⟩
  | .hbm, ⟨107, _⟩ => ⟨S1, .f32⟩
  | .hbm, ⟨108, _⟩ => ⟨S1x1, .f32⟩
  | .hbm, ⟨109, _⟩ => ⟨S1x1, .f32⟩
  | .hbm, ⟨110, _⟩ => ⟨S1x50257, .f32⟩
  | .hbm, ⟨111, _⟩ => ⟨S1x50257, .f32⟩
  | .hbm, ⟨112, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call1_cst : Ref sig .tc := ⟨.hbm, 97, rfl⟩
abbrev main_call1_v0 : Ref sig .tc := ⟨.hbm, 98, rfl⟩
abbrev main_call1_cst_0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_v5 : Ref sig .tc := ⟨.hbm, 104, rfl⟩
abbrev main_call1_v6 : Ref sig .tc := ⟨.hbm, 105, rfl⟩
abbrev main_call1_cst_1 : Ref sig .tc := ⟨.hbm, 106, rfl⟩
abbrev main_call1_v7 : Ref sig .tc := ⟨.hbm, 107, rfl⟩
abbrev main_call1_v8 : Ref sig .tc := ⟨.hbm, 108, rfl⟩
abbrev main_call1_v9 : Ref sig .tc := ⟨.hbm, 109, rfl⟩
abbrev main_call1_v10 : Ref sig .tc := ⟨.hbm, 110, rfl⟩
abbrev main_v71 : Ref sig .tc := ⟨.hbm, 111, rfl⟩
abbrev main_v72 : Ref sig .tc := ⟨.hbm, 112, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  concatenates_S1x1024_S1x1024_S1x2048_d1 : Shape.Concatenates [S1x1024, S1x1024] S1x2048 1
  transposes_S128x2048_S2048x128_1_0 : S128x2048.Transposes [1, 0] S2048x128
  bcast_S128_S1x128_1 : S128.BroadcastsInDim S1x128 (![1] : Fin 1 → Fin S1x128.rank)
  reducesTo_S1x128_S1_d1 : S1x128.ReducesTo [1] S1
  h_S_ : 0 < S_.numel
  bcast_S1x1_S1x128_0_1 : S1x1.BroadcastsInDim S1x128 (![0, 1] : Fin 2 → Fin S1x128.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x128_S1x128_1_0_0_1_n_n_wf : DotDims.WF S1x2048 S2048x128 S1x128 [1] [0] [0] [1] [] []
  dot_S1x128_S128x1024_S1x1024_1_0_0_1_n_n_wf : DotDims.WF S1x128 S128x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x128_S1x128_1_0_0_1_n_n : DotDims S1x2048 S2048x128 S1x128 where
  lhsContracting := [1]
  rhsContracting := [0]
  lhsNonContracting := [0]
  rhsNonContracting := [1]
  lhsBatch := []
  rhsBatch := []
  wf := dot_S1x2048_S2048x128_S1x128_1_0_0_1_n_n_wf
def dot_S1x128_S128x1024_S1x1024_1_0_0_1_n_n : DotDims S1x128 S128x1024 S1x1024 where
  lhsContracting := [1]
  rhsContracting := [0]
  lhsNonContracting := [0]
  rhsNonContracting := [1]
  lhsBatch := []
  rhsBatch := []
  wf := dot_S1x128_S128x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.Ref.Chunks.lean ====
/-
  The reference's ninety-nine host operations cut into seven consecutive stretches at the values that are read more than
  once later: the logits of the attention (A), its softmax (B), the context row, the combine projection and the rectifier
  (C), the two gate products (D), the gate combination (E), the output projection (G), the log-softmax and the returned
  hidden state (H). The whole list is their concatenation, so the contents after the whole list are the stretches' folds
  composed.
-/
import proofs.«415815_j77060303224971_3_alg».proof.Proof.RefRun
import proofs.«415815_j77060303224971_3_alg».proof.Proof.RefRead
import Idealize.ShloMosaic.Lib.Pipeline.Frame

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1 to 15. -/
abbrev opsA : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 50257#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg3 main_v5 main_v6 ((fun x i => Host.gather gather_S50257x1024_S1x1_S1x1024_1_0_n_n_0_1_11024 x i) : (⟨S50257x1024, .f32⟩ : BufTy).Contents (Elt F) → (⟨S1x1, .i32⟩ : BufTy).Contents (Elt F) → (⟨S1x1024, .f32⟩ : BufTy).Contents (Elt F)),
    reshape main_arg1 main_v7 rfl shapeCasts_S1x1x1024_S1x1024,
    binary main_v6 main_v7 main_v8 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg4 main_v9 ((transpose S2048x128 [1, 0] · transposes_S128x2048_S2048x128_1_0) : (⟨S128x2048, .f32⟩ : BufTy).Contents (Elt F) → (⟨S2048x128, .f32⟩ : BufTy).Contents (Elt F)),
    binary main_v8 main_v9 main_v10 ((fun l r => Host.dotGeneral dot_S1x2048_S2048x128_S1x128_1_0_0_1_n_n none l r) : (⟨S1x2048, .f32⟩ : BufTy).Contents (Elt F) → (⟨S2048x128, .f32⟩ : BufTy).Contents (Elt F) → (⟨S1x128, .f32⟩ : BufTy).Contents (Elt F)),
    unary main_arg5 main_v11 (broadcastInDim S1x128 ![1] bcast_S128_S1x128_1 : (⟨S128, .f32⟩ : BufTy).Contents (Elt F) → (⟨S1x128, .f32⟩ : BufTy).Contents (Elt F)),
    binary main_v10 main_v11 main_v12 (addf : (⟨S1x128, .f32⟩ : BufTy).Contents (Elt F) → (⟨S1x128, .f32⟩ : BufTy).Contents (Elt F) → (⟨S1x128, .f32⟩ : BufTy).Contents (Elt F)) ]

/-- Operations 16 to 29. -/
abbrev opsB : List (HloOp τ sig (Elt F)) :=
  [ nullary main_cst (constant S_ .f32 0xFF800000#32),
    binary main_v12 main_cst main_v13 ((fun x v => Host.reduce FloatOps.maximumf x v reducesTo_S1x128_S1_d1 h_S_) : (⟨S1x128, .f32⟩ : BufTy).Contents (Elt F) → (⟨S_, .f32⟩ : BufTy).Contents (Elt F) → (⟨S1, .f32⟩ : BufTy).Contents (Elt F)),
    nullary main_cst_1 (constant S_ .f32 0xFF800000#32),
    unary main_cst_1 main_v14 (broadcastInDim S1 ![] bcast_S_S1 : (⟨S_, .f32⟩ : BufTy).Contents (Elt F) → (⟨S1, .f32⟩ : BufTy).Contents (Elt F)),
    binary main_v14 main_v13 main_v15 (maximumf : (⟨S1, .f32⟩ : BufTy).Contents (Elt F) → (⟨S1, .f32⟩ : BufTy).Contents (Elt F) → (⟨S1, .f32⟩ : BufTy).Contents (Elt F)),
    unary main_v15 main_v16 (broadcastInDim S1x1 ![0] bcast_S1_S1x1_0 : (⟨S1, .f32⟩ : BufTy).Contents (Elt F) → (⟨S1x1, .f32⟩ : BufTy).Contents (Elt F)),
    unary main_v16 main_v17 (broadcastInDim S1x128 ![0, 1] bcast_S1x1_S1x128_0_1 : (⟨S1x1, .f32⟩ : BufTy).Contents (Elt F) → (⟨S1x128, .f32⟩ : BufTy).Contents (Elt F)),
    binary main_v12 main_v17 main_v18 (subf : (⟨S1x128, .f32⟩ : BufTy).Contents (Elt F) → (⟨S1x128, .f32⟩ : BufTy).Contents (Elt F) → (⟨S1x128, .f32⟩ : BufTy).Contents (Elt F)),
    unary main_v18 main_v19 (Host.exp : (⟨S1x128, .f32⟩ : BufTy).Contents (Elt F) → (⟨S1x128, .f32⟩ : BufTy).Contents (Elt F)),
    nullary main_cst_2 (constant S_ .f32 0x00000000#32),
    binary main_v19 main_cst_2 main_v20 ((fun x v => Host.reduceAdd x v reducesTo_S1x128_S1_d1 h_S_) : (⟨S1x128, .f32⟩ : BufTy).Contents (Elt F) → (⟨S_, .f32⟩ : BufTy).Contents (Elt F) → (⟨S1, .f32⟩ : BufTy).Contents (Elt F)),
    unary main_v20 main_v21 (broadcastInDim S1x1 ![0] bcast_S1_S1x1_0 : (⟨S1, .f32⟩ : BufTy).Contents (Elt F) → (⟨S1x1, .f32⟩ : BufTy).Contents (Elt F)),
    unary main_v21 main_v22 (broadcastInDim S1x128 ![0, 1] bcast_S1x1_S1x128_0_1 : (⟨S1x1, .f32⟩ : BufTy).Contents (Elt F) → (⟨S1x128, .f32⟩ : BufTy).Contents (Elt F)),
    binary main_v19 main_v22 main_v23 (Host.divf : (⟨S1x128, .f32⟩ : BufTy).Contents (Elt F) → (⟨S1x128, .f32⟩ : BufTy).Contents (Elt F) → (⟨S1x128, .f32⟩ : BufTy).Contents (Elt F)) ]

/-- Operations 30 to 38. -/
abbrev opsC : List (HloOp τ sig (Elt F)) :=
  [ binary main_v23 main_arg2 main_v24 ((fun l r => Host.dotGeneral dot_S1x128_S128x1024_S1x1024_1_0_0_1_n_n none l r) : (⟨S1x128, .f32⟩ : BufTy).Contents (Elt F) → (⟨S128x1024, .f32⟩ : BufTy).Contents (Elt F) → (⟨S1x1024, .f32⟩ : BufTy).Contents (Elt F)),
    binary main_v6 main_v24 main_v25 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg6 main_v26 ((transpose S2048x1024 [1, 0] · transposes_S1024x2048_S2048x1024_1_0) : (⟨S1024x2048, .f32⟩ : BufTy).Contents (Elt F) → (⟨S2048x1024, .f32⟩ : BufTy).Contents (Elt F)),
    binary main_v25 main_v26 main_v27 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    unary main_arg7 main_v28 (broadcastInDim S1x1024 ![1] bcast_S1024_S1x1024_1 : (⟨S1024, .f32⟩ : BufTy).Contents (Elt F) → (⟨S1x1024, .f32⟩ : BufTy).Contents (Elt F)),
    binary main_v27 main_v28 main_v29 (addf : (⟨S1x1024, .f32⟩ : BufTy).Contents (Elt F) → (⟨S1x1024, .f32⟩ : BufTy).Contents (Elt F) → (⟨S1x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v29) (TRef.of (T := ⟨S1x1024, .f32⟩) main_call0_v0) (TRef.of (T := ⟨S1x1024, .f32⟩) main_v30) maximumf ]

/-- Operations 39 to 46. -/
abbrev opsD : List (HloOp τ sig (Elt F)) :=
  [ unary main_arg8 main_v31 ((transpose S1024x3072 [1, 0] · transposes_S3072x1024_S1024x3072_1_0) : (⟨S3072x1024, .f32⟩ : BufTy).Contents (Elt F) → (⟨S1024x3072, .f32⟩ : BufTy).Contents (Elt F)),
    binary main_v30 main_v31 main_v32 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg10 main_v33 (broadcastInDim S1x3072 ![1] bcast_S3072_S1x3072_1 : (⟨S3072, .f32⟩ : BufTy).Contents (Elt F) → (⟨S1x3072, .f32⟩ : BufTy).Contents (Elt F)),
    binary main_v32 main_v33 main_v34 (addf : (⟨S1x3072, .f32⟩ : BufTy).Contents (Elt F) → (⟨S1x3072, .f32⟩ : BufTy).Contents (Elt F) → (⟨S1x3072, .f32⟩ : BufTy).Contents (Elt F)),
    unary main_arg9 main_v35 ((transpose S1024x3072 [1, 0] · transposes_S3072x1024_S1024x3072_1_0) : (⟨S3072x1024, .f32⟩ : BufTy).Contents (Elt F) → (⟨S1024x3072, .f32⟩ : BufTy).Contents (Elt F)),
    binary main_v7 main_v35 main_v36 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg11 main_v37 (broadcastInDim S1x3072 ![1] bcast_S3072_S1x3072_1 : (⟨S3072, .f32⟩ : BufTy).Contents (Elt F) → (⟨S1x3072, .f32⟩ : BufTy).Contents (Elt F)),
    binary main_v36 main_v37 main_v38 (addf : (⟨S1x3072, .f32⟩ : BufTy).Contents (Elt F) → (⟨S1x3072, .f32⟩ : BufTy).Contents (Elt F) → (⟨S1x3072, .f32⟩ : BufTy).Contents (Elt F)) ]

/-- Operations 47 to 79. -/
abbrev opsE : List (HloOp τ sig (Elt F)) :=
  [ unary main_v34 main_v39 ((extractStridedSlice S1x1024 ![0, 0] · slices_S1x3072_S1x1024_0_0) : (⟨S1x3072, .f32⟩ : BufTy).Contents (Elt F) → (⟨S1x1024, .f32⟩ : BufTy).Contents (Elt F)),
    unary main_v34 main_v40 ((extractStridedSlice S1x1024 ![0, 1024] · slices_S1x3072_S1x1024_0_1024) : (⟨S1x3072, .f32⟩ : BufTy).Contents (Elt F) → (⟨S1x1024, .f32⟩ : BufTy).Contents (Elt F)),
    unary main_v34 main_v41 ((extractStridedSlice S1x1024 ![0, 2048] · slices_S1x3072_S1x1024_0_2048) : (⟨S1x3072, .f32⟩ : BufTy).Contents (Elt F) → (⟨S1x1024, .f32⟩ : BufTy).Contents (Elt F)),
    unary main_v38 main_v42 ((extractStridedSlice S1x1024 ![0, 0] · slices_S1x3072_S1x1024_0_0) : (⟨S1x3072, .f32⟩ : BufTy).Contents (Elt F) → (⟨S1x1024, .f32⟩ : BufTy).Contents (Elt F)),
    unary main_v38 main_v43 ((extractStridedSlice S1x1024 ![0, 1024] · slices_S1x3072_S1x1024_0_1024) : (⟨S1x3072, .f32⟩ : BufTy).Contents (Elt F) → (⟨S1x1024, .f32⟩ : BufTy).Contents (Elt F)),
    unary main_v38 main_v44 ((extractStridedSlice S1x1024 ![0, 2048] · slices_S1x3072_S1x1024_0_2048) : (⟨S1x3072, .f32⟩ : BufTy).Contents (Elt F) → (⟨S1x1024, .f32⟩ : BufTy).Contents (Elt F)),
    binary main_v39 main_v42 main_v45 (addf : (⟨S1x1024, .f32⟩ : BufTy).Contents (Elt F) → (⟨S1x1024, .f32⟩ : BufTy).Contents (Elt F) → (⟨S1x1024, .f32⟩ : BufTy).Contents (Elt F)),
    unary main_v45 main_v46 (Host.negf : (⟨S1x1024, .f32⟩ : BufTy).Contents (Elt F) → (⟨S1x1024, .f32⟩ : BufTy).Contents (Elt F)),
    unary main_v46 main_v47 (Host.exp : (⟨S1x1024, .f32⟩ : BufTy).Contents (Elt F) → (⟨S1x1024, .f32⟩ : BufTy).Contents (Elt F)),
    nullary main_cst_3 (constant S_ .f32 0x3F800000#32),
    unary main_cst_3 main_v48 (broadcastInDim S1x1024 ![] bcast_S_S1x1024 : (⟨S_, .f32⟩ : BufTy).Contents (Elt F) → (⟨S1x1024, .f32⟩ : BufTy).Contents (Elt F)),
    binary main_v48 main_v47 main_v49 (addf : (⟨S1x1024, .f32⟩ : BufTy).Contents (Elt F) → (⟨S1x1024, .f32⟩ : BufTy).Contents (Elt F) → (⟨S1x1024, .f32⟩ : BufTy).Contents (Elt F)),
    nullary main_cst_4 (constant S_ .f32 0x3F800000#32),
    unary main_cst_4 main_v50 (broadcastInDim S1x1024 ![] bcast_S_S1x1024 : (⟨S_, .f32⟩ : BufTy).Contents (Elt F) → (⟨S1x1024, .f32⟩ : BufTy).Contents (Elt F)),
    binary main_v50 main_v49 main_v51 (Host.divf : (⟨S1x1024, .f32⟩ : BufTy).Contents (Elt F) → (⟨S1x1024, .f32⟩ : BufTy).Contents (Elt F) → (⟨S1x1024, .f32⟩ : BufTy).Contents (Elt F)),
    binary main_v40 main_v43 main_v52 (addf : (⟨S1x1024, .f32⟩ : BufTy).Contents (Elt F) → (⟨S1x1024, .f32⟩ : BufTy).Contents (Elt F) → (⟨S1x1024, .f32⟩ : BufTy).Contents (Elt F)),
    unary main_v52 main_v53 (Host.negf : (⟨S1x1024, .f32⟩ : BufTy).Contents (Elt F) → (⟨S1x1024, .f32⟩ : BufTy).Contents (Elt F)),
    unary main_v53 main_v54 (Host.exp : (⟨S1x1024, .f32⟩ : BufTy).Contents (Elt F) → (⟨S1x1024, .f32⟩ : BufTy).Contents (Elt F)),
    nullary main_cst_5 (constant S_ .f32 0x3F800000#32),
    unary main_cst_5 main_v55 (broadcastInDim S1x1024 ![] bcast_S_S1x1024 : (⟨S_, .f32⟩ : BufTy).Contents (Elt F) → (⟨S1x1024, .f32⟩ : BufTy).Contents (Elt F)),
    binary main_v55 main_v54 main_v56 (addf : (⟨S1x1024, .f32⟩ : BufTy).Contents (Elt F) → (⟨S1x1024, .f32⟩ : BufTy).Contents (Elt F) → (⟨S1x1024, .f32⟩ : BufTy).Contents (Elt F)),
    nullary main_cst_6 (constant S_ .f32 0x3F800000#32),
    unary main_cst_6 main_v57 (broadcastInDim S1x1024 ![] bcast_S_S1x1024 : (⟨S_, .f32⟩ : BufTy).Contents (Elt F) → (⟨S1x1024, .f32⟩ : BufTy).Contents (Elt F)),
    binary main_v57 main_v56 main_v58 (Host.divf : (⟨S1x1024, .f32⟩ : BufTy).Contents (Elt F) → (⟨S1x1024, .f32⟩ : BufTy).Contents (Elt F) → (⟨S1x1024, .f32⟩ : BufTy).Contents (Elt F)),
    binary main_v51 main_v44 main_v59 (mulf : (⟨S1x1024, .f32⟩ : BufTy).Contents (Elt F) → (⟨S1x1024, .f32⟩ : BufTy).Contents (Elt F) → (⟨S1x1024, .f32⟩ : BufTy).Contents (Elt F)),
    binary main_v41 main_v59 main_v60 (addf : (⟨S1x1024, .f32⟩ : BufTy).Contents (Elt F) → (⟨S1x1024, .f32⟩ : BufTy).Contents (Elt F) → (⟨S1x1024, .f32⟩ : BufTy).Contents (Elt F)),
    unary main_v60 main_v61 (Host.tanh : (⟨S1x1024, .f32⟩ : BufTy).Contents (Elt F) → (⟨S1x1024, .f32⟩ : BufTy).Contents (Elt F)),
    nullary main_cst_7 (constant S_ .f32 0x3F800000#32),
    unary main_cst_7 main_v62 (broadcastInDim S1x1024 ![] bcast_S_S1x1024 : (⟨S_, .f32⟩ : BufTy).Contents (Elt F) → (⟨S1x1024, .f32⟩ : BufTy).Contents (Elt F)),
    binary main_v62 main_v58 main_v63 (subf : (⟨S1x1024, .f32⟩ : BufTy).Contents (Elt F) → (⟨S1x1024, .f32⟩ : BufTy).Contents (Elt F) → (⟨S1x1024, .f32⟩ : BufTy).Contents (Elt F)),
    binary main_v63 main_v61 main_v64 (mulf : (⟨S1x1024, .f32⟩ : BufTy).Contents (Elt F) → (⟨S1x1024, .f32⟩ : BufTy).Contents (Elt F) → (⟨S1x1024, .f32⟩ : BufTy).Contents (Elt F)),
    binary main_v58 main_v7 main_v65 (mulf : (⟨S1x1024, .f32⟩ : BufTy).Contents (Elt F) → (⟨S1x1024, .f32⟩ : BufTy).Contents (Elt F) → (⟨S1x1024, .f32⟩ : BufTy).Contents (Elt F)),
    binary main_v64 main_v65 main_v66 (addf : (⟨S1x1024, .f32⟩ : BufTy).Contents (Elt F) → (⟨S1x1024, .f32⟩ : BufTy).Contents (Elt F) → (⟨S1x1024, .f32⟩ : BufTy).Contents (Elt F)) ]

/-- Operations 80 to 83. -/
abbrev opsG : List (HloOp τ sig (Elt F)) :=
  [ unary main_arg12 main_v67 ((transpose S1024x50257 [1, 0] · transposes_S50257x1024_S1024x50257_1_0) : (⟨S50257x1024, .f32⟩ : BufTy).Contents (Elt F) → (⟨S1024x50257, .f32⟩ : BufTy).Contents (Elt F)),
    binary main_v66 main_v67 main_v68 ((fun l r => Host.dotGeneral dot_S1x1024_S1024x50257_S1x50257_1_0_0_1_n_n none l r) : (⟨S1x1024, .f32⟩ : BufTy).Contents (Elt F) → (⟨S1024x50257, .f32⟩ : BufTy).Contents (Elt F) → (⟨S1x50257, .f32⟩ : BufTy).Contents (Elt F)),
    unary main_arg13 main_v69 (broadcastInDim S1x50257 ![1] bcast_S50257_S1x50257_1 : (⟨S50257, .f32⟩ : BufTy).Contents (Elt F) → (⟨S1x50257, .f32⟩ : BufTy).Contents (Elt F)),
    binary main_v68 main_v69 main_v70 (addf : (⟨S1x50257, .f32⟩ : BufTy).Contents (Elt F) → (⟨S1x50257, .f32⟩ : BufTy).Contents (Elt F) → (⟨S1x50257, .f32⟩ : BufTy).Contents (Elt F)) ]

/-- Operations 84 to 99. -/
abbrev opsH : List (HloOp τ sig (Elt F)) :=
  [ TRef.nullary (TRef.of (T := ⟨S_, .f32⟩) main_call1_cst) (constant S_ .f32 0xFF800000#32),
    TRef.binary (TRef.of (T := ⟨S1x50257, .f32⟩) main_v70) (TRef.of (T := ⟨S_, .f32⟩) main_call1_cst) (TRef.of (T := ⟨S1, .f32⟩) main_call1_v0) (fun x v => Host.reduce FloatOps.maximumf x v reducesTo_S1x50257_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x50257, .f32⟩) main_call1_v4) (broadcastInDim S1x50257 ![0, 1] bcast_S1x1_S1x50257_0_1),
    TRef.binary (TRef.of (T := ⟨S1x50257, .f32⟩) main_v70) (TRef.of (T := ⟨S1x50257, .f32⟩) main_call1_v4) (TRef.of (T := ⟨S1x50257, .f32⟩) main_call1_v5) subf,
    TRef.unary (TRef.of (T := ⟨S1x50257, .f32⟩) main_call1_v5) (TRef.of (T := ⟨S1x50257, .f32⟩) main_call1_v6) Host.exp,
    TRef.nullary (TRef.of (T := ⟨S_, .f32⟩) main_call1_cst_1) (constant S_ .f32 0x00000000#32),
    TRef.binary (TRef.of (T := ⟨S1x50257, .f32⟩) main_call1_v6) (TRef.of (T := ⟨S_, .f32⟩) main_call1_cst_1) (TRef.of (T := ⟨S1, .f32⟩) main_call1_v7) (fun x v => Host.reduceAdd x v reducesTo_S1x50257_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x50257, .f32⟩) main_call1_v10) (broadcastInDim S1x50257 ![0, 1] bcast_S1x1_S1x50257_0_1),
    TRef.binary (TRef.of (T := ⟨S1x50257, .f32⟩) main_call1_v5) (TRef.of (T := ⟨S1x50257, .f32⟩) main_call1_v10) (TRef.of (T := ⟨S1x50257, .f32⟩) main_v71) subf,
    unary main_v66 main_v72 (broadcastInDim S1x1x1024 ![1, 2] bcast_S1x1024_S1x1x1024_1_2 : (⟨S1x1024, .f32⟩ : BufTy).Contents (Elt F) → (⟨S1x1x1024, .f32⟩ : BufTy).Contents (Elt F)) ]

set_option maxRecDepth 65536 in
/-- The operation list is the seven stretches in order. -/
theorem ops_split : (Cert.ReferenceIdeal.ValueP.ops : List (HloOp τ sig (Elt F))) = opsA ++ (opsB ++ (opsC ++ (opsD ++ (opsE ++ (opsG ++ opsH))))) := rfl

/-- The contents after the whole list: the stretches' folds composed. -/
theorem after_ops (V : Valuation τ sig (Elt F)) :
    StableHlo.after Cert.ReferenceIdeal.ValueP.ops V
      = StableHlo.after opsH (StableHlo.after opsG (StableHlo.after opsE (StableHlo.after opsD (StableHlo.after opsC (StableHlo.after opsB (StableHlo.after opsA V)))))) := by
  rw [ops_split, StableHlo.after_append, StableHlo.after_append, StableHlo.after_append,
    StableHlo.after_append, StableHlo.after_append, StableHlo.after_append]

end Cert.ReferenceIdeal.Hand

end
-- ==== Proof.Ref.A.lean ====
/-
  The first stretch of the reference (operations 1 to 15), read at the three buffers later stretches use: the embedding
  row (the table gathered at the token index, a negative index counted from the table's end), the previous hidden state
  reshaped to a row, and the attention logits (the two rows joined, against the transposed attention matrix, plus the
  bias). Each holds its stage of the arguments. A buffer the stretch does not write keeps its contents.
-/
import proofs.«415815_j77060303224971_3_alg».proof.Proof.Ref.Chunks

set_option maxRecDepth 16384

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-! ## What the stretch leaves in the buffers read later -/

/-- The embedding row: the table gathered at the token index, a negative index counted from the table's end. -/
theorem A_v6 (W : Valuation τ sig (Elt F)) :
    StableHlo.after opsA W (Proc.devRef .tc main_v6)
      = val_main_v6 (W (Proc.devRef .tc main_arg0)) (W (Proc.devRef .tc main_arg3)) := by
  after_results_simp
  unfold val_main_v6 val_main_v5 val_main_v4 val_main_v3 val_main_v2 val_main_c_0 val_main_v1 val_main_v0 val_main_c
  rfl

/-- The previous hidden state as a row. -/
theorem A_v7 (W : Valuation τ sig (Elt F)) :
    StableHlo.after opsA W (Proc.devRef .tc main_v7) = val_main_v7 (W (Proc.devRef .tc main_arg1)) := by
  after_results_simp
  unfold val_main_v7
  rfl

/-- The attention logits: the embedding row joined with the hidden row, against the transposed attention matrix,
    plus the bias. -/
theorem A_v12 (W : Valuation τ sig (Elt F)) :
    StableHlo.after opsA W (Proc.devRef .tc main_v12)
      = val_main_v12 (W (Proc.devRef .tc main_arg0)) (W (Proc.devRef .tc main_arg1)) (W (Proc.devRef .tc main_arg3)) (W (Proc.devRef .tc main_arg4)) (W (Proc.devRef .tc main_arg5)) := by
  after_results_simp
  unfold val_main_v12 val_main_v11 val_main_v10 val_main_v9 val_main_v8 val_main_v7 val_main_v6 val_main_v5 val_main_v4
    val_main_v3 val_main_v2 val_main_c_0 val_main_v1 val_main_v0 val_main_c
  rfl

/-! ## What the stretch leaves alone -/

/-- The references the stretch's operations write. -/
abbrev opsA_W : List (Ref sig .tc) :=
  [main_c, main_v0, main_v1, main_c_0, main_v2, main_v3, main_v4, main_v5, main_v6, main_v7, main_v8, main_v9, main_v10, main_v11, main_v12]

theorem opsA_writes : (opsA : List (HloOp τ sig (Elt F))).Forall fun op => op.writes ⊆ (opsA_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A buffer none of the stretch's operations writes holds after it what it held before. -/
theorem keepA (W : Valuation τ sig (Elt F)) (r : Ref sig .tc) (h : r ∉ opsA_W) :
    StableHlo.after opsA W (Proc.devRef .tc r) = W (Proc.devRef .tc r) :=
  StableHlo.after_of_writes_sub opsA W opsA_writes h

end Cert.ReferenceIdeal.Hand

end
-- ==== Proof.Ref.B.lean ====
/-
  The second stretch of the reference (operations 16 to 29): the softmax of the attention logits, the maximum taken
  against −∞, the logits shifted by it, exponentiated, and divided by their sum. Given that the logits' buffer holds
  its stage, the weights' buffer holds its stage after the stretch. A buffer the stretch does not write keeps its
  contents.
-/
import proofs.«415815_j77060303224971_3_alg».proof.Proof.Ref.Chunks

set_option maxRecDepth 16384

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-! ## What the stretch leaves in the buffer read later -/

/-- The attention weights: the softmax of the logits, exp(x − max x) over its sum. -/
theorem B_v23 (W : Valuation τ sig (Elt F))
    (x0 : (⟨S1, .i32⟩ : BufTy).Contents (Elt F)) (x1 : (⟨S1x1x1024, .f32⟩ : BufTy).Contents (Elt F))
    (x3 : (⟨S50257x1024, .f32⟩ : BufTy).Contents (Elt F)) (x4 : (⟨S128x2048, .f32⟩ : BufTy).Contents (Elt F))
    (x5 : (⟨S128, .f32⟩ : BufTy).Contents (Elt F))
    (h12 : W (Proc.devRef .tc main_v12) = val_main_v12 x0 x1 x3 x4 x5) :
    StableHlo.after opsB W (Proc.devRef .tc main_v23) = val_main_v23 x0 x1 x3 x4 x5 := by
  after_results_simp
  rw [h12]
  unfold val_main_v23 val_main_v22 val_main_v21 val_main_v20 val_main_cst_2 val_main_v19 val_main_v18 val_main_v17
    val_main_v16 val_main_v15 val_main_v14 val_main_cst_1 val_main_v13 val_main_cst
  rfl

/-! ## What the stretch leaves alone -/

/-- The references the stretch's operations write. -/
abbrev opsB_W : List (Ref sig .tc) :=
  [main_cst, main_v13, main_cst_1, main_v14, main_v15, main_v16, main_v17, main_v18, main_v19, main_cst_2, main_v20, main_v21, main_v22, main_v23]

theorem opsB_writes : (opsB : List (HloOp τ sig (Elt F))).Forall fun op => op.writes ⊆ (opsB_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A buffer none of the stretch's operations writes holds after it what it held before. -/
theorem keepB (W : Valuation τ sig (Elt F)) (r : Ref sig .tc) (h : r ∉ opsB_W) :
    StableHlo.after opsB W (Proc.devRef .tc r) = W (Proc.devRef .tc r) :=
  StableHlo.after_of_writes_sub opsB W opsB_writes h

end Cert.ReferenceIdeal.Hand

end
-- ==== Proof.Ref.C.lean ====
/-
  The third stretch of the reference's host operations: the context row (the attention weights times the encoder rows),
  the row [embedding | context], the combine projection with its bias, and the rectifier (the maximum with a zero row,
  an outlined function inlined, its operations stated over references that carry their value's type). When the buffers
  the stretch reads hold the reference's stages, the rectified row's buffer holds the stage of the rectified row; every
  buffer the stretch does not write is left as it was.
-/
import proofs.«415815_j77060303224971_3_alg».proof.Proof.Ref.Chunks

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-! ## The stretch in two: the projection's six operations, then the rectifier's three -/

/-- The context row, the row [embedding | context], the transposed combine matrix, their product, the bias row, the sum. -/
abbrev opsC_lin : List (HloOp τ sig (Elt F)) :=
  [ binary main_v23 main_arg2 main_v24 ((fun l r => Host.dotGeneral dot_S1x128_S128x1024_S1x1024_1_0_0_1_n_n none l r) : (⟨S1x128, .f32⟩ : BufTy).Contents (Elt F) → (⟨S128x1024, .f32⟩ : BufTy).Contents (Elt F) → (⟨S1x1024, .f32⟩ : BufTy).Contents (Elt F)),
    binary main_v6 main_v24 main_v25 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg6 main_v26 ((transpose S2048x1024 [1, 0] · transposes_S1024x2048_S2048x1024_1_0) : (⟨S1024x2048, .f32⟩ : BufTy).Contents (Elt F) → (⟨S2048x1024, .f32⟩ : BufTy).Contents (Elt F)),
    binary main_v25 main_v26 main_v27 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    unary main_arg7 main_v28 (broadcastInDim S1x1024 ![1] bcast_S1024_S1x1024_1 : (⟨S1024, .f32⟩ : BufTy).Contents (Elt F) → (⟨S1x1024, .f32⟩ : BufTy).Contents (Elt F)),
    binary main_v27 main_v28 main_v29 (addf : (⟨S1x1024, .f32⟩ : BufTy).Contents (Elt F) → (⟨S1x1024, .f32⟩ : BufTy).Contents (Elt F) → (⟨S1x1024, .f32⟩ : BufTy).Contents (Elt F)) ]

/-- The rectifier: a zero constant, its broadcast to a row, the maximum with it. -/
abbrev opsC_relu : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v29) (TRef.of (T := ⟨S1x1024, .f32⟩) main_call0_v0) (TRef.of (T := ⟨S1x1024, .f32⟩) main_v30) maximumf ]

/-- The stretch is the two parts in order. -/
theorem opsC_split : (opsC : List (HloOp τ sig (Elt F))) = opsC_lin ++ opsC_relu := rfl

/-! ## An operation over references that carry their value's type

The rectifier's operations move contents between the carried type and the buffer's own along an equation of types.
Read back at the carried type, an operation's result is its function of its operands read at theirs. -/

namespace TypedC

variable {Tx Ta Tb Ty : BufTy}

/-- Contents moved to a typed reference's buffer type and back are the contents. -/
theorem ofBuf_toBuf (y : TRef sig Ty) (v : Ty.Contents (Elt F)) : y.ofBuf (y.toBuf v) = v := by
  simp only [TRef.ofBuf, TRef.toBuf, cast_cast, cast_eq]

theorem nullary_read (y : TRef sig Ty) (v : Ty.Contents (Elt F)) (W : Valuation τ sig (Elt F)) :
    y.ofBuf ((TRef.nullary y v).result W (Proc.devRef .tc y.ref)) = v :=
  (congrArg y.ofBuf (nullary_result y.ref (y.toBuf v) y.dev W)).trans (ofBuf_toBuf y v)

theorem unary_read (x : TRef sig Tx) (y : TRef sig Ty) (f : Tx.Contents (Elt F) → Ty.Contents (Elt F)) (W : Valuation τ sig (Elt F)) :
    y.ofBuf ((TRef.unary x y f).result W (Proc.devRef .tc y.ref)) = f (x.ofBuf (W (Proc.devRef .tc x.ref))) :=
  (congrArg y.ofBuf (unary_result x.ref y.ref (fun u => y.toBuf (f (x.ofBuf u))) x.dev y.dev W)).trans (ofBuf_toBuf y _)

theorem binary_read (a : TRef sig Ta) (b : TRef sig Tb) (y : TRef sig Ty)
    (f : Ta.Contents (Elt F) → Tb.Contents (Elt F) → Ty.Contents (Elt F)) (W : Valuation τ sig (Elt F)) :
    y.ofBuf ((TRef.binary a b y f).result W (Proc.devRef .tc y.ref))
      = f (a.ofBuf (W (Proc.devRef .tc a.ref))) (b.ofBuf (W (Proc.devRef .tc b.ref))) :=
  (congrArg y.ofBuf (binary_result a.ref b.ref y.ref (fun u v => y.toBuf (f (a.ofBuf u) (b.ofBuf v))) a.dev b.dev y.dev W)).trans
    (ofBuf_toBuf y _)

end TypedC

open Cert.ReferenceIdeal.Hand.TypedC

/-! ## What the stretch leaves -/

/-- After the projection's operations the sum's buffer holds the stage before the rectifier, when the buffers read hold
    the attention weights, the embedded row, the encoder rows, the combine matrix and its bias. -/
theorem C_v29 (W : Valuation τ sig (Elt F)) (x0 : (⟨S1, .i32⟩ : BufTy).Contents (Elt F)) (x1 : (⟨S1x1x1024, .f32⟩ : BufTy).Contents (Elt F))
    (x2 : (⟨S128x1024, .f32⟩ : BufTy).Contents (Elt F)) (x3 : (⟨S50257x1024, .f32⟩ : BufTy).Contents (Elt F))
    (x4 : (⟨S128x2048, .f32⟩ : BufTy).Contents (Elt F)) (x5 : (⟨S128, .f32⟩ : BufTy).Contents (Elt F))
    (x6 : (⟨S1024x2048, .f32⟩ : BufTy).Contents (Elt F)) (x7 : (⟨S1024, .f32⟩ : BufTy).Contents (Elt F))
    (h23 : W (Proc.devRef .tc main_v23) = val_main_v23 (F := F) x0 x1 x3 x4 x5)
    (h6 : W (Proc.devRef .tc main_v6) = val_main_v6 (F := F) x0 x3)
    (h2 : W (Proc.devRef .tc main_arg2) = x2) (ha6 : W (Proc.devRef .tc main_arg6) = x6) (ha7 : W (Proc.devRef .tc main_arg7) = x7) :
    StableHlo.after opsC_lin W (Proc.devRef .tc main_v29) = val_main_v29 (F := F) x0 x1 x2 x3 x4 x5 x6 x7 := by
  after_results
  rw [h23, h2, h6, ha6, ha7]
  unfold val_main_v29 val_main_v28 val_main_v27 val_main_v26 val_main_v25 val_main_v24
  rfl

/-- After the rectifier's operations its result's buffer holds the maximum of what the sum's buffer held and the zero row. -/
theorem C_relu (W : Valuation τ sig (Elt F)) :
    StableHlo.after opsC_relu W (Proc.devRef .tc main_v30)
      = maximumf (W (Proc.devRef .tc main_v29))
          (broadcastInDim S1x1024 ![] bcast_S_S1x1024 (constant (F := F) S_ .f32 0x00000000#32)) := by
  have key : (TRef.of main_v30 : TRef sig ⟨S1x1024, .f32⟩).ofBuf (StableHlo.after opsC_relu W (Proc.devRef .tc main_v30))
      = maximumf ((TRef.of main_v29 : TRef sig ⟨S1x1024, .f32⟩).ofBuf (W (Proc.devRef .tc main_v29)))
          (broadcastInDim S1x1024 ![] bcast_S_S1x1024 (constant (F := F) S_ .f32 0x00000000#32)) := by
    simp only [after_cons, after_nil]
    repeat (first
      | rw [nullary_read] | rw [unary_read] | rw [binary_read]
      | (rw [nullary_result_ne]; rotate_left; decide)
      | (rw [unary_result_ne]; rotate_left; decide)
      | (rw [binary_result_ne]; rotate_left; decide))
    first | done | rfl
  exact (cast_eq _ _).symm.trans (key.trans (congrArg (fun u => maximumf u
    (broadcastInDim S1x1024 ![] bcast_S_S1x1024 (constant (F := F) S_ .f32 0x00000000#32))) (cast_eq _ _)))

/-- After the whole stretch the rectified row's buffer holds its stage. -/
theorem C_v30 (W : Valuation τ sig (Elt F)) (x0 : (⟨S1, .i32⟩ : BufTy).Contents (Elt F)) (x1 : (⟨S1x1x1024, .f32⟩ : BufTy).Contents (Elt F))
    (x2 : (⟨S128x1024, .f32⟩ : BufTy).Contents (Elt F)) (x3 : (⟨S50257x1024, .f32⟩ : BufTy).Contents (Elt F))
    (x4 : (⟨S128x2048, .f32⟩ : BufTy).Contents (Elt F)) (x5 : (⟨S128, .f32⟩ : BufTy).Contents (Elt F))
    (x6 : (⟨S1024x2048, .f32⟩ : BufTy).Contents (Elt F)) (x7 : (⟨S1024, .f32⟩ : BufTy).Contents (Elt F))
    (h23 : W (Proc.devRef .tc main_v23) = val_main_v23 (F := F) x0 x1 x3 x4 x5)
    (h6 : W (Proc.devRef .tc main_v6) = val_main_v6 (F := F) x0 x3)
    (h2 : W (Proc.devRef .tc main_arg2) = x2) (ha6 : W (Proc.devRef .tc main_arg6) = x6) (ha7 : W (Proc.devRef .tc main_arg7) = x7) :
    StableHlo.after opsC W (Proc.devRef .tc main_v30) = val_main_v30 (F := F) x0 x1 x2 x3 x4 x5 x6 x7 := by
  rw [opsC_split, StableHlo.after_append, C_relu, C_v29 W x0 x1 x2 x3 x4 x5 x6 x7 h23 h6 h2 ha6 ha7]
  first | done | (unfold val_main_v30 val_main_call0_v0 val_main_call0_cst; rfl)

/-! ## What the stretch leaves alone -/

/-- The references the stretch's operations write. -/
abbrev opsC_W : List (Ref sig .tc) :=
  [main_v24, main_v25, main_v26, main_v27, main_v28, main_v29, main_call0_cst, main_call0_v0, main_v30]

/-- Each operation writes one of them. -/
theorem opsC_writes : (opsC : List (HloOp τ sig (Elt F))).Forall fun op => op.writes ⊆ (opsC_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A buffer that is none of them holds after the stretch what it held before. -/
theorem keepC (W : Valuation τ sig (Elt F)) (r : Ref sig .tc) (h : r ∉ opsC_W) :
    StableHlo.after opsC W (Proc.devRef .tc r) = W (Proc.devRef .tc r) :=
  StableHlo.after_of_writes_sub opsC W opsC_writes h

end Cert.ReferenceIdeal.Hand

end
-- ==== Proof.Ref.D.lean ====
/-
  The reference's two gate products of the recurrent cell (operations 39 to 46): the rectified combined row times the
  transposed input-side gate weights plus their bias row, and the old hidden row times the transposed hidden-side gate
  weights plus theirs. When the buffers the stretch reads hold their stages, the two result buffers hold the
  reference's stages; a buffer the stretch does not write keeps what it held.
-/
import proofs.«415815_j77060303224971_3_alg».proof.Proof.Ref.Chunks
import Idealize.ShloMosaic.Lib.StableHlo.Run

set_option maxRecDepth 16384

noncomputable section

namespace Cert.ReferenceIdeal.Hand

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- The input-side gate row: the combined row's buffer holding its stage, the weights and the bias their arguments. -/
theorem D_v34 (W : Valuation τ sig (Elt F)) (x0 : (⟨S1, .i32⟩ : BufTy).Contents (Elt F)) (x1 : (⟨S1x1x1024, .f32⟩ : BufTy).Contents (Elt F)) (x2 : (⟨S128x1024, .f32⟩ : BufTy).Contents (Elt F)) (x3 : (⟨S50257x1024, .f32⟩ : BufTy).Contents (Elt F)) (x4 : (⟨S128x2048, .f32⟩ : BufTy).Contents (Elt F)) (x5 : (⟨S128, .f32⟩ : BufTy).Contents (Elt F)) (x6 : (⟨S1024x2048, .f32⟩ : BufTy).Contents (Elt F)) (x7 : (⟨S1024, .f32⟩ : BufTy).Contents (Elt F))
    (x8 : (⟨S3072x1024, .f32⟩ : BufTy).Contents (Elt F)) (x10 : (⟨S3072, .f32⟩ : BufTy).Contents (Elt F))
    (h30 : W (Proc.devRef .tc main_v30) = val_main_v30 (F := F) x0 x1 x2 x3 x4 x5 x6 x7)
    (h8 : W (Proc.devRef .tc main_arg8) = x8) (h10 : W (Proc.devRef .tc main_arg10) = x10) :
    StableHlo.after opsD W (Proc.devRef .tc main_v34) = val_main_v34 (F := F) x0 x1 x2 x3 x4 x5 x6 x7 x8 x10 := by
  after_results_simp
  rw [h30, h8, h10]
  unfold val_main_v34 val_main_v33 val_main_v32 val_main_v31
  rfl

/-- The hidden-side gate row: the old hidden row's buffer holding its stage, the weights and the bias their arguments. -/
theorem D_v38 (W : Valuation τ sig (Elt F)) (x1 : (⟨S1x1x1024, .f32⟩ : BufTy).Contents (Elt F)) (x9 : (⟨S3072x1024, .f32⟩ : BufTy).Contents (Elt F)) (x11 : (⟨S3072, .f32⟩ : BufTy).Contents (Elt F))
    (h7 : W (Proc.devRef .tc main_v7) = val_main_v7 (F := F) x1)
    (h9 : W (Proc.devRef .tc main_arg9) = x9) (h11 : W (Proc.devRef .tc main_arg11) = x11) :
    StableHlo.after opsD W (Proc.devRef .tc main_v38) = val_main_v38 (F := F) x1 x9 x11 := by
  after_results_simp
  rw [h7, h9, h11]
  unfold val_main_v38 val_main_v37 val_main_v36 val_main_v35
  rfl

/-- The references the stretch writes. -/
abbrev opsD_W : List (Ref sig .tc) := [main_v31, main_v32, main_v33, main_v34, main_v35, main_v36, main_v37, main_v38]

/-- One operation writes its result reference, which is in the list. -/
local macro "writes_listed" : tactic =>
  `(tactic| (simp only [StableHlo.nullary_writes, StableHlo.unary_writes, StableHlo.binary_writes, StableHlo.ternary_writes,
               StableHlo.quaternary_writes, StableHlo.reshape_writes, StableHlo.binaryIndexed_writes,
               StableHlo.unaryIndexed_writes, StableHlo.nary_writes, Finset.singleton_subset_iff, List.mem_toFinset]
             exact List.mem_map_of_mem (by decide)))

theorem opsD_writes : (opsD : List (HloOp τ sig (Elt F))).Forall fun op => op.writes ⊆ (opsD_W.map (Proc.devRef (τ := τ) .tc)).toFinset := by
  simp only [List.Forall]
  exact ⟨by writes_listed, by writes_listed, by writes_listed, by writes_listed, by writes_listed, by writes_listed,
    by writes_listed, by writes_listed⟩

/-- A buffer the stretch does not write keeps its contents. -/
theorem keepD (W : Valuation τ sig (Elt F)) (r : Ref sig .tc) (h : r ∉ opsD_W) :
    StableHlo.after opsD W (Proc.devRef .tc r) = W (Proc.devRef .tc r) :=
  StableHlo.after_of_writes_sub opsD W opsD_writes h

end Cert.ReferenceIdeal.Hand

end
-- ==== Proof.Ref.E.lean ====
/-
  The gate combination of the reference's recurrent cell (operations 47 to 79): from the two gate rows and the reshaped
  old hidden state to the new hidden row, r = 1/(1+exp(−(gx_r+gh_r))), z = 1/(1+exp(−(gx_z+gh_z))),
  n = tanh(gx_n + r·gh_n), h' = (1−z)·n + z·h. If the three buffers the stretch reads hold their stages, the new hidden
  row's buffer ends holding its stage; and the stretch leaves every buffer it does not write as it was.
-/
import proofs.«415815_j77060303224971_3_alg».proof.Proof.Ref.Chunks
set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- After the stretch the new hidden row's buffer holds its stage, if the gate rows' and the old hidden row's hold theirs. -/
theorem E_v66 (W : Valuation τ sig (Elt F)) (x0 : (⟨S1, .i32⟩ : BufTy).Contents (Elt F)) (x1 : (⟨S1x1x1024, .f32⟩ : BufTy).Contents (Elt F))
    (x2 : (⟨S128x1024, .f32⟩ : BufTy).Contents (Elt F)) (x3 : (⟨S50257x1024, .f32⟩ : BufTy).Contents (Elt F))
    (x4 : (⟨S128x2048, .f32⟩ : BufTy).Contents (Elt F)) (x5 : (⟨S128, .f32⟩ : BufTy).Contents (Elt F))
    (x6 : (⟨S1024x2048, .f32⟩ : BufTy).Contents (Elt F)) (x7 : (⟨S1024, .f32⟩ : BufTy).Contents (Elt F))
    (x8 x9 : (⟨S3072x1024, .f32⟩ : BufTy).Contents (Elt F)) (x10 x11 : (⟨S3072, .f32⟩ : BufTy).Contents (Elt F))
    (h34 : W (Proc.devRef .tc main_v34) = val_main_v34 x0 x1 x2 x3 x4 x5 x6 x7 x8 x10)
    (h38 : W (Proc.devRef .tc main_v38) = val_main_v38 x1 x9 x11)
    (h7 : W (Proc.devRef .tc main_v7) = val_main_v7 x1) :
    StableHlo.after opsE W (Proc.devRef .tc main_v66) = val_main_v66 x0 x1 x2 x3 x4 x5 x6 x7 x8 x9 x10 x11 := by
  after_results_simp
  rw [h34, h38, h7]
  unfold val_main_v66 val_main_v65 val_main_v64 val_main_v63 val_main_v62 val_main_cst_7 val_main_v61 val_main_v60
    val_main_v59 val_main_v58 val_main_v57 val_main_cst_6 val_main_v56 val_main_v55 val_main_cst_5 val_main_v54
    val_main_v53 val_main_v52 val_main_v51 val_main_v50 val_main_cst_4 val_main_v49 val_main_v48 val_main_cst_3
    val_main_v47 val_main_v46 val_main_v45 val_main_v44 val_main_v43 val_main_v42 val_main_v41 val_main_v40 val_main_v39
  generalize val_main_v34 x0 x1 x2 x3 x4 x5 x6 x7 x8 x10 = gx
  generalize val_main_v38 x1 x9 x11 = gh
  generalize val_main_v7 x1 = h0
  rfl

/-- The references the stretch's operations write. -/
abbrev opsE_W : List (Ref sig .tc) := [main_v39, main_v40, main_v41, main_v42, main_v43, main_v44, main_v45, main_v46, main_v47, main_cst_3, main_v48, main_v49, main_cst_4, main_v50, main_v51, main_v52, main_v53, main_v54, main_cst_5, main_v55, main_v56, main_cst_6, main_v57, main_v58, main_v59, main_v60, main_v61, main_cst_7, main_v62, main_v63, main_v64, main_v65, main_v66]

theorem opsE_writes : (opsE : List (HloOp τ sig (Elt F))).Forall fun op => op.writes ⊆ (opsE_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- The stretch leaves a buffer it does not write as it was. -/
theorem keepE (W : Valuation τ sig (Elt F)) (r : Ref sig .tc) (h : r ∉ opsE_W) :
    StableHlo.after opsE W (Proc.devRef .tc r) = W (Proc.devRef .tc r) :=
  StableHlo.after_of_writes_sub opsE W opsE_writes h

end Cert.ReferenceIdeal.Hand

end
-- ==== Proof.Ref.G.lean ====
/-
  The reference's output projection (operations 80 to 83): the new hidden row times the transposed output weights plus
  the output bias row. When the new hidden row's buffer holds its stage, the logits' buffer holds the reference's
  stage; a buffer the stretch does not write keeps what it held.
-/
import proofs.«415815_j77060303224971_3_alg».proof.Proof.Ref.Chunks
import Idealize.ShloMosaic.Lib.StableHlo.Run

set_option maxRecDepth 16384

noncomputable section

namespace Cert.ReferenceIdeal.Hand

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- The logits row: the new hidden row's buffer holding its stage, the weights and the bias their arguments. -/
theorem G_v70 (W : Valuation τ sig (Elt F)) (x0 : (⟨S1, .i32⟩ : BufTy).Contents (Elt F)) (x1 : (⟨S1x1x1024, .f32⟩ : BufTy).Contents (Elt F)) (x2 : (⟨S128x1024, .f32⟩ : BufTy).Contents (Elt F)) (x3 : (⟨S50257x1024, .f32⟩ : BufTy).Contents (Elt F)) (x4 : (⟨S128x2048, .f32⟩ : BufTy).Contents (Elt F)) (x5 : (⟨S128, .f32⟩ : BufTy).Contents (Elt F)) (x6 : (⟨S1024x2048, .f32⟩ : BufTy).Contents (Elt F)) (x7 : (⟨S1024, .f32⟩ : BufTy).Contents (Elt F))
    (x8 x9 : (⟨S3072x1024, .f32⟩ : BufTy).Contents (Elt F)) (x10 x11 : (⟨S3072, .f32⟩ : BufTy).Contents (Elt F)) (x12 : (⟨S50257x1024, .f32⟩ : BufTy).Contents (Elt F)) (x13 : (⟨S50257, .f32⟩ : BufTy).Contents (Elt F))
    (h66 : W (Proc.devRef .tc main_v66) = val_main_v66 (F := F) x0 x1 x2 x3 x4 x5 x6 x7 x8 x9 x10 x11)
    (h12 : W (Proc.devRef .tc main_arg12) = x12) (h13 : W (Proc.devRef .tc main_arg13) = x13) :
    StableHlo.after opsG W (Proc.devRef .tc main_v70) = val_main_v70 (F := F) x0 x1 x2 x3 x4 x5 x6 x7 x8 x9 x10 x11 x12 x13 := by
  after_results_simp
  rw [h66, h12, h13]
  unfold val_main_v70 val_main_v69 val_main_v68 val_main_v67
  rfl

/-- The references the stretch writes. -/
abbrev opsG_W : List (Ref sig .tc) := [main_v67, main_v68, main_v69, main_v70]

/-- One operation writes its result reference, which is in the list. -/
local macro "writes_listed" : tactic =>
  `(tactic| (simp only [StableHlo.nullary_writes, StableHlo.unary_writes, StableHlo.binary_writes, StableHlo.ternary_writes,
               StableHlo.quaternary_writes, StableHlo.reshape_writes, StableHlo.binaryIndexed_writes,
               StableHlo.unaryIndexed_writes, StableHlo.nary_writes, Finset.singleton_subset_iff, List.mem_toFinset]
             exact List.mem_map_of_mem (by decide)))

theorem opsG_writes : (opsG : List (HloOp τ sig (Elt F))).Forall fun op => op.writes ⊆ (opsG_W.map (Proc.devRef (τ := τ) .tc)).toFinset := by
  simp only [List.Forall]
  exact ⟨by writes_listed, by writes_listed, by writes_listed, by writes_listed⟩

/-- A buffer the stretch does not write keeps its contents. -/
theorem keepG (W : Valuation τ sig (Elt F)) (r : Ref sig .tc) (h : r ∉ opsG_W) :
    StableHlo.after opsG W (Proc.devRef .tc r) = W (Proc.devRef .tc r) :=
  StableHlo.after_of_writes_sub opsG W opsG_writes h

end Cert.ReferenceIdeal.Hand

end
-- ==== Proof.LibTypedRead.lean ====
/-
  Reads through references that carry their value's type. The body of a function called from the main function stands
  at the call site as operations over such references: each operation's function is given at the carried types, and
  contents are moved between a carried type and the buffer's own type along an equation of types. Read back at the carried type, an operation's
  result is its function of the operands read at their carried types: no movement is left in the statement. The three
  lemmas cover the builders with no, one and two operands; `typed_results` rewrites a fold over a literal list of
  operations with them, with the plain builders' results, and past every operation that writes another reference.
-/
import Idealize.ShloMosaic.Lib.StableHlo.Run

noncomputable section

namespace TypedRead

open Idealize.ShloMosaic Idealize.ShloMosaic.TcCoe
open Idealize.SL Idealize.SL.Sem
open Idealize.ShloMosaic.StableHlo

variable {τ : Topo} {sig : RefSig} {Val : EltTy → Type} {Tx Ta Tb Ty : BufTy}

/-- Contents moved to a typed reference's buffer type and back are the contents. -/
theorem ofBuf_toBuf (y : TRef sig Ty) (v : Ty.Contents Val) : y.ofBuf (y.toBuf v) = v := by
  simp only [TRef.ofBuf, TRef.toBuf, cast_cast, cast_eq]

/-- A typed operation with no operand, read back at the carried type of its result: its value. -/
theorem nullary_read (y : TRef sig Ty) (v : Ty.Contents Val) (W : Valuation τ sig Val) :
    y.ofBuf ((TRef.nullary y v).result W (Proc.devRef .tc y.ref)) = v :=
  (congrArg y.ofBuf (nullary_result y.ref (y.toBuf v) y.dev W)).trans (ofBuf_toBuf y v)

/-- A typed operation with one operand, read back at the carried type of its result: its function of the operand's
    contents read at the operand's carried type. -/
theorem unary_read (x : TRef sig Tx) (y : TRef sig Ty) (f : Tx.Contents Val → Ty.Contents Val) (W : Valuation τ sig Val) :
    y.ofBuf ((TRef.unary x y f).result W (Proc.devRef .tc y.ref)) = f (x.ofBuf (W (Proc.devRef .tc x.ref))) :=
  (congrArg y.ofBuf (unary_result x.ref y.ref (fun u => y.toBuf (f (x.ofBuf u))) x.dev y.dev W)).trans (ofBuf_toBuf y _)

/-- A typed operation with two operands, likewise. -/
theorem binary_read (a : TRef sig Ta) (b : TRef sig Tb) (y : TRef sig Ty)
    (f : Ta.Contents Val → Tb.Contents Val → Ty.Contents Val) (W : Valuation τ sig Val) :
    y.ofBuf ((TRef.binary a b y f).result W (Proc.devRef .tc y.ref))
      = f (a.ofBuf (W (Proc.devRef .tc a.ref))) (b.ofBuf (W (Proc.devRef .tc b.ref))) :=
  (congrArg y.ofBuf (binary_result a.ref b.ref y.ref (fun u v => y.toBuf (f (a.ofBuf u) (b.ofBuf v))) a.dev b.dev y.dev W)).trans
    (ofBuf_toBuf y _)

/-- Rewrites a goal about `y.ofBuf (StableHlo.after ops W (Proc.devRef .tc y.ref))`, `ops` a literal list: unfolds the
    fold, then reads every typed operation's result at its carried type (the three lemmas above), every plain
    operation's result at its own buffer, and passes every operation that writes another reference, until none applies.
    What is left is the operations' functions composed over the input contents, a typed operand's read at its carried
    type (`x.ofBuf (W (Proc.devRef .tc x.ref))`). -/
macro "typed_results" : tactic =>
  `(tactic| (simp only [StableHlo.after_cons, StableHlo.after_nil]
             repeat (first
               | rw [TypedRead.nullary_read] | rw [TypedRead.unary_read] | rw [TypedRead.binary_read]
               | rw [StableHlo.nullary_result] | rw [StableHlo.unary_result] | rw [StableHlo.binary_result]
               | rw [StableHlo.ternary_result] | rw [StableHlo.reshape_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.reshape_result_ne]; rotate_left; decide))))

end TypedRead

end
-- ==== Proof.Ref.H.lean ====
/-
  The reference's log-softmax of the logits (operations 84 to 98, the body of a called function standing at the call
  site) and its last operation, the new hidden row given its leading unit axis (operation 99). If the logits' buffer
  holds its stage, the first result's buffer ends holding x − max x − log Σ exp(x − max x) as its stage states it; if
  the new hidden row's buffer holds its stage, the second result's ends holding its; and the stretch leaves every buffer
  it does not write as it was. The log-softmax's operations are over references that carry their value's type: each is
  read back at the carried type, where its result is its function of its operands read at theirs.
-/
import proofs.«415815_j77060303224971_3_alg».proof.Proof.Ref.Chunks
import proofs.«415815_j77060303224971_3_alg».proof.Proof.LibTypedRead
set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- After the stretch the first result's buffer holds the log-softmax stage, if the logits' buffer holds its stage. -/
theorem H_v71 (W : Valuation τ sig (Elt F)) (x0 : (⟨S1, .i32⟩ : BufTy).Contents (Elt F)) (x1 : (⟨S1x1x1024, .f32⟩ : BufTy).Contents (Elt F))
    (x2 : (⟨S128x1024, .f32⟩ : BufTy).Contents (Elt F)) (x3 : (⟨S50257x1024, .f32⟩ : BufTy).Contents (Elt F))
    (x4 : (⟨S128x2048, .f32⟩ : BufTy).Contents (Elt F)) (x5 : (⟨S128, .f32⟩ : BufTy).Contents (Elt F))
    (x6 : (⟨S1024x2048, .f32⟩ : BufTy).Contents (Elt F)) (x7 : (⟨S1024, .f32⟩ : BufTy).Contents (Elt F))
    (x8 x9 : (⟨S3072x1024, .f32⟩ : BufTy).Contents (Elt F)) (x10 x11 : (⟨S3072, .f32⟩ : BufTy).Contents (Elt F))
    (x12 : (⟨S50257x1024, .f32⟩ : BufTy).Contents (Elt F)) (x13 : (⟨S50257, .f32⟩ : BufTy).Contents (Elt F))
    (h70 : W (Proc.devRef .tc main_v70) = val_main_v70 x0 x1 x2 x3 x4 x5 x6 x7 x8 x9 x10 x11 x12 x13) :
    StableHlo.after opsH W (Proc.devRef .tc main_v71) = val_main_v71 x0 x1 x2 x3 x4 x5 x6 x7 x8 x9 x10 x11 x12 x13 := by
  have hin : (TRef.of (T := ⟨S1x50257, .f32⟩) main_v70 : TRef sig ⟨S1x50257, .f32⟩).ofBuf (W (Proc.devRef .tc main_v70))
      = val_main_v70 x0 x1 x2 x3 x4 x5 x6 x7 x8 x9 x10 x11 x12 x13 := (cast_eq _ _).trans h70
  have key : (TRef.of (T := ⟨S1x50257, .f32⟩) main_v71 : TRef sig ⟨S1x50257, .f32⟩).ofBuf (StableHlo.after opsH W (Proc.devRef .tc main_v71))
      = val_main_v71 x0 x1 x2 x3 x4 x5 x6 x7 x8 x9 x10 x11 x12 x13 := by
    typed_results
    rw [hin]
    unfold val_main_v71 val_main_call1_v10 val_main_call1_v9 val_main_call1_v8 val_main_call1_v7 val_main_call1_cst_1
      val_main_call1_v6 val_main_call1_v5 val_main_call1_v4 val_main_call1_v3 val_main_call1_v2 val_main_call1_v1
      val_main_call1_cst_0 val_main_call1_v0 val_main_call1_cst
    generalize val_main_v70 x0 x1 x2 x3 x4 x5 x6 x7 x8 x9 x10 x11 x12 x13 = x
    rfl
  exact (cast_eq _ _).symm.trans key

/-- After the stretch the second result's buffer holds its stage, if the new hidden row's buffer holds its stage. -/
theorem H_v72 (W : Valuation τ sig (Elt F)) (x0 : (⟨S1, .i32⟩ : BufTy).Contents (Elt F)) (x1 : (⟨S1x1x1024, .f32⟩ : BufTy).Contents (Elt F))
    (x2 : (⟨S128x1024, .f32⟩ : BufTy).Contents (Elt F)) (x3 : (⟨S50257x1024, .f32⟩ : BufTy).Contents (Elt F))
    (x4 : (⟨S128x2048, .f32⟩ : BufTy).Contents (Elt F)) (x5 : (⟨S128, .f32⟩ : BufTy).Contents (Elt F))
    (x6 : (⟨S1024x2048, .f32⟩ : BufTy).Contents (Elt F)) (x7 : (⟨S1024, .f32⟩ : BufTy).Contents (Elt F))
    (x8 x9 : (⟨S3072x1024, .f32⟩ : BufTy).Contents (Elt F)) (x10 x11 : (⟨S3072, .f32⟩ : BufTy).Contents (Elt F))
    (h66 : W (Proc.devRef .tc main_v66) = val_main_v66 x0 x1 x2 x3 x4 x5 x6 x7 x8 x9 x10 x11) :
    StableHlo.after opsH W (Proc.devRef .tc main_v72) = val_main_v72 x0 x1 x2 x3 x4 x5 x6 x7 x8 x9 x10 x11 := by
  after_results
  rw [h66]
  unfold val_main_v72
  rfl

/-- The references the stretch's operations write. -/
abbrev opsH_W : List (Ref sig .tc) := [main_call1_cst, main_call1_v0, main_call1_cst_0, main_call1_v1, main_call1_v2, main_call1_v3, main_call1_v4, main_call1_v5, main_call1_v6, main_call1_cst_1, main_call1_v7, main_call1_v8, main_call1_v9, main_call1_v10, main_v71, main_v72]

theorem opsH_writes : (opsH : List (HloOp τ sig (Elt F))).Forall fun op => op.writes ⊆ (opsH_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- The stretch leaves a buffer it does not write as it was. -/
theorem keepH (W : Valuation τ sig (Elt F)) (r : Ref sig .tc) (h : r ∉ opsH_W) :
    StableHlo.after opsH W (Proc.devRef .tc r) = W (Proc.devRef .tc r) :=
  StableHlo.after_of_writes_sub opsH W opsH_writes h

end Cert.ReferenceIdeal.Hand

end
-- ==== Proof.Ref.Reads.lean ====
/-
  The reference's fold read at the three results and at the arguments: stretch by stretch every value read again later is
  carried to where it is used, so each result's buffer holds its stage of the launch contents of the arguments, and no
  argument is written.
-/
import proofs.«415815_j77060303224971_3_alg».proof.Proof.Ref.A
import proofs.«415815_j77060303224971_3_alg».proof.Proof.Ref.B
import proofs.«415815_j77060303224971_3_alg».proof.Proof.Ref.C
import proofs.«415815_j77060303224971_3_alg».proof.Proof.Ref.D
import proofs.«415815_j77060303224971_3_alg».proof.Proof.Ref.E
import proofs.«415815_j77060303224971_3_alg».proof.Proof.Ref.G
import proofs.«415815_j77060303224971_3_alg».proof.Proof.Ref.H

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F] (V : Valuation τ sig (Elt F))

/-- A buffer no stretch writes is as launched after the whole list. -/
theorem keep_all (r : Ref sig .tc) (hA : r ∉ opsA_W) (hB : r ∉ opsB_W) (hC : r ∉ opsC_W) (hD : r ∉ opsD_W) (hE : r ∉ opsE_W)
    (hG : r ∉ opsG_W) (hH : r ∉ opsH_W) :
    StableHlo.after Cert.ReferenceIdeal.ValueP.ops V (Proc.devRef .tc r) = V (Proc.devRef .tc r) := by
  rw [after_ops, keepH _ r hH, keepG _ r hG, keepE _ r hE, keepD _ r hD, keepC _ r hC, keepB _ r hB, keepA _ r hA]

theorem read_arg0 : StableHlo.after Cert.ReferenceIdeal.ValueP.ops V (Proc.devRef .tc main_arg0) = V (Proc.devRef .tc main_arg0) :=
  keep_all V main_arg0 (by decide) (by decide) (by decide) (by decide) (by decide) (by decide) (by decide)
theorem read_arg1 : StableHlo.after Cert.ReferenceIdeal.ValueP.ops V (Proc.devRef .tc main_arg1) = V (Proc.devRef .tc main_arg1) :=
  keep_all V main_arg1 (by decide) (by decide) (by decide) (by decide) (by decide) (by decide) (by decide)
theorem read_arg2 : StableHlo.after Cert.ReferenceIdeal.ValueP.ops V (Proc.devRef .tc main_arg2) = V (Proc.devRef .tc main_arg2) :=
  keep_all V main_arg2 (by decide) (by decide) (by decide) (by decide) (by decide) (by decide) (by decide)
theorem read_arg3 : StableHlo.after Cert.ReferenceIdeal.ValueP.ops V (Proc.devRef .tc main_arg3) = V (Proc.devRef .tc main_arg3) :=
  keep_all V main_arg3 (by decide) (by decide) (by decide) (by decide) (by decide) (by decide) (by decide)
theorem read_arg4 : StableHlo.after Cert.ReferenceIdeal.ValueP.ops V (Proc.devRef .tc main_arg4) = V (Proc.devRef .tc main_arg4) :=
  keep_all V main_arg4 (by decide) (by decide) (by decide) (by decide) (by decide) (by decide) (by decide)
theorem read_arg5 : StableHlo.after Cert.ReferenceIdeal.ValueP.ops V (Proc.devRef .tc main_arg5) = V (Proc.devRef .tc main_arg5) :=
  keep_all V main_arg5 (by decide) (by decide) (by decide) (by decide) (by decide) (by decide) (by decide)
theorem read_arg6 : StableHlo.after Cert.ReferenceIdeal.ValueP.ops V (Proc.devRef .tc main_arg6) = V (Proc.devRef .tc main_arg6) :=
  keep_all V main_arg6 (by decide) (by decide) (by decide) (by decide) (by decide) (by decide) (by decide)
theorem read_arg7 : StableHlo.after Cert.ReferenceIdeal.ValueP.ops V (Proc.devRef .tc main_arg7) = V (Proc.devRef .tc main_arg7) :=
  keep_all V main_arg7 (by decide) (by decide) (by decide) (by decide) (by decide) (by decide) (by decide)
theorem read_arg8 : StableHlo.after Cert.ReferenceIdeal.ValueP.ops V (Proc.devRef .tc main_arg8) = V (Proc.devRef .tc main_arg8) :=
  keep_all V main_arg8 (by decide) (by decide) (by decide) (by decide) (by decide) (by decide) (by decide)
theorem read_arg9 : StableHlo.after Cert.ReferenceIdeal.ValueP.ops V (Proc.devRef .tc main_arg9) = V (Proc.devRef .tc main_arg9) :=
  keep_all V main_arg9 (by decide) (by decide) (by decide) (by decide) (by decide) (by decide) (by decide)
theorem read_arg10 : StableHlo.after Cert.ReferenceIdeal.ValueP.ops V (Proc.devRef .tc main_arg10) = V (Proc.devRef .tc main_arg10) :=
  keep_all V main_arg10 (by decide) (by decide) (by decide) (by decide) (by decide) (by decide) (by decide)
theorem read_arg11 : StableHlo.after Cert.ReferenceIdeal.ValueP.ops V (Proc.devRef .tc main_arg11) = V (Proc.devRef .tc main_arg11) :=
  keep_all V main_arg11 (by decide) (by decide) (by decide) (by decide) (by decide) (by decide) (by decide)
theorem read_arg12 : StableHlo.after Cert.ReferenceIdeal.ValueP.ops V (Proc.devRef .tc main_arg12) = V (Proc.devRef .tc main_arg12) :=
  keep_all V main_arg12 (by decide) (by decide) (by decide) (by decide) (by decide) (by decide) (by decide)
theorem read_arg13 : StableHlo.after Cert.ReferenceIdeal.ValueP.ops V (Proc.devRef .tc main_arg13) = V (Proc.devRef .tc main_arg13) :=
  keep_all V main_arg13 (by decide) (by decide) (by decide) (by decide) (by decide) (by decide) (by decide)

/-- The attention weights: written by the softmax stretch, carried to the end. -/
theorem read_v23 : StableHlo.after Cert.ReferenceIdeal.ValueP.ops V (Proc.devRef .tc main_v23) = val_main_v23 (V (Proc.devRef .tc main_arg0)) (V (Proc.devRef .tc main_arg1)) (V (Proc.devRef .tc main_arg3)) (V (Proc.devRef .tc main_arg4)) (V (Proc.devRef .tc main_arg5)) := by
  rw [after_ops, keepH _ main_v23 (by decide), keepG _ main_v23 (by decide), keepE _ main_v23 (by decide), keepD _ main_v23 (by decide),
    keepC _ main_v23 (by decide)]
  exact B_v23 _ _ _ _ _ _ (A_v12 V)

/-- The new hidden row, after the gate combination. -/
theorem at_v66 : StableHlo.after opsE (StableHlo.after opsD (StableHlo.after opsC (StableHlo.after opsB (StableHlo.after opsA V)))) (Proc.devRef .tc main_v66)
    = val_main_v66 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  have a (k : Ref sig .tc) (hA : k ∉ opsA_W) : StableHlo.after opsA V (Proc.devRef .tc k) = V (Proc.devRef .tc k) := keepA V k hA
  have hA6 := A_v6 V
  have hA7 := A_v7 V
  have hA12 := A_v12 V
  have hB23 := B_v23 (StableHlo.after opsA V) _ _ _ _ _ hA12
  have hB6 : StableHlo.after opsB (StableHlo.after opsA V) (Proc.devRef .tc main_v6) = _ := (keepB _ main_v6 (by decide)).trans hA6
  have hB7 : StableHlo.after opsB (StableHlo.after opsA V) (Proc.devRef .tc main_v7) = _ := (keepB _ main_v7 (by decide)).trans hA7
  have b (k : Ref sig .tc) (hA : k ∉ opsA_W) (hB : k ∉ opsB_W) :
      StableHlo.after opsB (StableHlo.after opsA V) (Proc.devRef .tc k) = V (Proc.devRef .tc k) := (keepB _ k hB).trans (keepA V k hA)
  have hC30 := C_v30 (StableHlo.after opsB (StableHlo.after opsA V)) _ _ _ _ _ _ _ _ hB23 hB6
    (b main_arg2 (by decide) (by decide)) (b main_arg6 (by decide) (by decide)) (b main_arg7 (by decide) (by decide))
  have hC7 : StableHlo.after opsC (StableHlo.after opsB (StableHlo.after opsA V)) (Proc.devRef .tc main_v7) = _ := (keepC _ main_v7 (by decide)).trans hB7
  have cc (k : Ref sig .tc) (hA : k ∉ opsA_W) (hB : k ∉ opsB_W) (hC : k ∉ opsC_W) :
      StableHlo.after opsC (StableHlo.after opsB (StableHlo.after opsA V)) (Proc.devRef .tc k) = V (Proc.devRef .tc k) :=
    (keepC _ k hC).trans (b k hA hB)
  have hD34 := D_v34 (StableHlo.after opsC (StableHlo.after opsB (StableHlo.after opsA V))) _ _ _ _ _ _ _ _ _ _ hC30
    (cc main_arg8 (by decide) (by decide) (by decide)) (cc main_arg10 (by decide) (by decide) (by decide))
  have hD38 := D_v38 (StableHlo.after opsC (StableHlo.after opsB (StableHlo.after opsA V))) _ _ _ hC7
    (cc main_arg9 (by decide) (by decide) (by decide)) (cc main_arg11 (by decide) (by decide) (by decide))
  have hD7 : StableHlo.after opsD (StableHlo.after opsC (StableHlo.after opsB (StableHlo.after opsA V))) (Proc.devRef .tc main_v7) = _ :=
    (keepD _ main_v7 (by decide)).trans hC7
  exact E_v66 _ _ _ _ _ _ _ _ _ _ _ _ _ hD34 hD38 hD7

/-- The returned hidden state. -/
theorem read_v72 : StableHlo.after Cert.ReferenceIdeal.ValueP.ops V (Proc.devRef .tc main_v72) = val_main_v72 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [after_ops]
  exact H_v72 _ _ _ _ _ _ _ _ _ _ _ _ _ ((keepG _ main_v66 (by decide)).trans (at_v66 V))

/-- The normalised output row. -/
theorem read_v71 : StableHlo.after Cert.ReferenceIdeal.ValueP.ops V (Proc.devRef .tc main_v71) = val_main_v71 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [after_ops]
  have e (k : Ref sig .tc) (hA : k ∉ opsA_W) (hB : k ∉ opsB_W) (hC : k ∉ opsC_W) (hD : k ∉ opsD_W) (hE : k ∉ opsE_W) :
      StableHlo.after opsE (StableHlo.after opsD (StableHlo.after opsC (StableHlo.after opsB (StableHlo.after opsA V)))) (Proc.devRef .tc k)
        = V (Proc.devRef .tc k) := by
    rw [keepE _ k hE, keepD _ k hD, keepC _ k hC, keepB _ k hB, keepA _ k hA]
  have hG70 := G_v70 (StableHlo.after opsE (StableHlo.after opsD (StableHlo.after opsC (StableHlo.after opsB (StableHlo.after opsA V)))))
    _ _ _ _ _ _ _ _ _ _ _ _ _ _ (at_v66 V)
    (e main_arg12 (by decide) (by decide) (by decide) (by decide) (by decide)) (e main_arg13 (by decide) (by decide) (by decide) (by decide) (by decide))
  exact H_v71 _ _ _ _ _ _ _ _ _ _ _ _ _ _ _ hG70

end Cert.ReferenceIdeal.Hand

end
-- ==== Proof.K.R0.lean ====
/-
  The first pallas_call (attention weights and the combine projection) on one grid point, every window a whole
  array: what each window's staging buffer holds when the body runs, what the body leaves in the two result
  buffers as functions of the seven inputs, the body's run, and the pipeline's proof data at the contents `V`
  the region is entered from.
-/
import proofs.«415815_j77060303224971_3_alg».proof.Proof.Gen.Kernel.Launch
import proofs.«415815_j77060303224971_3_alg».proof.Proof.Gen.Kernel.Skeleton
import proofs.«415815_j77060303224971_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the one point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_1x1024 : Rect S1x1024 := Rect.unit (s := S1x1024) ![0, 0] S1x1024.size inb_S1x1024_S1x1024_0_0
abbrev r0_128x1024 : Rect S128x1024 := Rect.unit (s := S128x1024) ![0, 0] S128x1024.size inb_S128x1024_S128x1024_0_0
abbrev r0_128x2048 : Rect S128x2048 := Rect.unit (s := S128x2048) ![0, 0] S128x2048.size inb_S128x2048_S128x2048_0_0
abbrev r0_1x128 : Rect S1x128 := Rect.unit (s := S1x128) ![0, 0] S1x128.size inb_S1x128_S1x128_0_0
abbrev r0_1024x2048 : Rect S1024x2048 := Rect.unit (s := S1024x2048) ![0, 0] S1024x2048.size inb_S1024x2048_S1024x2048_0_0

/-- The combined, rectified projection the body stores to result 0: a function of the embedded row `x0`, the hidden
    row `x1`, the encoder outputs `x2`, the attention weights' matrix `x3` and bias `x4`, the combine matrix `x5` and bias `x6`. -/
def out0_7 (x0 : Vec F S1x1024 .f32) (x1 : Vec F S1x1024 .f32) (x2 : Vec F S128x1024 .f32) (x3 : Vec F S128x2048 .f32)
    (x4 : Vec F S1x128 .f32) (x5 : Vec F S1024x2048 .f32) (x6 : Vec F S1x1024 .f32) : Vec F S1x1024 .f32 :=
  View.canon [⟨r0_1x1024, k0_pay3 (View.ld x0 r0_1x1024) (View.ld x1 r0_1x1024) (View.ld x3 r0_128x2048) (View.ld x4 r0_1x128)
    (View.ld x2 r0_128x1024) (View.ld x5 r0_1024x2048) (View.ld x6 r0_1x1024)⟩]

/-- The attention weights the body stores to result 1. -/
def out0_8 (x0 : Vec F S1x1024 .f32) (x1 : Vec F S1x1024 .f32) (x3 : Vec F S128x2048 .f32) (x4 : Vec F S1x128 .f32) : Vec F S1x128 .f32 :=
  View.canon [⟨r0_1x128, k0_pay2 (View.ld x0 r0_1x1024) (View.ld x1 r0_1x1024) (View.ld x3 r0_128x2048) (View.ld x4 r0_1x128)⟩]

theorem cover0_7 (p0 : Vec F S1x1024 .f32) (y : S1x1024.Idx) :
    ∃ pc ∈ ([⟨r0_1x1024, p0⟩] : List (View.Piece (Elt F) S1x1024 .f32)), y ∈ pc.1.set :=
  View.cover_of_tiled [⟨r0_1x1024, p0⟩] S1x1024.size (by rfl) y
theorem cover0_8 (p0 : Vec F S1x128 .f32) (y : S1x128.Idx) :
    ∃ pc ∈ ([⟨r0_1x128, p0⟩] : List (View.Piece (Elt F) S1x128 .f32)), y ∈ pc.1.set :=
  View.cover_of_tiled [⟨r0_1x128, p0⟩] S1x128.size (by rfl) y

set_option maxHeartbeats 4000000 in
/-- The body on whole staging memrefs: the seven inputs are read and left as they were, the two results end at
    `out0_7` and `out0_8` of the inputs. -/
theorem sound_kernel0 (c : Dev nD) (E : Set ℕ) (i : grid0.Coords)
    (arg1 : Memref sig .tc .vmem S1x1024 .f32) (harg1 : arg1.IsWhole) (arg2 : Memref sig .tc .vmem S1x1024 .f32) (harg2 : arg2.IsWhole)
    (arg3 : Memref sig .tc .vmem S128x1024 .f32) (harg3 : arg3.IsWhole) (arg4 : Memref sig .tc .vmem S128x2048 .f32) (harg4 : arg4.IsWhole)
    (arg5 : Memref sig .tc .vmem S1x128 .f32) (harg5 : arg5.IsWhole) (arg6 : Memref sig .tc .vmem S1024x2048 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x128 .f32) (harg9 : arg9.IsWhole)
    (x0 : Vec F S1x1024 .f32) (x1 : Vec F S1x1024 .f32) (x2 : Vec F S128x1024 .f32) (x3 : Vec F S128x2048 .f32)
    (x4 : Vec F S1x128 .f32) (x5 : Vec F S1024x2048 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)
            ∗ owns (c : Thread nD τ) arg9 fullShare (out0_8 x0 x1 x3 x4)) -∗ K ⟨⟩))
      ⊢ wp frame (wpE (defs₀ (F := F)) Variants.none c none) E
          (cc0__attn_combine_kernel i arg1 harg1 arg2 harg2 arg3 harg3 arg4 harg4 arg5 harg5 arg6 harg6 arg7 harg7 arg8 harg8 arg9 harg9) K := by
  simp only [cc0__attn_combine_kernel_eq_skeleton]; unfold cc0__attn_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

/-- The proof data of the first pipeline at the entry contents `V`: after the body each input's buffer holds its
    block, the two results' the body's two functions of the inputs' blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t
    = out0_8 (iblk0 V c 0 t) (iblk0 V c 1 t) (iblk0 V c 3 t) (iblk0 V c 4 t) := by dsimp only [dat0]

/-! Each input's staging buffer at the point -/

/-- Input window 0's current staging buffer holds its block at the one point, fetched there or not, for any proof
    data whose array is `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at the one point, fetched there or not, for any proof
    data whose array is `V`'s and whose body leaves the block in place: the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at the one point, fetched there or not, for any proof
    data whose array is `V`'s and whose body leaves the block in place: the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at the one point, fetched there or not, for any proof
    data whose array is `V`'s and whose body leaves the block in place: the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at the one point, fetched there or not, for any proof
    data whose array is `V`'s and whose body leaves the block in place: the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at the one point, fetched there or not, for any proof
    data whose array is `V`'s and whose body leaves the block in place: the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at the one point, fetched there or not, for any proof
    data whose array is `V`'s and whose body leaves the block in place: the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at the point: the invariant, the core's debt, and each window's current staging
    buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- What the body returns: the invariant and the debt unchanged, each window's buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 4000000 in
/-- The body at the point: the seven inputs' buffers hold their blocks, so the body's run on whole buffers applies;
    the invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the first pipeline at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  The second pallas_call (the two gate pre-activation products of the recurrent cell) on two grid points: the two
  row vectors are whole arrays fetched once, the two weight matrices and the two biases are cut in two halves along
  the gate axis, one half per point; each result holds, per point, its half.
-/
import proofs.«415815_j77060303224971_3_alg».proof.Proof.Gen.Kernel.Launch
import proofs.«415815_j77060303224971_3_alg».proof.Proof.Gen.Kernel.Skeleton
import proofs.«415815_j77060303224971_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_1x1024 : Rect S1x1024 := Rect.unit (s := S1x1024) ![0, 0] S1x1024.size inb_S1x1024_S1x1024_0_0
abbrev r1_1536x1024 : Rect S1536x1024 := Rect.unit (s := S1536x1024) ![0, 0] S1536x1024.size inb_S1536x1024_S1536x1024_0_0
abbrev r1_1x1536 : Rect S1x1536 := Rect.unit (s := S1x1536) ![0, 0] S1x1536.size inb_S1x1536_S1x1536_0_0

/-- What the body stores to result 0 at a point: the input row against the point's half of the input-side weights, plus
    the point's half of the input-side bias. -/
def out1_6 (x0 : Vec F S1x1024 .f32) (x2 : Vec F S1536x1024 .f32) (x4 : Vec F S1x1536 .f32) : Vec F S1x1536 .f32 :=
  View.canon [⟨r1_1x1536, k1_pay1 (View.ld x0 r1_1x1024) (View.ld x2 r1_1536x1024) (View.ld x4 r1_1x1536)⟩]

/-- What the body stores to result 1 at a point: the hidden row against the point's half of the hidden-side weights,
    plus the point's half of the hidden-side bias. -/
def out1_7 (x1 : Vec F S1x1024 .f32) (x3 : Vec F S1536x1024 .f32) (x5 : Vec F S1x1536 .f32) : Vec F S1x1536 .f32 :=
  View.canon [⟨r1_1x1536, k1_pay2 (View.ld x1 r1_1x1024) (View.ld x3 r1_1536x1024) (View.ld x5 r1_1x1536)⟩]

theorem cover1 (p0 : Vec F S1x1536 .f32) (y : S1x1536.Idx) :
    ∃ pc ∈ ([⟨r1_1x1536, p0⟩] : List (View.Piece (Elt F) S1x1536 .f32)), y ∈ pc.1.set :=
  View.cover_of_tiled [⟨r1_1x1536, p0⟩] S1x1536.size (by rfl) y

set_option maxHeartbeats 4000000 in
/-- The body on whole staging memrefs: the six inputs are read and left as they were, the two results end at
    `out1_6` and `out1_7` of the inputs. -/
theorem sound_kernel1 (c : Dev nD) (E : Set ℕ) (i : grid1.Coords)
    (arg1 : Memref sig .tc .vmem S1x1024 .f32) (harg1 : arg1.IsWhole) (arg2 : Memref sig .tc .vmem S1x1024 .f32) (harg2 : arg2.IsWhole)
    (arg3 : Memref sig .tc .vmem S1536x1024 .f32) (harg3 : arg3.IsWhole) (arg4 : Memref sig .tc .vmem S1536x1024 .f32) (harg4 : arg4.IsWhole)
    (arg5 : Memref sig .tc .vmem S1x1536 .f32) (harg5 : arg5.IsWhole) (arg6 : Memref sig .tc .vmem S1x1536 .f32) (harg6 : arg6.IsWhole)
    (arg7 : Memref sig .tc .vmem S1x1536 .f32) (harg7 : arg7.IsWhole) (arg8 : Memref sig .tc .vmem S1x1536 .f32) (harg8 : arg8.IsWhole)
    (x0 : Vec F S1x1024 .f32) (x1 : Vec F S1x1024 .f32) (x2 : Vec F S1536x1024 .f32) (x3 : Vec F S1536x1024 .f32)
    (x4 : Vec F S1x1536 .f32) (x5 : Vec F S1x1536 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x2 x4) ∗ owns (c : Thread nD τ) arg8 fullShare (out1_7 x1 x3 x5)) -∗ K ⟨⟩))
      ⊢ wp frame (wpE (defs₀ (F := F)) Variants.none c none) E
          (cc1__gru_kernel i arg1 harg1 arg2 harg2 arg3 harg3 arg4 harg4 arg5 harg5 arg6 harg6 arg7 harg7 arg8 harg8) K := by
  simp only [cc1__gru_kernel_eq_skeleton]; unfold cc1__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1 _)
  iexists _; isplitr
  swap; · iexact H7
  ipureintro
  exact View.read_writes_eq_canon _ _ _ (cover1 _)

/-- The proof data of the second pipeline at the entry contents `V`: after the body at a point each input's buffer
    holds its block there, each result's the body's function of the inputs' blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 2 t) (iblk1 V c 4 t)
    | ⟨7, _⟩ => out1_7 (iblk1 V c 1 t) (iblk1 V c 3 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 2 t) (iblk1 V c 4 t) := by dsimp only [dat1]
theorem after1_7 (c : Dev nD) (t : Fin cfg1.N) : (dat1 V c).after 7 t
    = out1_7 (iblk1 V c 1 t) (iblk1 V c 3 t) (iblk1 V c 5 t) := by dsimp only [dat1]

/-- The input row vector is one whole block at every point, moved in at the first point only; at the second point the block index is the first point's, so the buffer still holds the block. So for any proof data over the entry contents whose body leaves window 0 as found, its current staging buffer
    holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The hidden row vector is one whole block at every point, moved in at the first point only; at the second point the block index is the first point's, so the buffer still holds the block. So for any proof data over the entry contents whose body leaves window 1 as found, its current staging buffer
    holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The input-side weight matrix is cut in two halves along the gate axis and the point's half is moved in at every point. So for any proof data over the entry contents whose body leaves window 2 as found, its current staging buffer
    holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The hidden-side weight matrix is cut in two halves along the gate axis and the point's half is moved in at every point. So for any proof data over the entry contents whose body leaves window 3 as found, its current staging buffer
    holds its block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The input-side bias is cut in two halves along the gate axis and the point's half is moved in at every point. So for any proof data over the entry contents whose body leaves window 4 as found, its current staging buffer
    holds its block at every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The hidden-side bias is cut in two halves along the gate axis and the point's half is moved in at every point. So for any proof data over the entry contents whose body leaves window 5 as found, its current staging buffer
    holds its block at every point. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is handed at point `t`: the invariant, the core's debts, and each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What the body hands back at point `t`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any point: the six inputs' buffers hold their blocks there, so the triple on whole staging memrefs applies
    at those blocks; the invariant and the debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the second pipeline at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/-
  The third pallas_call (the output projection) on twenty-five grid points, the vocabulary axis cut in blocks of 2048:
  the last block overhangs the arrays' end, so the weight block, the bias block and the result block at the last
  point are moved only on their leading part, and the rest of a staging buffer holds words nothing names. The hidden
  row is a whole array fetched once.
-/
import proofs.«415815_j77060303224971_3_alg».proof.Proof.Gen.Kernel.Launch
import proofs.«415815_j77060303224971_3_alg».proof.Proof.Gen.Kernel.Skeleton
import proofs.«415815_j77060303224971_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, its part inside the array, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The weight block at point `t` filled out to the whole staging buffer by the zero word past the array's end. -/
def wblk2 (c : Dev nD) (t : Fin cfg2.N) : Vec F S2048x1024 .f32 :=
  win2_1.fill (grid2.coords t) (fun _ => Scalar.ofBits .f32 0#32) (iblk2 V c 1 t)
/-- The bias block at point `t`, filled out likewise. -/
def bblk2 (c : Dev nD) (t : Fin cfg2.N) : Vec F S1x2048 .f32 :=
  win2_2.fill (grid2.coords t) (fun _ => Scalar.ofBits .f32 0#32) (iblk2 V c 2 t)

abbrev r2_1x1024 : Rect S1x1024 := Rect.unit (s := S1x1024) ![0, 0] S1x1024.size inb_S1x1024_S1x1024_0_0
abbrev r2_2048x1024 : Rect S2048x1024 := Rect.unit (s := S2048x1024) ![0, 0] S2048x1024.size inb_S2048x1024_S2048x1024_0_0
abbrev r2_1x2048 : Rect S1x2048 := Rect.unit (s := S1x2048) ![0, 0] S1x2048.size inb_S1x2048_S1x2048_0_0

/-- What the body stores to the result's buffer at a point: the hidden row against the weight buffer, plus the bias buffer. -/
def out2_3 (x0 : Vec F S1x1024 .f32) (x1 : Vec F S2048x1024 .f32) (x2 : Vec F S1x2048 .f32) : Vec F S1x2048 .f32 :=
  View.canon [⟨r2_1x2048, k2_pay1 (View.ld x0 r2_1x1024) (View.ld x1 r2_2048x1024) (View.ld x2 r2_1x2048)⟩]

theorem cover2 (p0 : Vec F S1x2048 .f32) (y : S1x2048.Idx) :
    ∃ pc ∈ ([⟨r2_1x2048, p0⟩] : List (View.Piece (Elt F) S1x2048 .f32)), y ∈ pc.1.set :=
  View.cover_of_tiled [⟨r2_1x2048, p0⟩] S1x2048.size (by rfl) y

set_option maxHeartbeats 4000000 in
/-- The body on whole staging memrefs: the three inputs are read and left as they were, the result ends at `out2_3` of them. -/
theorem sound_kernel2 (c : Dev nD) (E : Set ℕ) (i : grid2.Coords)
    (arg1 : Memref sig .tc .vmem S1x1024 .f32) (harg1 : arg1.IsWhole) (arg2 : Memref sig .tc .vmem S2048x1024 .f32) (harg2 : arg2.IsWhole)
    (arg3 : Memref sig .tc .vmem S1x2048 .f32) (harg3 : arg3.IsWhole) (arg4 : Memref sig .tc .vmem S1x2048 .f32) (harg4 : arg4.IsWhole)
    (x0 : Vec F S1x1024 .f32) (x1 : Vec F S2048x1024 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E
          (cc2__out_kernel i arg1 harg1 arg2 harg2 arg3 harg3 arg4 harg4) K := by
  simp only [cc2__out_kernel_eq_skeleton]; unfold cc2__out_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-- The proof data of the third pipeline at the entry contents `V`: after the body at a point the hidden row's buffer
    holds the row, the weight's and the bias's their blocks (filled out by the zero word past the arrays' end), the
    result's the body's function of those. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => wblk2 V c t
    | ⟨2, _⟩ => bblk2 V c t
    | ⟨3, _⟩ => out2_3 (iblk2 V c 0 t) (wblk2 V c t) (bblk2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = wblk2 V c t := by dsimp only [dat2]
theorem after2_2 (c : Dev nD) (t : Fin cfg2.N) : (dat2 V c).after 2 t = bblk2 V c t := by dsimp only [dat2]
theorem after2_3 (c : Dev nD) (t : Fin cfg2.N) : (dat2 V c).after 3 t = out2_3 (iblk2 V c 0 t) (wblk2 V c t) (bblk2 V c t) := by dsimp only [dat2]

/-- The hidden row's buffer holds the row at every point, fetched there or not: its block index never moves. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The weight's buffer, fetched at every point, holds the block on the moved part and `d` past it. -/
theorem before2_1 (c : Dev nD) (t : Fin cfg2.N) (d) :
    (dat2 V c).before 1 t d = win2_1.fill (grid2.coords t) d (iblk2 V c 1 t) := by
  unfold Dat.before; rw [if_pos (fetch2_1 t)]
  unfold Dat.fetched Dat.blockOf iblk2; rw [A_eq2]; try rfl

/-- The bias's buffer likewise. -/
theorem before2_2 (c : Dev nD) (t : Fin cfg2.N) (d) :
    (dat2 V c).before 2 t d = win2_2.fill (grid2.coords t) d (iblk2 V c 2 t) := by
  unfold Dat.before; rw [if_pos (fetch2_2 t)]
  unfold Dat.fetched Dat.blockOf iblk2; rw [A_eq2]; try rfl

/-- The mask that forgets the result's window and no other. -/
abbrev fgt2 : Fin cfg2.W → Bool := fun | 0 => false | 1 => false | 2 => false | 3 => true | ⟨_ + 4, h⟩ => absurd h (Nat.not_lt.2 (Nat.le_add_left _ _))

/-- The body obligation of the third pipeline at every point with the result's window forgotten: whatever the
    words past the arrays' end are, the body runs and leaves the three inputs' buffers as it found them. -/
theorem body_obligation2_fgt (c : Dev nD) :
    BodyObligationLoose (dat2 (F := F) V c) (defs₀ (F := F)) Variants.none () Set.univ fgt2 := fun t => by
  rw [bigSep_W2, bigSep_W2]
  simp only
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%X3, H3⟩⟩
  rw [before2_0 V c t d0, before2_1 V c t d1, before2_2 V c t d2]
  iapply (sound_kernel2 (F := F) c Set.univ (grid2.coords t)
    (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_3.stage (cfg2.slots t 3)) (hstage2_3 ((cfg2.slots t 3).cast nbuf2_3))
    (iblk2 V c 0 t) (win2_1.fill (grid2.coords t) d1 (iblk2 V c 1 t)) (win2_2.fill (grid2.coords t) d2 (iblk2 V c 2 t)) _)
  isplitl [H0]; · iexact H0
  isplitl [H1]; · iexact H1
  isplitl [H2]; · iexact H2
  isplitl [H3]; · iexists X3; iexact H3
  iintro ⟨H0, H1, H2, H3⟩
  isplitl [HΦ]; · iexact HΦ
  isplitl [Ho]; · iexact Ho
  isplitl [H0]
  · rw [after2_0]; iexact H0
  isplitl [H1]
  · iexists d1
    rw [after2_1]; unfold wblk2; rw [Window.cut_fill]; iexact H1
  isplitl [H2]
  · iexists d2
    rw [after2_2]; unfold bblk2; rw [Window.cut_fill]; iexact H2
  · iexists _; iexact H3

end Cert.Kernel.Hand

end
-- ==== Proof.K.Frame.lean ====
/-
  The whole run of the word-level program: @main is seven items in a row, an opening stretch of host operations, the
  attention kernel, the gate kernel, a stretch of host operations, the output-projection kernel, the log-softmax's host
  operations and one last broadcast. Every weakly fair run from any launch memory ends, and ends with each of the
  fourteen argument arrays holding what it held at launch. The first two kernels' results are named exactly; of the
  third's result nothing is said (the words past the vocabulary's end in its last blocks are not named by anything),
  so from there on the buffers' contents are known up to that one array.
-/
import proofs.«415815_j77060303224971_3_alg».proof.Proof.K.R0
import proofs.«415815_j77060303224971_3_alg».proof.Proof.K.R1
import proofs.«415815_j77060303224971_3_alg».proof.Proof.K.R2
import proofs.«415815_j77060303224971_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- Core `c`'s buffers at launch, -/
abbrev M0 (c : Dev nD) : Valuation τ sig (Elt F) := fun b => m (c, b)
/-- after the opening host stretch (the first kernel's entry), -/
abbrev M1 (c : Dev nD) : Valuation τ sig (Elt F) := StableHlo.after hostOps0 (M0 m c)
/-- the same read at the TensorCore's references. -/
abbrev M1r : (c : Dev nD) → (b : Ref sig .tc) → Buf (Elt F) ((c : Thread nD τ).loc b) := fun c b => M1 m c b

/-- After the first kernel: its arrays at what its write-backs leave, every other buffer as entered. -/
def M2 (c : Dev nD) : Valuation τ sig (Elt F) :=
  Pipeline.withArrays spec0 c (M1 m c) fun w => (dat0 (M1r m) c).arrAt w cfg0.N
theorem M2_arr (c : Dev nD) (w : Fin cfg0.W) :
    M2 m c (Proc.devRef .tc (Pipeline.arrRef spec0 w)) = (dat0 (M1r m) c).arrAt w cfg0.N := by
  unfold M2; exact Pipeline.withArrays_arr spec0 launch0.win.arr_inj c _ _ w
theorem M2_of_ne (c : Dev nD) (b : Ref sig .tc) (hb : ∀ w, Pipeline.arrRef spec0 w ≠ b) :
    M2 m c (Proc.devRef .tc b) = M1 m c (Proc.devRef .tc b) := by
  unfold M2; exact Pipeline.withArrays_of_ne spec0 c _ _ b hb
abbrev M2r : (c : Dev nD) → (b : Ref sig .tc) → Buf (Elt F) ((c : Thread nD τ).loc b) := fun c b => M2 m c b
theorem hF0 (c : Dev nD) (w : Fin cfg0.W) : (dat0 (M1r m) c).arrAt w cfg0.N = M2r m c (Pipeline.arrRef spec0 w) :=
  (M2_arr m c w).symm
theorem hrest0 (c : Dev nD) : ∀ b, b ∉ Finset.univ.image (Pipeline.arrRef spec0) → M2r m c b = M1r m c b :=
  fun b hb => M2_of_ne m c b fun w e => hb (Finset.mem_image.mpr ⟨w, Finset.mem_univ _, e⟩)
/-- A buffer that is no result array of the first kernel is as entered: an operand's array is never written. -/
theorem M2_keep (c : Dev nD) (r : Ref sig .tc) (h : ∀ w : Fin cfg0.W, (cfg0.win w).isOut = true → Pipeline.arrRef spec0 w ≠ r) :
    M2 m c (Proc.devRef .tc r) = M1 m c (Proc.devRef .tc r) := by
  by_cases hr : ∃ w, Pipeline.arrRef spec0 w = r
  · obtain ⟨w, rfl⟩ := hr
    have hin : (cfg0.win w).isOut = false := by
      cases ho : (cfg0.win w).isOut
      · rfl
      · exact absurd rfl (h w ho)
    rw [M2_arr, (dat0 (M1r m) c).arrAt_in w hin, A_eq0]
  · exact M2_of_ne m c r fun w e => hr ⟨w, e⟩

/-- After the second kernel, likewise. -/
def M3 (c : Dev nD) : Valuation τ sig (Elt F) :=
  Pipeline.withArrays spec1 c (M2 m c) fun w => (dat1 (M2r m) c).arrAt w cfg1.N
theorem M3_arr (c : Dev nD) (w : Fin cfg1.W) :
    M3 m c (Proc.devRef .tc (Pipeline.arrRef spec1 w)) = (dat1 (M2r m) c).arrAt w cfg1.N := by
  unfold M3; exact Pipeline.withArrays_arr spec1 launch1.win.arr_inj c _ _ w
theorem M3_of_ne (c : Dev nD) (b : Ref sig .tc) (hb : ∀ w, Pipeline.arrRef spec1 w ≠ b) :
    M3 m c (Proc.devRef .tc b) = M2 m c (Proc.devRef .tc b) := by
  unfold M3; exact Pipeline.withArrays_of_ne spec1 c _ _ b hb
abbrev M3r : (c : Dev nD) → (b : Ref sig .tc) → Buf (Elt F) ((c : Thread nD τ).loc b) := fun c b => M3 m c b
theorem hF1 (c : Dev nD) (w : Fin cfg1.W) : (dat1 (M2r m) c).arrAt w cfg1.N = M3r m c (Pipeline.arrRef spec1 w) :=
  (M3_arr m c w).symm
theorem hrest1 (c : Dev nD) : ∀ b, b ∉ Finset.univ.image (Pipeline.arrRef spec1) → M3r m c b = M2r m c b :=
  fun b hb => M3_of_ne m c b fun w e => hb (Finset.mem_image.mpr ⟨w, Finset.mem_univ _, e⟩)
theorem M3_keep (c : Dev nD) (r : Ref sig .tc) (h : ∀ w : Fin cfg1.W, (cfg1.win w).isOut = true → Pipeline.arrRef spec1 w ≠ r) :
    M3 m c (Proc.devRef .tc r) = M2 m c (Proc.devRef .tc r) := by
  by_cases hr : ∃ w, Pipeline.arrRef spec1 w = r
  · obtain ⟨w, rfl⟩ := hr
    have hin : (cfg1.win w).isOut = false := by
      cases ho : (cfg1.win w).isOut
      · rfl
      · exact absurd rfl (h w ho)
    rw [M3_arr, (dat1 (M2r m) c).arrAt_in w hin, A_eq1]
  · exact M3_of_ne m c r fun w e => hr ⟨w, e⟩

/-- After the middle host stretch (the third kernel's entry), -/
abbrev M4 (c : Dev nD) : Valuation τ sig (Elt F) := StableHlo.after hostOps2 (M3 m c)
abbrev M4r : (c : Dev nD) → (b : Ref sig .tc) → Buf (Elt F) ((c : Thread nD τ).loc b) := fun c b => M4 m c b

/-- What is known of the third kernel's arrays when it is left: each operand's array is as entered. Of the result's
    array nothing is known. -/
def Keeps2 (c : Dev nD) (A : (w : Fin cfg2.W) → Buf (Elt F) ((spec2 w).arr.view.loc (c : Thread nD τ))) : Prop :=
  ∀ w, (cfg2.win w).isOut = false → A w = M4r m c (Pipeline.arrRef spec2 w)

/-- After the third kernel, its arrays at contents `A`: every other buffer as entered. -/
def M5 (c : Dev nD) (A : (w : Fin cfg2.W) → Buf (Elt F) ((spec2 w).arr.view.loc (c : Thread nD τ))) : Valuation τ sig (Elt F) :=
  Pipeline.withArrays spec2 c (M4 m c) A
theorem M5_arr (c : Dev nD) (A : (w : Fin cfg2.W) → Buf (Elt F) ((spec2 w).arr.view.loc (c : Thread nD τ))) (w : Fin cfg2.W) :
    M5 m c A (Proc.devRef .tc (Pipeline.arrRef spec2 w)) = A w := by
  unfold M5; exact Pipeline.withArrays_arr spec2 launch2.win.arr_inj c _ _ w
theorem M5_of_ne (c : Dev nD) (A : (w : Fin cfg2.W) → Buf (Elt F) ((spec2 w).arr.view.loc (c : Thread nD τ))) (b : Ref sig .tc)
    (hb : ∀ w, Pipeline.arrRef spec2 w ≠ b) : M5 m c A (Proc.devRef .tc b) = M4 m c (Proc.devRef .tc b) := by
  unfold M5; exact Pipeline.withArrays_of_ne spec2 c _ _ b hb
abbrev M5r (c : Dev nD) (A : (w : Fin cfg2.W) → Buf (Elt F) ((spec2 w).arr.view.loc (c : Thread nD τ))) :
    (b : Ref sig .tc) → Buf (Elt F) ((c : Thread nD τ).loc b) := fun b => M5 m c A b
theorem M5_keep (c : Dev nD) (A : (w : Fin cfg2.W) → Buf (Elt F) ((spec2 w).arr.view.loc (c : Thread nD τ))) (hA : Keeps2 m c A)
    (r : Ref sig .tc) (h : ∀ w : Fin cfg2.W, (cfg2.win w).isOut = true → Pipeline.arrRef spec2 w ≠ r) :
    M5 m c A (Proc.devRef .tc r) = M4 m c (Proc.devRef .tc r) := by
  by_cases hr : ∃ w, Pipeline.arrRef spec2 w = r
  · obtain ⟨w, rfl⟩ := hr
    have hin : (cfg2.win w).isOut = false := by
      cases ho : (cfg2.win w).isOut
      · rfl
      · exact absurd rfl (h w ho)
    rw [M5_arr, hA w hin]
  · exact M5_of_ne m c A r fun w e => hr ⟨w, e⟩

/-- After the log-softmax's host operations, and after the last broadcast. -/
abbrev M6 (c : Dev nD) (A : (w : Fin cfg2.W) → Buf (Elt F) ((spec2 w).arr.view.loc (c : Thread nD τ))) : Valuation τ sig (Elt F) :=
  StableHlo.after hostOps3 (M5 m c A)
abbrev M7 (c : Dev nD) (A : (w : Fin cfg2.W) → Buf (Elt F) ((spec2 w).arr.view.loc (c : Thread nD τ))) : Valuation τ sig (Elt F) :=
  StableHlo.after hostOps3_1 (M6 m c A)

/-- A buffer no host stretch writes and that is no kernel's result array ends as launched. -/
theorem M7_keep (c : Dev nD) (A : (w : Fin cfg2.W) → Buf (Elt F) ((spec2 w).arr.view.loc (c : Thread nD τ))) (hA : Keeps2 m c A)
    (r : Ref sig .tc) (h7 : r ∉ hostOps3_1_W) (h6 : r ∉ hostOps3_W)
    (h5 : ∀ w : Fin cfg2.W, (cfg2.win w).isOut = true → Pipeline.arrRef spec2 w ≠ r) (h4 : r ∉ hostOps2_W)
    (h3 : ∀ w : Fin cfg1.W, (cfg1.win w).isOut = true → Pipeline.arrRef spec1 w ≠ r)
    (h2 : ∀ w : Fin cfg0.W, (cfg0.win w).isOut = true → Pipeline.arrRef spec0 w ≠ r) (h1 : r ∉ hostOps0_W) :
    M7 m c A (Proc.devRef .tc r) = m ((c : Thread nD τ).loc r) :=
  (StableHlo.after_of_writes_sub hostOps3_1 _ hostOps3_1_writes h7).trans <|
    (StableHlo.after_of_writes_sub hostOps3 _ hostOps3_writes h6).trans <|
    (M5_keep m c A hA r h5).trans <|
    (StableHlo.after_of_writes_sub hostOps2 _ hostOps2_writes h4).trans <|
    (M3_keep m c r h3).trans <| (M2_keep m c r h2).trans <|
    (StableHlo.after_of_writes_sub hostOps0 _ hostOps0_writes h1).trans rfl

/-! ## No item writes an argument -/

theorem M7_main_arg0 (c : Dev nD) (A : (w : Fin cfg2.W) → Buf (Elt F) ((spec2 w).arr.view.loc (c : Thread nD τ))) (hA : Keeps2 m c A) :
    M7 m c A (Proc.devRef .tc main_arg0) = m ((c : Thread nD τ).loc main_arg0) :=
  M7_keep m c A hA main_arg0 (by decide) (by decide) (by decide) (by decide) (by decide) (by decide) (by decide)
theorem M7_main_arg1 (c : Dev nD) (A : (w : Fin cfg2.W) → Buf (Elt F) ((spec2 w).arr.view.loc (c : Thread nD τ))) (hA : Keeps2 m c A) :
    M7 m c A (Proc.devRef .tc main_arg1) = m ((c : Thread nD τ).loc main_arg1) :=
  M7_keep m c A hA main_arg1 (by decide) (by decide) (by decide) (by decide) (by decide) (by decide) (by decide)
theorem M7_main_arg2 (c : Dev nD) (A : (w : Fin cfg2.W) → Buf (Elt F) ((spec2 w).arr.view.loc (c : Thread nD τ))) (hA : Keeps2 m c A) :
    M7 m c A (Proc.devRef .tc main_arg2) = m ((c : Thread nD τ).loc main_arg2) :=
  M7_keep m c A hA main_arg2 (by decide) (by decide) (by decide) (by decide) (by decide) (by decide) (by decide)
theorem M7_main_arg3 (c : Dev nD) (A : (w : Fin cfg2.W) → Buf (Elt F) ((spec2 w).arr.view.loc (c : Thread nD τ))) (hA : Keeps2 m c A) :
    M7 m c A (Proc.devRef .tc main_arg3) = m ((c : Thread nD τ).loc main_arg3) :=
  M7_keep m c A hA main_arg3 (by decide) (by decide) (by decide) (by decide) (by decide) (by decide) (by decide)
theorem M7_main_arg4 (c : Dev nD) (A : (w : Fin cfg2.W) → Buf (Elt F) ((spec2 w).arr.view.loc (c : Thread nD τ))) (hA : Keeps2 m c A) :
    M7 m c A (Proc.devRef .tc main_arg4) = m ((c : Thread nD τ).loc main_arg4) :=
  M7_keep m c A hA main_arg4 (by decide) (by decide) (by decide) (by decide) (by decide) (by decide) (by decide)
theorem M7_main_arg5 (c : Dev nD) (A : (w : Fin cfg2.W) → Buf (Elt F) ((spec2 w).arr.view.loc (c : Thread nD τ))) (hA : Keeps2 m c A) :
    M7 m c A (Proc.devRef .tc main_arg5) = m ((c : Thread nD τ).loc main_arg5) :=
  M7_keep m c A hA main_arg5 (by decide) (by decide) (by decide) (by decide) (by decide) (by decide) (by decide)
theorem M7_main_arg6 (c : Dev nD) (A : (w : Fin cfg2.W) → Buf (Elt F) ((spec2 w).arr.view.loc (c : Thread nD τ))) (hA : Keeps2 m c A) :
    M7 m c A (Proc.devRef .tc main_arg6) = m ((c : Thread nD τ).loc main_arg6) :=
  M7_keep m c A hA main_arg6 (by decide) (by decide) (by decide) (by decide) (by decide) (by decide) (by decide)
theorem M7_main_arg7 (c : Dev nD) (A : (w : Fin cfg2.W) → Buf (Elt F) ((spec2 w).arr.view.loc (c : Thread nD τ))) (hA : Keeps2 m c A) :
    M7 m c A (Proc.devRef .tc main_arg7) = m ((c : Thread nD τ).loc main_arg7) :=
  M7_keep m c A hA main_arg7 (by decide) (by decide) (by decide) (by decide) (by decide) (by decide) (by decide)
theorem M7_main_arg8 (c : Dev nD) (A : (w : Fin cfg2.W) → Buf (Elt F) ((spec2 w).arr.view.loc (c : Thread nD τ))) (hA : Keeps2 m c A) :
    M7 m c A (Proc.devRef .tc main_arg8) = m ((c : Thread nD τ).loc main_arg8) :=
  M7_keep m c A hA main_arg8 (by decide) (by decide) (by decide) (by decide) (by decide) (by decide) (by decide)
theorem M7_main_arg9 (c : Dev nD) (A : (w : Fin cfg2.W) → Buf (Elt F) ((spec2 w).arr.view.loc (c : Thread nD τ))) (hA : Keeps2 m c A) :
    M7 m c A (Proc.devRef .tc main_arg9) = m ((c : Thread nD τ).loc main_arg9) :=
  M7_keep m c A hA main_arg9 (by decide) (by decide) (by decide) (by decide) (by decide) (by decide) (by decide)
theorem M7_main_arg10 (c : Dev nD) (A : (w : Fin cfg2.W) → Buf (Elt F) ((spec2 w).arr.view.loc (c : Thread nD τ))) (hA : Keeps2 m c A) :
    M7 m c A (Proc.devRef .tc main_arg10) = m ((c : Thread nD τ).loc main_arg10) :=
  M7_keep m c A hA main_arg10 (by decide) (by decide) (by decide) (by decide) (by decide) (by decide) (by decide)
theorem M7_main_arg11 (c : Dev nD) (A : (w : Fin cfg2.W) → Buf (Elt F) ((spec2 w).arr.view.loc (c : Thread nD τ))) (hA : Keeps2 m c A) :
    M7 m c A (Proc.devRef .tc main_arg11) = m ((c : Thread nD τ).loc main_arg11) :=
  M7_keep m c A hA main_arg11 (by decide) (by decide) (by decide) (by decide) (by decide) (by decide) (by decide)
theorem M7_main_arg12 (c : Dev nD) (A : (w : Fin cfg2.W) → Buf (Elt F) ((spec2 w).arr.view.loc (c : Thread nD τ))) (hA : Keeps2 m c A) :
    M7 m c A (Proc.devRef .tc main_arg12) = m ((c : Thread nD τ).loc main_arg12) :=
  M7_keep m c A hA main_arg12 (by decide) (by decide) (by decide) (by decide) (by decide) (by decide) (by decide)
theorem M7_main_arg13 (c : Dev nD) (A : (w : Fin cfg2.W) → Buf (Elt F) ((spec2 w).arr.view.loc (c : Thread nD τ))) (hA : Keeps2 m c A) :
    M7 m c A (Proc.devRef .tc main_arg13) = m ((c : Thread nD τ).loc main_arg13) :=
  M7_keep m c A hA main_arg13 (by decide) (by decide) (by decide) (by decide) (by decide) (by decide) (by decide)

/-! ## The proof data, kernel by kernel, each at its entry contents -/

/-- The exact data of the three kernels, -/
def pdats : (p : Fin 3) → (c : Dev nD) → Dat τ (Elt F) Unit ℕ (UR sig nD τ) ℕ (Pipeline.pin (pcfgs (F := F)) adm p) c
  | ⟨0, _⟩ => fun c => dat0 (M1r m) c
  | ⟨1, _⟩ => fun c => dat1 (M2r m) c
  | ⟨2, _⟩ => fun c => dat2 (M4r m) c
/-- and the same read as relations between what a body finds and what it leaves: the first two as they are, the third
    with nothing said of its result's window. -/
def rdats : (p : Fin 3) → (c : Dev nD) → RDat τ (Elt F) Unit ℕ (UR sig nD τ) ℕ (Pipeline.pin (pcfgs (F := F)) adm p) c
  | ⟨0, _⟩ => fun c => (dat0 (M1r m) c).toR
  | ⟨1, _⟩ => fun c => (dat1 (M2r m) c).toR
  | ⟨2, _⟩ => fun c => (dat2 (M4r m) c).toRForget fgt2

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev Rest (c : Dev nD) : sProp 𝕄 := iprop((∃ r, prngReg c r) ∗ ∃ W, owes (c : Thread nD τ) (0 : CellTallies nD τ sig Unit) W)

/-- A window of the third kernel that is an operand's is not the forgotten one. -/
theorem fgt2_of_in : ∀ w : Fin 4, (win2 w).isOut = false → fgt2 w = false := by decide

/-- The arrays, each at some contents it may hold, are the arrays at one choice of contents, each as it may be. -/
theorem arraysAt_choose {cfg : Cfg sig Λ₀} {c : Dev nD} (rd : RDat τ (Elt F) Unit ℕ (UR sig nD τ) ℕ cfg c) (n : Nat) :
    rd.arraysAt n ⊢ (iprop(∃ A : (w : Fin cfg.W) → Buf (Elt F) ((cfg.win w).arr.view.loc (c : Thread nD τ)),
        ⌜∀ w, rd.ArrAt w n (A w)⌝ ∗ rd.arrays A) : sProp 𝕄) := by
  unfold RDat.arraysAt RDat.arrays
  refine (bigSep_exists_pi Finset.univ _).trans ?_
  iintro ⟨%A, H⟩
  ihave H' := (bigSep_pure_sep Finset.univ (fun w => rd.ArrAt w n (A w)) _) $$ H
  icases H' with ⟨%h, H'⟩
  iexists A; isplitr
  · ipureintro; exact fun w => h w (Finset.mem_univ w)
  · iexact H'

/-! ## The host stretches -/

/-- A host stretch over every unscoped buffer held at a valuation, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

set_option backward.isDefEq.respectTransparency.types false in
/-- A host stretch over every unscoped buffer held at ONE OF a family of valuations — `V c x` for some `x` with `P c x`,
    not known which —: it runs to the valuation after the stretch of that same `x`. -/
def hsegEx {X : Dev nD → Type} (ops : List (HloOp τ sig (Elt F))) (hsub : ops.Forall fun op => op.bufs ⊆ StableHlo.tcRefs τ sig)
    (hfresh : ops.Forall fun op => op.fresh = ∅) (P : (c : Dev nD) → X c → Prop)
    (V : (c : Dev nD) → X c → Valuation τ sig (Elt F)) :
    Pipeline.HostSeg (Name := ℕ) (U := UR sig nD τ) (pcfgs (F := F)) defs₀ 𝒱₀ L lv where
  prog := StableHlo.seq ops
  pre c := iprop(∃ x, ⌜P c x⌝ ∗ StableHlo.held (c : Thread nD τ) (Pipeline.ucRefs τ sig) (V c x) ∗ Rest c)
  post c := iprop(∃ x, ⌜P c x⌝ ∗ StableHlo.held (c : Thread nD τ) (Pipeline.ucRefs τ sig) (StableHlo.after ops (V c x)) ∗ Rest c)
  run c {β} k K := by
    iintro ⟨Hk, Hbd, ⟨%x, %hx, Hh, HR⟩, -⟩
    iapply (StableHlo.wp_seq (defs := Pipeline.defs (pcfgs (F := F)) defs₀) (Variants.lift 𝒱₀) none Set.univ c (Pipeline.ucRefs τ sig) k (K := K) ops
      (fun op h => Pipeline.sub_ucRefs op ((List.forall_iff_forall_mem.mp hsub) op h))
      (fun op h => (List.forall_iff_forall_mem.mp hfresh) op h) (V c x)) $$ [Hbd Hh]
    · isplitl [Hbd] <;> iassumption
    iintro ⟨Hbd, Hh⟩
    iapply Hk
    isplitl [Hbd]; · iexact Hbd
    iexists x
    isplitr; · ipureintro; exact hx
    isplitl [Hh] <;> iassumption

/-! ## The kernels as segments -/

set_option backward.isDefEq.respectTransparency.types false in
/-- Kernel 0 over the thread state: entered with every unscoped buffer at `M1`, left with them at `M2`. Its arrays
    are split out of the unscoped buffers at entry and put back at the contents its write-backs leave; the generator
    register goes into the region's invariant and comes back; nothing is owed; the kernel has no semaphore of its own. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (M1r m) c).toR
  hwaits := Pipeline.RDat.hwaits_of_owed_zero _ _ _ _ L lv 0 fun _ _ => rfl
  pre c := iprop(StableHlo.held (c : Thread nD τ) (Pipeline.ucRefs τ sig) (M1 m c) ∗ Rest c)
  post c := iprop(StableHlo.held (c : Thread nD τ) (Pipeline.ucRefs τ sig) (M2 m c) ∗ Rest c)
  X c := iprop(∃ r, prngReg c r)
  Y c := iprop(∃ r, prngReg c r)
  Z c := Pipeline.unscopedRest (Ix := Unit) (Name := ℕ) (U := UR sig nD τ) (Lvl := ℕ) spec0 c (M1r m c)
  hentry c := by
    rw [Pipeline.ownSems0_none]
    have hsplit := Pipeline.RDat.arrays_of_unscopedBufs (p := 0) (pcfgs (F := F)) adm (rdats m) launch0.win launch0.arr_whole c
      ((pdats m 0 c).share_full fun _ => rfl) (M1r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (M1r m c) (M2r m c) ((pdats m 0 c).arrAt · cfg0.N) (hF0 m c) (hrest0 m c)
    rw [Pipeline.unscopedBufs_held] at hjoin
    have harr : (rdats m 0 c).arraysAt cfg0.N = ((pdats m 0 c).arrays ((pdats m 0 c).arrAt · cfg0.N) : sProp 𝕄) :=
      (dat0 (M1r m) c).toR_arraysAt_eq cfg0.N
    iintro ⟨Ha, HO, HY, Hrest⟩
    imodintro
    isplitl [Ha Hrest]
    · iapply hjoin; isplitl [Ha]
      · iapply (Entails.of_eq harr); iexact Ha
      · iexact Hrest
    isplitl [HY]; · iexact HY
    unfold Pipeline.RDat.owesAt Pipeline.owesWithin
    icases HO with ⟨%W, -, HO⟩; iexists W; iexact HO

set_option backward.isDefEq.respectTransparency.types false in
/-- Kernel 1 over the thread state: entered with every unscoped buffer at `M2`, left with them at `M3`. Its arrays
    are split out of the unscoped buffers at entry and put back at the contents its write-backs leave; the generator
    register goes into the region's invariant and comes back; nothing is owed; the kernel has no semaphore of its own. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (M2r m) c).toR
  hwaits := Pipeline.RDat.hwaits_of_owed_zero _ _ _ _ L lv 1 fun _ _ => rfl
  pre c := iprop(StableHlo.held (c : Thread nD τ) (Pipeline.ucRefs τ sig) (M2 m c) ∗ Rest c)
  post c := iprop(StableHlo.held (c : Thread nD τ) (Pipeline.ucRefs τ sig) (M3 m c) ∗ Rest c)
  X c := iprop(∃ r, prngReg c r)
  Y c := iprop(∃ r, prngReg c r)
  Z c := Pipeline.unscopedRest (Ix := Unit) (Name := ℕ) (U := UR sig nD τ) (Lvl := ℕ) spec1 c (M2r m c)
  hentry c := by
    rw [Pipeline.ownSems0_none]
    have hsplit := Pipeline.RDat.arrays_of_unscopedBufs (p := 1) (pcfgs (F := F)) adm (rdats m) launch1.win launch1.arr_whole c
      ((pdats m 1 c).share_full fun _ => rfl) (M2r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (M2r m c) (M3r m c) ((pdats m 1 c).arrAt · cfg1.N) (hF1 m c) (hrest1 m c)
    rw [Pipeline.unscopedBufs_held] at hjoin
    have harr : (rdats m 1 c).arraysAt cfg1.N = ((pdats m 1 c).arrays ((pdats m 1 c).arrAt · cfg1.N) : sProp 𝕄) :=
      (dat1 (M2r m) c).toR_arraysAt_eq cfg1.N
    iintro ⟨Ha, HO, HY, Hrest⟩
    imodintro
    isplitl [Ha Hrest]
    · iapply hjoin; isplitl [Ha]
      · iapply (Entails.of_eq harr); iexact Ha
      · iexact Hrest
    isplitl [HY]; · iexact HY
    unfold Pipeline.RDat.owesAt Pipeline.owesWithin
    icases HO with ⟨%W, -, HO⟩; iexists W; iexact HO

set_option backward.isDefEq.respectTransparency.types false in
/-- Kernel 2 over the thread state: entered with every unscoped buffer at `M4`, left with them at `M5` of SOME contents
    of its arrays that keep every operand's array as entered; of the result's array the exit says nothing. -/
def reg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2_fgt (M4r m) c).toRForget
  hwaits := Pipeline.RDat.hwaits_of_owed_zero _ _ _ _ L lv 2 fun _ _ => rfl
  pre c := iprop(StableHlo.held (c : Thread nD τ) (Pipeline.ucRefs τ sig) (M4 m c) ∗ Rest c)
  post c := iprop(∃ A, ⌜Keeps2 m c A⌝ ∗ StableHlo.held (c : Thread nD τ) (Pipeline.ucRefs τ sig) (M5 m c A) ∗ Rest c)
  X c := iprop(∃ r, prngReg c r)
  Y c := iprop(∃ r, prngReg c r)
  Z c := Pipeline.unscopedRest (Ix := Unit) (Name := ℕ) (U := UR sig nD τ) (Lvl := ℕ) spec2 c (M4r m c)
  hentry c := by
    rw [Pipeline.ownSems0_none]
    have hsplit := Pipeline.RDat.arrays_of_unscopedBufs (p := 2) (pcfgs (F := F)) adm (rdats m) launch2.win launch2.arr_whole c
      ((pdats m 2 c).share_full fun _ => rfl) (M4r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    ihave Ha' := (arraysAt_choose (rdats m 2 c) cfg2.N) $$ Ha
    icases Ha' with ⟨%A, %hA, Ha⟩
    have hK : Keeps2 m c A := fun w hin =>
      (((dat2 (M4r m) c).toRForget_arrAt_iff (fgt2_of_in w hin) cfg2.N (A w)).mp (hA w)).trans
        (((dat2 (M4r m) c).arrAt_in w hin cfg2.N).trans (A_eq2 (M4r m) c w))
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (M4r m c) (M5r m c A) A (fun w => (M5_arr m c A w).symm)
      (fun b hb => M5_of_ne m c A b fun w e => hb (Finset.mem_image.mpr ⟨w, Finset.mem_univ _, e⟩))
    rw [Pipeline.unscopedBufs_held] at hjoin
    imodintro
    iexists A
    isplitr; · ipureintro; exact hK
    isplitl [Ha Hrest]
    · iapply hjoin; isplitl [Ha]
      · iapply (Entails.of_eq (show ((rdats m 2 c).arrays A : sProp 𝕄) = (pdats m 2 c).arrays A from rfl)); iexact Ha
      · iexact Hrest
    isplitl [HY]; · iexact HY
    unfold Pipeline.RDat.owesAt Pipeline.owesWithin
    icases HO with ⟨%W, -, HO⟩; iexists W; iexact HO

/-! ## @main as segments, and the launch -/

/-- @main's seven items in order. After the third kernel the two host stretches run from its exit contents, whatever its
    result's array holds. -/
abbrev segs : List (Pipeline.RDat.Seg (pcfgs (F := F)) adm (rdats m) () defs₀ 𝒱₀ L lv) :=
  [ .host (hseg hostOps0 hostOps0_sub hostOps0_fresh (M0 m)),
    .region (reg0 m),
    .region (reg1 m),
    .host (hseg hostOps2 hostOps2_sub hostOps2_fresh (M3 m)),
    .region (reg2 m),
    .host (hsegEx hostOps3 hostOps3_sub hostOps3_fresh (Keeps2 m) (M5 m)),
    .host (hsegEx hostOps3_1 hostOps3_1_sub hostOps3_1_fresh (Keeps2 m) (M6 m)) ]

/-- @main is the run of the segments: it is the chain of its items, and the segments' run is that chain. -/
theorem main_run (c : Dev nD) : main (F := F) c = Pipeline.RDat.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last item's exit is the last thread state beside the core owing nothing. -/
theorem last_chain (c : Dev nD) :
    (iprop(∃ A, ⌜Keeps2 m c A⌝ ∗ StableHlo.held (c : Thread nD τ) (Pipeline.ucRefs τ sig) (M7 m c A) ∗ Rest c) : sProp 𝕄)
      ⊢ iprop((∃ A, ⌜Keeps2 m c A⌝ ∗ StableHlo.held (c : Thread nD τ) (Pipeline.ucRefs τ sig) (M7 m c A) ∗ ∃ r, prngReg c r)
          ∗ ∃ W, owes (c : Thread nD τ) (0 : CellTallies nD τ sig Unit) W) := by
  iintro ⟨%A, %hA, Hh, Hp, HO⟩
  isplitr [HO]
  · iexists A
    isplitr; · ipureintro; exact hA
    isplitl [Hh]; · iexact Hh
    iexact Hp
  · iexact HO

set_option backward.isDefEq.respectTransparency.types false in
/-- From any launch memory with every counter at zero, every weakly fair run of @main on the TensorCores ends, and every
    final memory holds each of the fourteen argument arrays as launched: the launch over the seven segments, the last
    thread state read against the final state, each argument walked back through the items to the launch memory. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.RDat.θ_run_regions_kit (pcfgs (F := F)) adm (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (M0 m c) ∗ Rest c))
    (Tₙ := fun c => iprop(∃ A, ⌜Keeps2 m c A⌝ ∗ StableHlo.held (c : Thread nD τ) (Pipeline.ucRefs τ sig) (M7 m c A) ∗ ∃ r, prngReg c r))
    (hch := ⟨fun _ => .rfl, fun _ => .rfl, fun _ => .rfl, fun _ => .rfl, fun _ => .rfl, fun _ => .rfl, fun _ => .rfl,
      fun c => last_chain m c⟩)
    (hinit := by
      refine Pipeline.initEach L lv fun c => ?_
      rw [show unscopedBufs c (fun b => m ((c : Thread nD τ).loc b)) = StableHlo.held (c : Thread nD τ) (Pipeline.ucRefs τ sig) (M0 m c)
        from Pipeline.unscopedBufs_held c (M0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13))
    (hfin := fun c s' => by
      unfold StableHlo.held
      iintro ⟨⟨%A, %hA, Hh, -⟩, HSI⟩
      ihave Hr := (pointsTo_read_all (Pipeline.ucRefs τ sig) (fun b => ((c : Thread nD τ).1, b)) (M7 m c A) s') $$ [Hh HSI]
      · isplitl [Hh] <;> iassumption
      icases Hr with ⟨%h, HSI⟩
      imodintro
      isplitr
      · ipureintro
        exact ⟨(h (Proc.devRef .tc main_arg0) (mem_uc main_arg0 (by decide))).trans (M7_main_arg0 m c A hA),
          (h (Proc.devRef .tc main_arg1) (mem_uc main_arg1 (by decide))).trans (M7_main_arg1 m c A hA),
          (h (Proc.devRef .tc main_arg2) (mem_uc main_arg2 (by decide))).trans (M7_main_arg2 m c A hA),
          (h (Proc.devRef .tc main_arg3) (mem_uc main_arg3 (by decide))).trans (M7_main_arg3 m c A hA),
          (h (Proc.devRef .tc main_arg4) (mem_uc main_arg4 (by decide))).trans (M7_main_arg4 m c A hA),
          (h (Proc.devRef .tc main_arg5) (mem_uc main_arg5 (by decide))).trans (M7_main_arg5 m c A hA),
          (h (Proc.devRef .tc main_arg6) (mem_uc main_arg6 (by decide))).trans (M7_main_arg6 m c A hA),
          (h (Proc.devRef .tc main_arg7) (mem_uc main_arg7 (by decide))).trans (M7_main_arg7 m c A hA),
          (h (Proc.devRef .tc main_arg8) (mem_uc main_arg8 (by decide))).trans (M7_main_arg8 m c A hA),
          (h (Proc.devRef .tc main_arg9) (mem_uc main_arg9 (by decide))).trans (M7_main_arg9 m c A hA),
          (h (Proc.devRef .tc main_arg10) (mem_uc main_arg10 (by decide))).trans (M7_main_arg10 m c A hA),
          (h (Proc.devRef .tc main_arg11) (mem_uc main_arg11 (by decide))).trans (M7_main_arg11 m c A hA),
          (h (Proc.devRef .tc main_arg12) (mem_uc main_arg12 (by decide))).trans (M7_main_arg12 m c A hA),
          (h (Proc.devRef .tc main_arg13) (mem_uc main_arg13 (by decide))).trans (M7_main_arg13 m c A hA)⟩
      · iexact HSI)
    (hQ := fun _ h => h)

/-- info: 'Cert.Kernel.Hand.frame_all' depends on axioms: [propext, Classical.choice, Quot.sound] -/
#guard_msgs in #print axioms frame_all

end Cert.Kernel.Hand

end
-- ==== Proof.KI.R0.lean ====
/-
  The first pallas_call (attention weights and the combine projection) on one grid point, every window a whole
  array: what each window's staging buffer holds when the body runs, what the body leaves in the two result
  buffers as functions of the seven inputs, the body's run, and the pipeline's proof data at the contents `V`
  the region is entered from.
-/
import proofs.«415815_j77060303224971_3_alg».proof.Proof.Gen.KernelIdeal.Launch
import proofs.«415815_j77060303224971_3_alg».proof.Proof.Gen.KernelIdeal.Skeleton
import proofs.«415815_j77060303224971_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the one point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_1x1024 : Rect S1x1024 := Rect.unit (s := S1x1024) ![0, 0] S1x1024.size inb_S1x1024_S1x1024_0_0
abbrev r0_128x1024 : Rect S128x1024 := Rect.unit (s := S128x1024) ![0, 0] S128x1024.size inb_S128x1024_S128x1024_0_0
abbrev r0_128x2048 : Rect S128x2048 := Rect.unit (s := S128x2048) ![0, 0] S128x2048.size inb_S128x2048_S128x2048_0_0
abbrev r0_1x128 : Rect S1x128 := Rect.unit (s := S1x128) ![0, 0] S1x128.size inb_S1x128_S1x128_0_0
abbrev r0_1024x2048 : Rect S1024x2048 := Rect.unit (s := S1024x2048) ![0, 0] S1024x2048.size inb_S1024x2048_S1024x2048_0_0

/-- The combined, rectified projection the body stores to result 0: a function of the embedded row `x0`, the hidden
    row `x1`, the encoder outputs `x2`, the attention weights' matrix `x3` and bias `x4`, the combine matrix `x5` and bias `x6`. -/
def out0_7 (x0 : Vec F S1x1024 .f32) (x1 : Vec F S1x1024 .f32) (x2 : Vec F S128x1024 .f32) (x3 : Vec F S128x2048 .f32)
    (x4 : Vec F S1x128 .f32) (x5 : Vec F S1024x2048 .f32) (x6 : Vec F S1x1024 .f32) : Vec F S1x1024 .f32 :=
  View.canon [⟨r0_1x1024, k0_pay3 (View.ld x0 r0_1x1024) (View.ld x1 r0_1x1024) (View.ld x3 r0_128x2048) (View.ld x4 r0_1x128)
    (View.ld x2 r0_128x1024) (View.ld x5 r0_1024x2048) (View.ld x6 r0_1x1024)⟩]

/-- The attention weights the body stores to result 1. -/
def out0_8 (x0 : Vec F S1x1024 .f32) (x1 : Vec F S1x1024 .f32) (x3 : Vec F S128x2048 .f32) (x4 : Vec F S1x128 .f32) : Vec F S1x128 .f32 :=
  View.canon [⟨r0_1x128, k0_pay2 (View.ld x0 r0_1x1024) (View.ld x1 r0_1x1024) (View.ld x3 r0_128x2048) (View.ld x4 r0_1x128)⟩]

theorem cover0_7 (p0 : Vec F S1x1024 .f32) (y : S1x1024.Idx) :
    ∃ pc ∈ ([⟨r0_1x1024, p0⟩] : List (View.Piece (Elt F) S1x1024 .f32)), y ∈ pc.1.set :=
  View.cover_of_tiled [⟨r0_1x1024, p0⟩] S1x1024.size (by rfl) y
theorem cover0_8 (p0 : Vec F S1x128 .f32) (y : S1x128.Idx) :
    ∃ pc ∈ ([⟨r0_1x128, p0⟩] : List (View.Piece (Elt F) S1x128 .f32)), y ∈ pc.1.set :=
  View.cover_of_tiled [⟨r0_1x128, p0⟩] S1x128.size (by rfl) y

set_option maxHeartbeats 4000000 in
/-- The body on whole staging memrefs: the seven inputs are read and left as they were, the two results end at
    `out0_7` and `out0_8` of the inputs. -/
theorem sound_kernel0 (c : Dev nD) (E : Set ℕ) (i : grid0.Coords)
    (arg1 : Memref sig .tc .vmem S1x1024 .f32) (harg1 : arg1.IsWhole) (arg2 : Memref sig .tc .vmem S1x1024 .f32) (harg2 : arg2.IsWhole)
    (arg3 : Memref sig .tc .vmem S128x1024 .f32) (harg3 : arg3.IsWhole) (arg4 : Memref sig .tc .vmem S128x2048 .f32) (harg4 : arg4.IsWhole)
    (arg5 : Memref sig .tc .vmem S1x128 .f32) (harg5 : arg5.IsWhole) (arg6 : Memref sig .tc .vmem S1024x2048 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x128 .f32) (harg9 : arg9.IsWhole)
    (x0 : Vec F S1x1024 .f32) (x1 : Vec F S1x1024 .f32) (x2 : Vec F S128x1024 .f32) (x3 : Vec F S128x2048 .f32)
    (x4 : Vec F S1x128 .f32) (x5 : Vec F S1024x2048 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)
            ∗ owns (c : Thread nD τ) arg9 fullShare (out0_8 x0 x1 x3 x4)) -∗ K ⟨⟩))
      ⊢ wp frame (wpE (defs₀ (F := F)) Variants.none c none) E
          (cc0__attn_combine_kernel i arg1 harg1 arg2 harg2 arg3 harg3 arg4 harg4 arg5 harg5 arg6 harg6 arg7 harg7 arg8 harg8 arg9 harg9) K := by
  simp only [cc0__attn_combine_kernel_eq_skeleton]; unfold cc0__attn_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

/-- The proof data of the first pipeline at the entry contents `V`: after the body each input's buffer holds its
    block, the two results' the body's two functions of the inputs' blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t
    = out0_8 (iblk0 V c 0 t) (iblk0 V c 1 t) (iblk0 V c 3 t) (iblk0 V c 4 t) := by dsimp only [dat0]

/-! Each input's staging buffer at the point -/

/-- Input window 0's current staging buffer holds its block at the one point, fetched there or not, for any proof
    data whose array is `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at the one point, fetched there or not, for any proof
    data whose array is `V`'s and whose body leaves the block in place: the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at the one point, fetched there or not, for any proof
    data whose array is `V`'s and whose body leaves the block in place: the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at the one point, fetched there or not, for any proof
    data whose array is `V`'s and whose body leaves the block in place: the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at the one point, fetched there or not, for any proof
    data whose array is `V`'s and whose body leaves the block in place: the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at the one point, fetched there or not, for any proof
    data whose array is `V`'s and whose body leaves the block in place: the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at the one point, fetched there or not, for any proof
    data whose array is `V`'s and whose body leaves the block in place: the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at the point: the invariant, the core's debt, and each window's current staging
    buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- What the body returns: the invariant and the debt unchanged, each window's buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 4000000 in
/-- The body at the point: the seven inputs' buffers hold their blocks, so the body's run on whole buffers applies;
    the invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the first pipeline at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  The second pallas_call (the two gate pre-activation products of the recurrent cell) on two grid points: the two
  row vectors are whole arrays fetched once, the two weight matrices and the two biases are cut in two halves along
  the gate axis, one half per point; each result holds, per point, its half.
-/
import proofs.«415815_j77060303224971_3_alg».proof.Proof.Gen.KernelIdeal.Launch
import proofs.«415815_j77060303224971_3_alg».proof.Proof.Gen.KernelIdeal.Skeleton
import proofs.«415815_j77060303224971_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_1x1024 : Rect S1x1024 := Rect.unit (s := S1x1024) ![0, 0] S1x1024.size inb_S1x1024_S1x1024_0_0
abbrev r1_1536x1024 : Rect S1536x1024 := Rect.unit (s := S1536x1024) ![0, 0] S1536x1024.size inb_S1536x1024_S1536x1024_0_0
abbrev r1_1x1536 : Rect S1x1536 := Rect.unit (s := S1x1536) ![0, 0] S1x1536.size inb_S1x1536_S1x1536_0_0

/-- What the body stores to result 0 at a point: the input row against the point's half of the input-side weights, plus
    the point's half of the input-side bias. -/
def out1_6 (x0 : Vec F S1x1024 .f32) (x2 : Vec F S1536x1024 .f32) (x4 : Vec F S1x1536 .f32) : Vec F S1x1536 .f32 :=
  View.canon [⟨r1_1x1536, k1_pay1 (View.ld x0 r1_1x1024) (View.ld x2 r1_1536x1024) (View.ld x4 r1_1x1536)⟩]

/-- What the body stores to result 1 at a point: the hidden row against the point's half of the hidden-side weights,
    plus the point's half of the hidden-side bias. -/
def out1_7 (x1 : Vec F S1x1024 .f32) (x3 : Vec F S1536x1024 .f32) (x5 : Vec F S1x1536 .f32) : Vec F S1x1536 .f32 :=
  View.canon [⟨r1_1x1536, k1_pay2 (View.ld x1 r1_1x1024) (View.ld x3 r1_1536x1024) (View.ld x5 r1_1x1536)⟩]

theorem cover1 (p0 : Vec F S1x1536 .f32) (y : S1x1536.Idx) :
    ∃ pc ∈ ([⟨r1_1x1536, p0⟩] : List (View.Piece (Elt F) S1x1536 .f32)), y ∈ pc.1.set :=
  View.cover_of_tiled [⟨r1_1x1536, p0⟩] S1x1536.size (by rfl) y

set_option maxHeartbeats 4000000 in
/-- The body on whole staging memrefs: the six inputs are read and left as they were, the two results end at
    `out1_6` and `out1_7` of the inputs. -/
theorem sound_kernel1 (c : Dev nD) (E : Set ℕ) (i : grid1.Coords)
    (arg1 : Memref sig .tc .vmem S1x1024 .f32) (harg1 : arg1.IsWhole) (arg2 : Memref sig .tc .vmem S1x1024 .f32) (harg2 : arg2.IsWhole)
    (arg3 : Memref sig .tc .vmem S1536x1024 .f32) (harg3 : arg3.IsWhole) (arg4 : Memref sig .tc .vmem S1536x1024 .f32) (harg4 : arg4.IsWhole)
    (arg5 : Memref sig .tc .vmem S1x1536 .f32) (harg5 : arg5.IsWhole) (arg6 : Memref sig .tc .vmem S1x1536 .f32) (harg6 : arg6.IsWhole)
    (arg7 : Memref sig .tc .vmem S1x1536 .f32) (harg7 : arg7.IsWhole) (arg8 : Memref sig .tc .vmem S1x1536 .f32) (harg8 : arg8.IsWhole)
    (x0 : Vec F S1x1024 .f32) (x1 : Vec F S1x1024 .f32) (x2 : Vec F S1536x1024 .f32) (x3 : Vec F S1536x1024 .f32)
    (x4 : Vec F S1x1536 .f32) (x5 : Vec F S1x1536 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x2 x4) ∗ owns (c : Thread nD τ) arg8 fullShare (out1_7 x1 x3 x5)) -∗ K ⟨⟩))
      ⊢ wp frame (wpE (defs₀ (F := F)) Variants.none c none) E
          (cc1__gru_kernel i arg1 harg1 arg2 harg2 arg3 harg3 arg4 harg4 arg5 harg5 arg6 harg6 arg7 harg7 arg8 harg8) K := by
  simp only [cc1__gru_kernel_eq_skeleton]; unfold cc1__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1 _)
  iexists _; isplitr
  swap; · iexact H7
  ipureintro
  exact View.read_writes_eq_canon _ _ _ (cover1 _)

/-- The proof data of the second pipeline at the entry contents `V`: after the body at a point each input's buffer
    holds its block there, each result's the body's function of the inputs' blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 2 t) (iblk1 V c 4 t)
    | ⟨7, _⟩ => out1_7 (iblk1 V c 1 t) (iblk1 V c 3 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 2 t) (iblk1 V c 4 t) := by dsimp only [dat1]
theorem after1_7 (c : Dev nD) (t : Fin cfg1.N) : (dat1 V c).after 7 t
    = out1_7 (iblk1 V c 1 t) (iblk1 V c 3 t) (iblk1 V c 5 t) := by dsimp only [dat1]

/-- The input row vector is one whole block at every point, moved in at the first point only; at the second point the block index is the first point's, so the buffer still holds the block. So for any proof data over the entry contents whose body leaves window 0 as found, its current staging buffer
    holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The hidden row vector is one whole block at every point, moved in at the first point only; at the second point the block index is the first point's, so the buffer still holds the block. So for any proof data over the entry contents whose body leaves window 1 as found, its current staging buffer
    holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The input-side weight matrix is cut in two halves along the gate axis and the point's half is moved in at every point. So for any proof data over the entry contents whose body leaves window 2 as found, its current staging buffer
    holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The hidden-side weight matrix is cut in two halves along the gate axis and the point's half is moved in at every point. So for any proof data over the entry contents whose body leaves window 3 as found, its current staging buffer
    holds its block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The input-side bias is cut in two halves along the gate axis and the point's half is moved in at every point. So for any proof data over the entry contents whose body leaves window 4 as found, its current staging buffer
    holds its block at every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The hidden-side bias is cut in two halves along the gate axis and the point's half is moved in at every point. So for any proof data over the entry contents whose body leaves window 5 as found, its current staging buffer
    holds its block at every point. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is handed at point `t`: the invariant, the core's debts, and each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What the body hands back at point `t`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any point: the six inputs' buffers hold their blocks there, so the triple on whole staging memrefs applies
    at those blocks; the invariant and the debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the second pipeline at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/-
  The third pallas_call (the output projection) on twenty-five grid points, the vocabulary axis cut in blocks of 2048:
  the last block overhangs the arrays' end, so the weight block, the bias block and the result block at the last
  point are moved only on their leading part, and the rest of a staging buffer holds words nothing names. The hidden
  row is a whole array fetched once.
-/
import proofs.«415815_j77060303224971_3_alg».proof.Proof.Gen.KernelIdeal.Launch
import proofs.«415815_j77060303224971_3_alg».proof.Proof.Gen.KernelIdeal.Skeleton
import proofs.«415815_j77060303224971_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, its part inside the array, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The weight block at point `t` filled out to the whole staging buffer by the zero word past the array's end. -/
def wblk2 (c : Dev nD) (t : Fin cfg2.N) : Vec F S2048x1024 .f32 :=
  win2_1.fill (grid2.coords t) (fun _ => Scalar.ofBits .f32 0#32) (iblk2 V c 1 t)
/-- The bias block at point `t`, filled out likewise. -/
def bblk2 (c : Dev nD) (t : Fin cfg2.N) : Vec F S1x2048 .f32 :=
  win2_2.fill (grid2.coords t) (fun _ => Scalar.ofBits .f32 0#32) (iblk2 V c 2 t)

abbrev r2_1x1024 : Rect S1x1024 := Rect.unit (s := S1x1024) ![0, 0] S1x1024.size inb_S1x1024_S1x1024_0_0
abbrev r2_2048x1024 : Rect S2048x1024 := Rect.unit (s := S2048x1024) ![0, 0] S2048x1024.size inb_S2048x1024_S2048x1024_0_0
abbrev r2_1x2048 : Rect S1x2048 := Rect.unit (s := S1x2048) ![0, 0] S1x2048.size inb_S1x2048_S1x2048_0_0

/-- What the body stores to the result's buffer at a point: the hidden row against the weight buffer, plus the bias buffer. -/
def out2_3 (x0 : Vec F S1x1024 .f32) (x1 : Vec F S2048x1024 .f32) (x2 : Vec F S1x2048 .f32) : Vec F S1x2048 .f32 :=
  View.canon [⟨r2_1x2048, k2_pay1 (View.ld x0 r2_1x1024) (View.ld x1 r2_2048x1024) (View.ld x2 r2_1x2048)⟩]

theorem cover2 (p0 : Vec F S1x2048 .f32) (y : S1x2048.Idx) :
    ∃ pc ∈ ([⟨r2_1x2048, p0⟩] : List (View.Piece (Elt F) S1x2048 .f32)), y ∈ pc.1.set :=
  View.cover_of_tiled [⟨r2_1x2048, p0⟩] S1x2048.size (by rfl) y

set_option maxHeartbeats 4000000 in
/-- The body on whole staging memrefs: the three inputs are read and left as they were, the result ends at `out2_3` of them. -/
theorem sound_kernel2 (c : Dev nD) (E : Set ℕ) (i : grid2.Coords)
    (arg1 : Memref sig .tc .vmem S1x1024 .f32) (harg1 : arg1.IsWhole) (arg2 : Memref sig .tc .vmem S2048x1024 .f32) (harg2 : arg2.IsWhole)
    (arg3 : Memref sig .tc .vmem S1x2048 .f32) (harg3 : arg3.IsWhole) (arg4 : Memref sig .tc .vmem S1x2048 .f32) (harg4 : arg4.IsWhole)
    (x0 : Vec F S1x1024 .f32) (x1 : Vec F S2048x1024 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E
          (cc2__out_kernel i arg1 harg1 arg2 harg2 arg3 harg3 arg4 harg4) K := by
  simp only [cc2__out_kernel_eq_skeleton]; unfold cc2__out_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-- The proof data of the third pipeline at the entry contents `V`: after the body at a point the hidden row's buffer
    holds the row, the weight's and the bias's their blocks (filled out by the zero word past the arrays' end), the
    result's the body's function of those. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => wblk2 V c t
    | ⟨2, _⟩ => bblk2 V c t
    | ⟨3, _⟩ => out2_3 (iblk2 V c 0 t) (wblk2 V c t) (bblk2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = wblk2 V c t := by dsimp only [dat2]
theorem after2_2 (c : Dev nD) (t : Fin cfg2.N) : (dat2 V c).after 2 t = bblk2 V c t := by dsimp only [dat2]
theorem after2_3 (c : Dev nD) (t : Fin cfg2.N) : (dat2 V c).after 3 t = out2_3 (iblk2 V c 0 t) (wblk2 V c t) (bblk2 V c t) := by dsimp only [dat2]

/-- The hidden row's buffer holds the row at every point, fetched there or not: its block index never moves. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The weight's buffer, fetched at every point, holds the block on the moved part and `d` past it. -/
theorem before2_1 (c : Dev nD) (t : Fin cfg2.N) (d) :
    (dat2 V c).before 1 t d = win2_1.fill (grid2.coords t) d (iblk2 V c 1 t) := by
  unfold Dat.before; rw [if_pos (fetch2_1 t)]
  unfold Dat.fetched Dat.blockOf iblk2; rw [A_eq2]; try rfl

/-- The bias's buffer likewise. -/
theorem before2_2 (c : Dev nD) (t : Fin cfg2.N) (d) :
    (dat2 V c).before 2 t d = win2_2.fill (grid2.coords t) d (iblk2 V c 2 t) := by
  unfold Dat.before; rw [if_pos (fetch2_2 t)]
  unfold Dat.fetched Dat.blockOf iblk2; rw [A_eq2]; try rfl

/-- The mask that forgets the result's window and no other. -/
abbrev fgt2 : Fin cfg2.W → Bool := fun | 0 => false | 1 => false | 2 => false | 3 => true | ⟨_ + 4, h⟩ => absurd h (Nat.not_lt.2 (Nat.le_add_left _ _))

/-- The body obligation of the third pipeline at every point with the result's window forgotten: whatever the
    words past the arrays' end are, the body runs and leaves the three inputs' buffers as it found them. -/
theorem body_obligation2_fgt (c : Dev nD) :
    BodyObligationLoose (dat2 (F := F) V c) (defs₀ (F := F)) Variants.none () Set.univ fgt2 := fun t => by
  rw [bigSep_W2, bigSep_W2]
  simp only
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%X3, H3⟩⟩
  rw [before2_0 V c t d0, before2_1 V c t d1, before2_2 V c t d2]
  iapply (sound_kernel2 (F := F) c Set.univ (grid2.coords t)
    (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_3.stage (cfg2.slots t 3)) (hstage2_3 ((cfg2.slots t 3).cast nbuf2_3))
    (iblk2 V c 0 t) (win2_1.fill (grid2.coords t) d1 (iblk2 V c 1 t)) (win2_2.fill (grid2.coords t) d2 (iblk2 V c 2 t)) _)
  isplitl [H0]; · iexact H0
  isplitl [H1]; · iexact H1
  isplitl [H2]; · iexact H2
  isplitl [H3]; · iexists X3; iexact H3
  iintro ⟨H0, H1, H2, H3⟩
  isplitl [HΦ]; · iexact HΦ
  isplitl [Ho]; · iexact Ho
  isplitl [H0]
  · rw [after2_0]; iexact H0
  isplitl [H1]
  · iexists d1
    rw [after2_1]; unfold wblk2; rw [Window.cut_fill]; iexact H1
  isplitl [H2]
  · iexists d2
    rw [after2_2]; unfold bblk2; rw [Window.cut_fill]; iexact H2
  · iexists _; iexact H3

end Cert.KernelIdeal.Hand

end
-- ==== Proof.KI.Fold.lean ====
/-
  The contents of the unscoped buffers at every boundary between the items of @main, at the ideal values, as a fold
  from the launch memory: a stretch of host operations applies them; a pallas_call leaves each of its arrays at what
  its write-backs leave (an input array: as entered) and every other buffer as entered.
-/
import proofs.«415815_j77060303224971_3_alg».proof.Proof.Gen.KernelIdeal.Launch
import proofs.«415815_j77060303224971_3_alg».proof.Proof.Gen.KernelIdeal.Skeleton
import proofs.«415815_j77060303224971_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.PureOps.Ideal
import proofs.«415815_j77060303224971_3_alg».proof.Proof.KI.R0
import proofs.«415815_j77060303224971_3_alg».proof.Proof.KI.R1
import proofs.«415815_j77060303224971_3_alg».proof.Proof.KI.R2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-- Core `c`'s buffers at launch. -/
abbrev W0 : Dev nD → Valuation τ sig (Elt Ideal) := fun c b => m ((c : Dev nD), b)
/-- After the host operations before the first pallas_call. -/
abbrev W1 : Dev nD → Valuation τ sig (Elt Ideal) := fun c => StableHlo.after hostOps0 (W0 m c)
/-- The same read at the TensorCore's references. -/
abbrev U1 : (c : Dev nD) → (b : Ref sig .tc) → Buf (Elt Ideal) ((c : Thread nD τ).loc b) := fun c b => W1 m c b
/-- After the first pallas_call. -/
def W2 (c : Dev nD) : Valuation τ sig (Elt Ideal) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt Ideal) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second pallas_call (no host operation stands between the first two). -/
def W3 (c : Dev nD) : Valuation τ sig (Elt Ideal) :=
  Pipeline.withArrays spec1 c (W2 m c) fun w => (dat1 (U2 m) c).arrAt w cfg1.N
theorem W3_arr (c : Dev nD) (w : Fin cfg1.W) :
    W3 m c (Proc.devRef .tc (Pipeline.arrRef spec1 w)) = (dat1 (U2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev U3 : (c : Dev nD) → (b : Ref sig .tc) → Buf (Elt Ideal) ((c : Thread nD τ).loc b) := fun c b => W3 m c b
theorem hF1 (c : Dev nD) (w : Fin cfg1.W) : (dat1 (U2 m) c).arrAt w cfg1.N = U3 m c (Pipeline.arrRef spec1 w) :=
  (W3_arr m c w).symm
theorem hrest1 (c : Dev nD) : ∀ b, b ∉ Finset.univ.image (Pipeline.arrRef spec1) → U3 m c b = U2 m c b :=
  fun b hb => W3_of_ne m c b fun w e => hb (Finset.mem_image.mpr ⟨w, Finset.mem_univ _, e⟩)

/-- After the gate combination on the host. -/
abbrev W4 : Dev nD → Valuation τ sig (Elt Ideal) := fun c => StableHlo.after hostOps2 (W3 m c)
abbrev U4 : (c : Dev nD) → (b : Ref sig .tc) → Buf (Elt Ideal) ((c : Thread nD τ).loc b) := fun c b => W4 m c b
/-- After the third pallas_call. -/
def W5 (c : Dev nD) : Valuation τ sig (Elt Ideal) :=
  Pipeline.withArrays spec2 c (W4 m c) fun w => (dat2 (U4 m) c).arrAt w cfg2.N
theorem W5_arr (c : Dev nD) (w : Fin cfg2.W) :
    W5 m c (Proc.devRef .tc (Pipeline.arrRef spec2 w)) = (dat2 (U4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev U5 : (c : Dev nD) → (b : Ref sig .tc) → Buf (Elt Ideal) ((c : Thread nD τ).loc b) := fun c b => W5 m c b
theorem hF2 (c : Dev nD) (w : Fin cfg2.W) : (dat2 (U4 m) c).arrAt w cfg2.N = U5 m c (Pipeline.arrRef spec2 w) :=
  (W5_arr m c w).symm
theorem hrest2 (c : Dev nD) : ∀ b, b ∉ Finset.univ.image (Pipeline.arrRef spec2) → U5 m c b = U4 m c b :=
  fun b hb => W5_of_ne m c b fun w e => hb (Finset.mem_image.mpr ⟨w, Finset.mem_univ _, e⟩)

/-- After the normalisation of the output row on the host, -/
abbrev W6 : Dev nD → Valuation τ sig (Elt Ideal) := fun c => StableHlo.after hostOps3 (W5 m c)
/-- and after the last host operation: the buffers at the return. -/
abbrev W7 : Dev nD → Valuation τ sig (Elt Ideal) := fun c => StableHlo.after hostOps3_1 (W6 m c)

end Cert.KernelIdeal.Hand

end
-- ==== Proof.KI.R2I.lean ====
/-
  The third pallas_call (the output projection) at the ideal values, nothing forgotten: the result block's moved part.
  The body stores, at column j of the result's buffer, the sum over k of the hidden row's entry k times the weight
  buffer's entry (j, k), plus the bias buffer's entry j. A column the write-back moves is a row of the weight block
  and a column of the bias block that the fetches moved, so the moved part of what is stored is a function of the
  blocks alone, whatever words the buffers hold past the arrays' end.
-/
import proofs.«415815_j77060303224971_3_alg».proof.Proof.Gen.KernelIdeal.Launch
import proofs.«415815_j77060303224971_3_alg».proof.Proof.Gen.KernelIdeal.Skeleton
import proofs.«415815_j77060303224971_3_alg».proof.Proof.Gen.KernelIdeal.Points
import proofs.«415815_j77060303224971_3_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.PureOps.Ideal.Laws
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

/-! ## An entry of the product plus bias -/

/-- The weight operand's row at result index `y` is `y`'s column, whatever the contraction position: the weight's
    axis 0 is its one free axis, and it comes second among the result's axes. -/
theorem rhs_row2 (y : S1x2048.Idx) (q : dot_S1x1024_S2048x1024_S1x2048_1_1_0_0_n_n.contr.Idx) :
    (dot_S1x1024_S2048x1024_S1x2048_1_1_0_0_n_n.rhsIdx y q 0).val = (y 1).val := by
  unfold DotDims.rhsIdx
  rw [dif_neg (show ¬(0 : Fin S2048x1024.rank) ∈ dot_S1x1024_S2048x1024_S1x2048_1_1_0_0_n_n.rhsBatch by decide),
    dif_pos (show (0 : Fin S2048x1024.rank) ∈ dot_S1x1024_S2048x1024_S1x2048_1_1_0_0_n_n.rhsNonContracting by decide)]
  rfl

/-- An entry of a product accumulated into zero, at the ideal values: the sum of the operands' products over the
    contraction. -/
theorem matmul_zero_entry2 {sl sr so : Shape} {φ₁ φ₂ : FTy} (d : DotDims sl sr so) (prec : Option ContractPrecision)
    (A : FVec Ideal sl φ₁) (B : FVec Ideal sr φ₂) (j : so.Idx) :
    matmul (F := Ideal) d prec A B (constant so .f32 0x00000000#32) j = ∑ k : d.contr.Idx, A (d.lhsIdx j k) * B (d.rhsIdx j k) :=
  Ideal.matmul_constant_zero_apply d prec A B j

/-- At the ideal values the entry `y` of the product plus bias reads, of the weight, only the row of `y`'s column
    and, of the bias, only the entry `y`: the narrowings to bf16 are the identity there, the product's entry is the
    sum over the contraction of the operands' products, and the sum is entrywise. -/
theorem pay2_congr (x0 : Vec Ideal S1x1024 .f32) (X1 X1' : Vec Ideal S2048x1024 .f32) (X2 X2' : Vec Ideal S1x2048 .f32)
    (y : S1x2048.Idx) (h1 : ∀ z : S2048x1024.Idx, (z 0).val = (y 1).val → X1 z = X1' z) (h2 : X2 y = X2' y) :
    k2_pay1 (F := Ideal) x0 X1 X2 y = k2_pay1 (F := Ideal) x0 X1' X2' y := by
  unfold k2_pay1
  rw [addf_apply, addf_apply, matmul_zero_entry2, matmul_zero_entry2, shapeCast_self, shapeCast_self, shapeCast_self, h2]
  congr 1
  refine Finset.sum_congr rfl fun k _ => ?_
  rw [truncf_apply, truncf_apply, truncf_apply, h1 _ (rhs_row2 y k)]

/-! ## What the body stores, on the moved part -/

/-- The body's accesses start at the buffers' origin. -/
theorem off_zero2 : (![0, 0] : Fin 2 → Nat) = fun _ => 0 := funext fun a => by fin_cases a <;> rfl

/-- What the body stores is the product plus bias of the three buffers' contents: its one store and its three loads
    are of whole buffers. -/
theorem out2_3_eq {F : FTy → Type} [FloatOps F] (x0 : Vec F S1x1024 .f32) (x1 : Vec F S2048x1024 .f32) (x2 : Vec F S1x2048 .f32) :
    out2_3 x0 x1 x2 = k2_pay1 x0 x1 x2 := by
  unfold out2_3
  rw [View.canon_unit_zero off_zero2, View.ld_unit_zero off_zero2, View.ld_unit_zero off_zero2, View.ld_unit_zero off_zero2]

/-- The moved parts of the three clipped windows at a point, decided over the grid: the weight block's rows, the bias
    block's columns and the result block's columns are cut alike; the weight block's columns and the bias block's one
    row are whole. -/
theorem moved_sizes2 : ∀ t : Fin cfg2.N,
    win2_1.xsize (grid2.coords t) 0 = win2_3.xsize (grid2.coords t) 1 ∧ win2_1.xsize (grid2.coords t) 1 = 1024
    ∧ win2_2.xsize (grid2.coords t) 0 = 1 ∧ win2_2.xsize (grid2.coords t) 1 = win2_3.xsize (grid2.coords t) 1 :=
  (by decide +kernel : ∀ t : Fin grid2.N,
    win2_1.xsize (grid2.coords t) 0 = win2_3.xsize (grid2.coords t) 1 ∧ win2_1.xsize (grid2.coords t) 1 = 1024
    ∧ win2_2.xsize (grid2.coords t) 0 = 1 ∧ win2_2.xsize (grid2.coords t) 1 = win2_3.xsize (grid2.coords t) 1)

/-- The moved part of what the body stores does not depend on the words past the arrays' end in the weight's and
    the bias's buffers: a moved entry's column is a moved row of the weight block and a moved column of the bias
    block, where a filled buffer holds the block whatever it was filled out with. -/
theorem cut_out2_3_indep (t : Fin cfg2.N) (x0 : Vec Ideal S1x1024 .f32)
    (W : (win2_1.xblock (grid2.coords t)).Idx → Elt Ideal .f32) (b : (win2_2.xblock (grid2.coords t)).Idx → Elt Ideal .f32)
    (d1 d1' : Vec Ideal S2048x1024 .f32) (d2 d2' : Vec Ideal S1x2048 .f32) :
    win2_3.cut (grid2.coords t) (out2_3 x0 (win2_1.fill (grid2.coords t) d1 W) (win2_2.fill (grid2.coords t) d2 b))
      = win2_3.cut (grid2.coords t) (out2_3 x0 (win2_1.fill (grid2.coords t) d1' W) (win2_2.fill (grid2.coords t) d2' b)) := by
  obtain ⟨h10, h11, h20, h21⟩ := moved_sizes2 t
  funext j
  show out2_3 x0 _ _ (win2_3.xinj (grid2.coords t) j) = out2_3 x0 _ _ (win2_3.xinj (grid2.coords t) j)
  rw [out2_3_eq, out2_3_eq]
  have hj1 : ((win2_3.xinj (grid2.coords t) j) 1).val < win2_3.xsize (grid2.coords t) 1 := (j 1).isLt
  refine pay2_congr x0 _ _ _ _ _ (fun z hz => ?_) ?_
  · -- row `z 0` is the entry's column, below the result block's cut, which is the weight block's row cut
    have hm : win2_1.moved (grid2.coords t) z = true := (win2_1.moved_iff _ z).mpr fun a => by
      match a with
      | ⟨0, _⟩ => exact lt_of_eq_of_lt hz (lt_of_lt_of_eq hj1 h10.symm)
      | ⟨1, _⟩ => exact lt_of_lt_of_eq (z 1).isLt h11.symm
    show Window.fill win2_1 (grid2.coords t) d1 W z = Window.fill win2_1 (grid2.coords t) d1' W z
    unfold Window.fill
    simp only [dif_pos hm]
  · -- the entry itself is below the bias block's cuts
    have hm : win2_2.moved (grid2.coords t) (win2_3.xinj (grid2.coords t) j) = true := (win2_2.moved_iff _ _).mpr fun a => by
      match a with
      | ⟨0, _⟩ => exact lt_of_lt_of_eq ((win2_3.xinj (grid2.coords t) j) 0).isLt h20.symm
      | ⟨1, _⟩ => exact lt_of_lt_of_eq hj1 h21.symm
    show Window.fill win2_2 (grid2.coords t) d2 b _ = Window.fill win2_2 (grid2.coords t) d2' b _
    unfold Window.fill
    simp only [dif_pos hm]

/-! ## The body obligation, nothing forgotten -/

/-- The body obligation of the third pipeline at the ideal values, every window stated: the three inputs' buffers
    come back as they were found (the hidden row whole, the weight and bias blocks on their moved parts), and the
    result's buffer holds the product plus bias of the filled-out buffers, which on the moved part is the product
    plus bias of the blocks filled out by the zero word. -/
theorem body_obligation2 (V : (c : Dev nD) → (b : Ref sig .tc) → Buf (Elt Ideal) ((c : Thread nD τ).loc b)) (c : Dev nD) :
    BodyObligationLoose (dat2 (F := Ideal) V c) (defs₀ (F := Ideal)) Variants.none () Set.univ := fun t => by
  rw [bigSep_W2, bigSep_W2]
  simp only
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩⟩
  rw [before2_0 V c t d0, before2_1 V c t d1, before2_2 V c t d2]
  iapply (sound_kernel2 (F := Ideal) c Set.univ (grid2.coords t)
    (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_3.stage (cfg2.slots t 3)) (hstage2_3 ((cfg2.slots t 3).cast nbuf2_3))
    (iblk2 V c 0 t) (win2_1.fill (grid2.coords t) d1 (iblk2 V c 1 t)) (win2_2.fill (grid2.coords t) d2 (iblk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · rw [after2_0]; iexact H0
  isplitl [H1]
  · iexists d1
    rw [after2_1]; unfold wblk2; rw [Window.cut_fill]; iexact H1
  isplitl [H2]
  · iexists d2
    rw [after2_2]; unfold bblk2; rw [Window.cut_fill]; iexact H2
  · iexists out2_3 (iblk2 V c 0 t) (win2_1.fill (grid2.coords t) d1 (iblk2 V c 1 t)) (win2_2.fill (grid2.coords t) d2 (iblk2 V c 2 t))
    rw [after2_3]; unfold wblk2 bblk2
    rw [Window.fill_congr_cut _ _ (cut_out2_3_indep t (iblk2 V c 0 t) (iblk2 V c 1 t) (iblk2 V c 2 t) d1 _ d2 _)]
    iexact H3

end Cert.KernelIdeal.Hand

end
-- ==== Proof.KI.Run.lean ====
/-
  The run of the idealized kernel program: @main as seven segments (four stretches of host operations, three pallas_calls),
  each entered from the buffers' contents the one before it left, and the launch: every weakly fair execution terminates and
  every unscoped buffer ends at the last contents of the fold.
-/
import proofs.«415815_j77060303224971_3_alg».proof.Proof.Gen.KernelIdeal.Launch
import proofs.«415815_j77060303224971_3_alg».proof.Proof.Gen.KernelIdeal.Skeleton
import proofs.«415815_j77060303224971_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.PureOps.Ideal
import proofs.«415815_j77060303224971_3_alg».proof.Proof.KI.Fold
import proofs.«415815_j77060303224971_3_alg».proof.Proof.KI.R2I

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- No pallas_call has a prefetched table. -/
abbrev kadm : (p : Fin 3) → (pcfgs (F := Ideal) p).Adm := fun p => (cfgs p).toPCfg_adm
/-- Every pipeline's proof data, each at the contents its pallas_call is entered from. -/
def kdats : (p : Fin 3) → (c : Dev nD) → Dat τ (Elt Ideal) Unit ℕ (UR sig nD τ) ℕ (Pipeline.pin (pcfgs (F := Ideal)) kadm p) c
  | ⟨0, _⟩ => fun c => dat0 (U1 m) c
  | ⟨1, _⟩ => fun c => dat1 (U2 m) c
  | ⟨2, _⟩ => fun c => dat2 (U4 m) c
abbrev k𝒱 : Variants := Variants.none
abbrev kL : GSem nD τ sig → Finset Unit := fun _ => ∅
abbrev klv : GSem nD τ sig → Unit → ℕ := fun _ _ => 0
/-- What rides beside the buffers through every segment: the generator register at some state and the core owing nothing. -/
abbrev kR (c : Dev nD) : sProp 𝕄 := iprop((∃ r, prngReg c r) ∗ ∃ W, owes (c : Thread nD τ) (0 : CellTallies nD τ sig Unit) W)
/-- A stretch of host operations as a segment, from the contents `W`. -/
abbrev khseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ k𝒱 kL klv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W kR

theorem khostOps0_fresh : (hostOps0 : List (HloOp τ sig (Elt Ideal))).Forall fun op => op.fresh = ∅ := by
  simp only [List.Forall]; repeat' constructor
theorem khostOps2_fresh : (hostOps2 : List (HloOp τ sig (Elt Ideal))).Forall fun op => op.fresh = ∅ := by
  simp only [List.Forall]; repeat' constructor
theorem khostOps3_fresh : (hostOps3 : List (HloOp τ sig (Elt Ideal))).Forall fun op => op.fresh = ∅ := by
  simp only [List.Forall]; repeat' constructor
theorem khostOps3_1_fresh : (hostOps3_1 : List (HloOp τ sig (Elt Ideal))).Forall fun op => op.fresh = ∅ := by
  simp only [List.Forall]; repeat' constructor

-- the library's entry and exit lemmas are stated over the pinned configuration, which unifies with the printed one only when
-- unification may unfold plain definitions in a metavariable's type
set_option backward.isDefEq.respectTransparency.types false in
/-- The pallas_call number 0 as a segment: entered from every unscoped buffer at the contents before it, left at the
    contents after it; its arrays are split out of the unscoped buffers and put back at what the write-backs leave; the
    generator register goes into the pipeline's invariant and comes back; nothing is owed. -/
def kreg0 : Pipeline.RegionSeg (pcfgs (F := Ideal)) kadm (kdats m) () defs₀ k𝒱 kL klv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ kL klv 0 fun _ _ => rfl
  pre c := iprop(StableHlo.held (c : Thread nD τ) (Pipeline.ucRefs τ sig) (W1 m c) ∗ kR c)
  post c := iprop(StableHlo.held (c : Thread nD τ) (Pipeline.ucRefs τ sig) (W2 m c) ∗ kR c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := Ideal)) kadm (kdats m) launch0.win launch0.arr_whole c
      ((kdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (kdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) kadm (Ix := Unit) (Name := ℕ) (U := UR sig nD τ) (Lvl := ℕ)
      launch0.win launch0.arr_whole c (kdats m) ((kdats m 0 c).share_full fun _ => rfl)
      (U1 m c) (U2 m c) ((kdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration, which unifies with the printed one only when
-- unification may unfold plain definitions in a metavariable's type
set_option backward.isDefEq.respectTransparency.types false in
/-- The pallas_call number 1 as a segment: entered from every unscoped buffer at the contents before it, left at the
    contents after it; its arrays are split out of the unscoped buffers and put back at what the write-backs leave; the
    generator register goes into the pipeline's invariant and comes back; nothing is owed. -/
def kreg1 : Pipeline.RegionSeg (pcfgs (F := Ideal)) kadm (kdats m) () defs₀ k𝒱 kL klv 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ kL klv 1 fun _ _ => rfl
  pre c := iprop(StableHlo.held (c : Thread nD τ) (Pipeline.ucRefs τ sig) (W2 m c) ∗ kR c)
  post c := iprop(StableHlo.held (c : Thread nD τ) (Pipeline.ucRefs τ sig) (W3 m c) ∗ kR c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := Ideal)) kadm (kdats m) launch1.win launch1.arr_whole c
      ((kdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (kdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) kadm (Ix := Unit) (Name := ℕ) (U := UR sig nD τ) (Lvl := ℕ)
      launch1.win launch1.arr_whole c (kdats m) ((kdats m 1 c).share_full fun _ => rfl)
      (U2 m c) (U3 m c) ((kdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration, which unifies with the printed one only when
-- unification may unfold plain definitions in a metavariable's type
set_option backward.isDefEq.respectTransparency.types false in
/-- The pallas_call number 2 as a segment: entered from every unscoped buffer at the contents before it, left at the
    contents after it; its arrays are split out of the unscoped buffers and put back at what the write-backs leave; the
    generator register goes into the pipeline's invariant and comes back; nothing is owed. -/
def kreg2 : Pipeline.RegionSeg (pcfgs (F := Ideal)) kadm (kdats m) () defs₀ k𝒱 kL klv 2 where
  win := launch2.win.to₀
  block_pos := launch2.block_pos
  stage_whole := launch2.stage_whole
  K := PEmpty
  osem k := k.elim
  ho := Pipeline.OwnSemFacts.none _
  hbody c := body_obligation2 (U4 m) c
  hwaits := Pipeline.hwaits_of_owed_zero _ _ _ _ kL klv 2 fun _ _ => rfl
  pre c := iprop(StableHlo.held (c : Thread nD τ) (Pipeline.ucRefs τ sig) (W4 m c) ∗ kR c)
  post c := iprop(StableHlo.held (c : Thread nD τ) (Pipeline.ucRefs τ sig) (W5 m c) ∗ kR c)
  X c := iprop(∃ r, prngReg c r)
  Y c := iprop(∃ r, prngReg c r)
  Z c := Pipeline.unscopedRest (Ix := Unit) (Name := ℕ) (U := UR sig nD τ) (Lvl := ℕ) spec2 c (U4 m c)
  hentry c := by
    rw [Pipeline.ownSems0_none]
    have hsplit := Pipeline.arrays_of_unscopedBufs (p := 2) (pcfgs (F := Ideal)) kadm (kdats m) launch2.win launch2.arr_whole c
      ((kdats m 2 c).share_full fun _ => rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (kdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := Ideal)) kadm (Ix := Unit) (Name := ℕ) (U := UR sig nD τ) (Lvl := ℕ)
      launch2.win launch2.arr_whole c (kdats m) ((kdats m 2 c).share_full fun _ => rfl)
      (U4 m c) (U5 m c) ((kdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's seven segments in order. -/
abbrev ksegs : List (Pipeline.Seg (pcfgs (F := Ideal)) kadm (kdats m) () defs₀ k𝒱 kL klv) :=
  [ .host (khseg hostOps0 hostOps0_sub khostOps0_fresh (W0 m)),
    .region (kreg0 m),
    .region (kreg1 m),
    .host (khseg hostOps2 hostOps2_sub khostOps2_fresh (W3 m)),
    .region (kreg2 m),
    .host (khseg hostOps3 hostOps3_sub khostOps3_fresh (W5 m)),
    .host (khseg hostOps3_1 hostOps3_1_sub khostOps3_1_fresh (W6 m)) ]

/-- @main is the run of the segments. -/
theorem kmain_run (c : Dev nD) : main (F := Ideal) c = Pipeline.Seg.run (ksegs m) := (main_chain c).trans (by chain_rfl)

/-- An unscoped TensorCore reference is among those the thread state holds. -/
theorem kmem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- At the compiled mesh, from any memory with zero counters, every weakly fair execution of @main terminates, nothing
    faulting, and every unscoped buffer ends at the fold's last contents. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := Ideal)) kadm (kdats m) () cellOf_inj emb₁ defs₀ k𝒱 kL klv m ρ main (ksegs m)
    (fun c Q => by rw [kmain_run m c])
    (by simp only [ksegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ kR c))
    (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ kR c) ⊢ _
      iintro ⟨Hh, Hp, HO⟩
      isplitl [Hh Hp]
      · isplitl [Hh]; · iexact Hh
        iexact Hp
      iexact HO⟩)
    (hinit := by
      refine Pipeline.initEach kL klv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

end Cert.KernelIdeal.Hand

end
-- ==== Proof.KI.Keep.lean ====
/-
  What each item of @main leaves alone: a stretch of host operations changes only the buffers its operations write; a
  pallas_call changes only its result arrays (an input array ends as entered). So every argument array, and every value
  read again later, can be followed through the fold unchanged.
-/
import proofs.«415815_j77060303224971_3_alg».proof.Proof.Gen.KernelIdeal.Launch
import proofs.«415815_j77060303224971_3_alg».proof.Proof.Gen.KernelIdeal.Skeleton
import proofs.«415815_j77060303224971_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.PureOps.Ideal
import proofs.«415815_j77060303224971_3_alg».proof.Proof.KI.Fold
import proofs.«415815_j77060303224971_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

theorem W1_keep (c : Dev nD) (b : Ref sig .tc) (h : b ∉ hostOps0_W) : W1 m c (Proc.devRef .tc b) = W0 m c (Proc.devRef .tc b) :=
  StableHlo.after_of_writes_sub hostOps0 _ hostOps0_writes h

theorem W2_keep (c : Dev nD) (b : Ref sig .tc) (h7 : b ≠ main_v13_0) (h8 : b ≠ main_v13_1) :
    W2 m c (Proc.devRef .tc b) = W1 m c (Proc.devRef .tc b) := by
  have key : ∀ w : Fin cfg0.W, (cfg0.win w).isOut = false ∨ Pipeline.arrRef spec0 w = main_v13_0 ∨ Pipeline.arrRef spec0 w = main_v13_1 := by decide
  by_cases h : ∃ w, Pipeline.arrRef spec0 w = b
  · obtain ⟨w, rfl⟩ := h
    rcases key w with hin | e | e
    · exact (W2_arr m c w).trans (((dat0 (U1 m) c).arrAt_in w hin _).trans (A_eq0 (U1 m) c w))
    · exact absurd e h7
    · exact absurd e h8
  · exact W2_of_ne m c b fun w e => h ⟨w, e⟩

theorem W3_keep (c : Dev nD) (b : Ref sig .tc) (h6 : b ≠ main_v14_0) (h7 : b ≠ main_v14_1) :
    W3 m c (Proc.devRef .tc b) = W2 m c (Proc.devRef .tc b) := by
  have key : ∀ w : Fin cfg1.W, (cfg1.win w).isOut = false ∨ Pipeline.arrRef spec1 w = main_v14_0 ∨ Pipeline.arrRef spec1 w = main_v14_1 := by decide
  by_cases h : ∃ w, Pipeline.arrRef spec1 w = b
  · obtain ⟨w, rfl⟩ := h
    rcases key w with hin | e | e
    · exact (W3_arr m c w).trans (((dat1 (U2 m) c).arrAt_in w hin _).trans (A_eq1 (U2 m) c w))
    · exact absurd e h6
    · exact absurd e h7
  · exact W3_of_ne m c b fun w e => h ⟨w, e⟩

theorem W4_keep (c : Dev nD) (b : Ref sig .tc) (h : b ∉ hostOps2_W) : W4 m c (Proc.devRef .tc b) = W3 m c (Proc.devRef .tc b) :=
  StableHlo.after_of_writes_sub hostOps2 _ hostOps2_writes h

theorem W5_keep (c : Dev nD) (b : Ref sig .tc) (h3 : b ≠ main_v43) :
    W5 m c (Proc.devRef .tc b) = W4 m c (Proc.devRef .tc b) := by
  have key : ∀ w : Fin cfg2.W, (cfg2.win w).isOut = false ∨ Pipeline.arrRef spec2 w = main_v43 := by decide
  by_cases h : ∃ w, Pipeline.arrRef spec2 w = b
  · obtain ⟨w, rfl⟩ := h
    rcases key w with hin | e
    · exact (W5_arr m c w).trans (((dat2 (U4 m) c).arrAt_in w hin _).trans (A_eq2 (U4 m) c w))
    · exact absurd e h3
  · exact W5_of_ne m c b fun w e => h ⟨w, e⟩

theorem W6_keep (c : Dev nD) (b : Ref sig .tc) (h : b ∉ hostOps3_W) : W6 m c (Proc.devRef .tc b) = W5 m c (Proc.devRef .tc b) :=
  StableHlo.after_of_writes_sub hostOps3 _ hostOps3_writes h

theorem W7_keep (c : Dev nD) (b : Ref sig .tc) (h : b ∉ hostOps3_1_W) : W7 m c (Proc.devRef .tc b) = W6 m c (Proc.devRef .tc b) :=
  StableHlo.after_of_writes_sub hostOps3_1 _ hostOps3_1_writes h

/-- A buffer no host operation writes and no pallas_call has as a result ends as launched. -/
theorem W7_of_untouched (c : Dev nD) (b : Ref sig .tc) (h0 : b ∉ hostOps0_W) (h2 : b ∉ hostOps2_W) (h3 : b ∉ hostOps3_W) (h31 : b ∉ hostOps3_1_W)
    (hr : b ∉ ([main_v13_0, main_v13_1, main_v14_0, main_v14_1, main_v43] : List (Ref sig .tc))) :
    W7 m c (Proc.devRef .tc b) = m ((c : Thread nD τ).loc b) := by
  have e0 : b ≠ main_v13_0 := by rintro rfl; exact hr (by decide)
  have e1 : b ≠ main_v13_1 := by rintro rfl; exact hr (by decide)
  have e2 : b ≠ main_v14_0 := by rintro rfl; exact hr (by decide)
  have e3 : b ≠ main_v14_1 := by rintro rfl; exact hr (by decide)
  have e4 : b ≠ main_v43 := by rintro rfl; exact hr (by decide)
  exact (W7_keep m c b h31).trans <| (W6_keep m c b h3).trans <| (W5_keep m c b e4).trans <| (W4_keep m c b h2).trans <|
    (W3_keep m c b e2 e3).trans <| (W2_keep m c b e0 e1).trans <| (W1_keep m c b h0).trans rfl

theorem W7_main_arg0 (c : Dev nD) : W7 m c (Proc.devRef .tc main_arg0) = m ((c : Thread nD τ).loc main_arg0) :=
  W7_of_untouched m c main_arg0 (by decide) (by decide) (by decide) (by decide) (by decide)
theorem W7_main_arg1 (c : Dev nD) : W7 m c (Proc.devRef .tc main_arg1) = m ((c : Thread nD τ).loc main_arg1) :=
  W7_of_untouched m c main_arg1 (by decide) (by decide) (by decide) (by decide) (by decide)
theorem W7_main_arg2 (c : Dev nD) : W7 m c (Proc.devRef .tc main_arg2) = m ((c : Thread nD τ).loc main_arg2) :=
  W7_of_untouched m c main_arg2 (by decide) (by decide) (by decide) (by decide) (by decide)
theorem W7_main_arg3 (c : Dev nD) : W7 m c (Proc.devRef .tc main_arg3) = m ((c : Thread nD τ).loc main_arg3) :=
  W7_of_untouched m c main_arg3 (by decide) (by decide) (by decide) (by decide) (by decide)
theorem W7_main_arg4 (c : Dev nD) : W7 m c (Proc.devRef .tc main_arg4) = m ((c : Thread nD τ).loc main_arg4) :=
  W7_of_untouched m c main_arg4 (by decide) (by decide) (by decide) (by decide) (by decide)
theorem W7_main_arg5 (c : Dev nD) : W7 m c (Proc.devRef .tc main_arg5) = m ((c : Thread nD τ).loc main_arg5) :=
  W7_of_untouched m c main_arg5 (by decide) (by decide) (by decide) (by decide) (by decide)
theorem W7_main_arg6 (c : Dev nD) : W7 m c (Proc.devRef .tc main_arg6) = m ((c : Thread nD τ).loc main_arg6) :=
  W7_of_untouched m c main_arg6 (by decide) (by decide) (by decide) (by decide) (by decide)
theorem W7_main_arg7 (c : Dev nD) : W7 m c (Proc.devRef .tc main_arg7) = m ((c : Thread nD τ).loc main_arg7) :=
  W7_of_untouched m c main_arg7 (by decide) (by decide) (by decide) (by decide) (by decide)
theorem W7_main_arg8 (c : Dev nD) : W7 m c (Proc.devRef .tc main_arg8) = m ((c : Thread nD τ).loc main_arg8) :=
  W7_of_untouched m c main_arg8 (by decide) (by decide) (by decide) (by decide) (by decide)
theorem W7_main_arg9 (c : Dev nD) : W7 m c (Proc.devRef .tc main_arg9) = m ((c : Thread nD τ).loc main_arg9) :=
  W7_of_untouched m c main_arg9 (by decide) (by decide) (by decide) (by decide) (by decide)
theorem W7_main_arg10 (c : Dev nD) : W7 m c (Proc.devRef .tc main_arg10) = m ((c : Thread nD τ).loc main_arg10) :=
  W7_of_untouched m c main_arg10 (by decide) (by decide) (by decide) (by decide) (by decide)
theorem W7_main_arg11 (c : Dev nD) : W7 m c (Proc.devRef .tc main_arg11) = m ((c : Thread nD τ).loc main_arg11) :=
  W7_of_untouched m c main_arg11 (by decide) (by decide) (by decide) (by decide) (by decide)
theorem W7_main_arg12 (c : Dev nD) : W7 m c (Proc.devRef .tc main_arg12) = m ((c : Thread nD τ).loc main_arg12) :=
  W7_of_untouched m c main_arg12 (by decide) (by decide) (by decide) (by decide) (by decide)
theorem W7_main_arg13 (c : Dev nD) : W7 m c (Proc.devRef .tc main_arg13) = m ((c : Thread nD τ).loc main_arg13) :=
  W7_of_untouched m c main_arg13 (by decide) (by decide) (by decide) (by decide) (by decide)

end Cert.KernelIdeal.Hand

end
-- ==== Proof.KI.HostChains.lean ====
/-
  The host stretches of the program as functions of what they read. Between the pallas_calls the program runs
  plain array operations: at the start the embedding row is gathered (the token index normalised: a negative index
  counts from the table's end) and six arguments are reshaped to rows; after the second call the recurrent cell's
  gates are combined, r = 1/(1+exp(−(gx_r+gh_r))), z = 1/(1+exp(−(gx_z+gh_z))), n = tanh(gx_n + r·gh_n),
  h' = (1−z)·n + z·h; after the third call the logits go through log-softmax, x − max x − log Σ exp(x − max x); and the
  new hidden row is given its leading unit axis. Each stretch is named here as one function, and what a stretch leaves
  in the buffers that matter is that function of what the buffers held before it.
-/
import proofs.«415815_j77060303224971_3_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.StableHlo

variable {F : FTy → Type} [FloatOps F]

/-! ## The gate combination of the recurrent cell -/

/-- The row of ones the gates are written with. -/
def onesRow : (⟨S1x1024, .f32⟩ : BufTy).Contents (Elt F) :=
  broadcastInDim S1x1024 ![] bcast_S_S1x1024 (constant (F := F) S_ .f32 0x3F800000#32)

/-- The logistic function of a row, spelt 1 / (1 + exp(−x)). -/
def sigmRow (x : (⟨S1x1024, .f32⟩ : BufTy).Contents (Elt F)) : (⟨S1x1024, .f32⟩ : BufTy).Contents (Elt F) :=
  Host.divf (onesRow (F := F)) (addf (onesRow (F := F)) (Host.exp (Host.negf x)))

/-- The new hidden row from the input-side and hidden-side gate pre-activations `gx`, `gh` (three thirds each: reset,
    update, candidate) and the old hidden row `h0`. -/
def gateChain (gx gh : (⟨S1x3072, .f32⟩ : BufTy).Contents (Elt F)) (h0 : (⟨S1x1024, .f32⟩ : BufTy).Contents (Elt F)) :
    (⟨S1x1024, .f32⟩ : BufTy).Contents (Elt F) :=
  addf
    (mulf
      (subf (onesRow (F := F))
        (sigmRow (addf (extractStridedSlice S1x1024 ![0, 1024] gx slices_S1x3072_S1x1024_0_1024)
          (extractStridedSlice S1x1024 ![0, 1024] gh slices_S1x3072_S1x1024_0_1024))))
      (Host.tanh (addf (extractStridedSlice S1x1024 ![0, 2048] gx slices_S1x3072_S1x1024_0_2048)
        (mulf (sigmRow (addf (extractStridedSlice S1x1024 ![0, 0] gx slices_S1x3072_S1x1024_0_0)
            (extractStridedSlice S1x1024 ![0, 0] gh slices_S1x3072_S1x1024_0_0)))
          (extractStridedSlice S1x1024 ![0, 2048] gh slices_S1x3072_S1x1024_0_2048)))))
    (mulf
      (sigmRow (addf (extractStridedSlice S1x1024 ![0, 1024] gx slices_S1x3072_S1x1024_0_1024)
        (extractStridedSlice S1x1024 ![0, 1024] gh slices_S1x3072_S1x1024_0_1024)))
      h0)

set_option maxHeartbeats 4000000 in
/-- After the second stretch the new hidden row's buffer holds the gate combination of the two gate rows and the
    old hidden row. -/
theorem after_hostOps2_v42 (V : Valuation τ sig (Elt F)) :
    StableHlo.after hostOps2 V (Proc.devRef .tc main_v42)
      = gateChain (V (Proc.devRef .tc main_v14_0)) (V (Proc.devRef .tc main_v14_1)) (V (Proc.devRef .tc main_v7)) := by
  after_results_simp
  unfold gateChain sigmRow onesRow
  rfl

/-! ## Log-softmax of the logits -/

/-- The logits row minus its maximum (the maximum taken against −∞ twice, as printed). -/
def shiftRow (x : (⟨S1x50257, .f32⟩ : BufTy).Contents (Elt F)) : (⟨S1x50257, .f32⟩ : BufTy).Contents (Elt F) :=
  subf x (broadcastInDim S1x50257 ![0, 1] bcast_S1x1_S1x50257_0_1 (broadcastInDim S1x1 ![0] bcast_S1_S1x1_0
    (maximumf (broadcastInDim S1 ![] bcast_S_S1 (constant (F := F) S_ .f32 0xFF800000#32))
      (Host.reduce FloatOps.maximumf x (constant (F := F) S_ .f32 0xFF800000#32) reducesTo_S1x50257_S1_d1 h_S_))))

/-- Log-softmax of a row: the shifted row minus the logarithm of the sum of its exponentials. -/
def lsmChain (x : (⟨S1x50257, .f32⟩ : BufTy).Contents (Elt F)) : (⟨S1x50257, .f32⟩ : BufTy).Contents (Elt F) :=
  subf (shiftRow x) (broadcastInDim S1x50257 ![0, 1] bcast_S1x1_S1x50257_0_1 (Host.log (broadcastInDim S1x1 ![0] bcast_S1_S1x1_0
    (Host.reduceAdd (Host.exp (shiftRow x)) (constant (F := F) S_ .f32 0x00000000#32) reducesTo_S1x50257_S1_d1 h_S_))))

/-! The third stretch is an outlined function inlined: its operations are stated over references that carry their
    value's type, and move contents between that type and the buffer's own along an equation of types. Read back at the
    carried type, an operation's result is its function of its operands read at theirs. -/

section TypedReads

variable {Tx Ta Tb Ty : BufTy}

/-- Contents moved to a typed reference's buffer type and back are the contents. -/
theorem ofBuf_toBuf (y : TRef sig Ty) (v : Ty.Contents (Elt F)) : y.ofBuf (y.toBuf v) = v := by
  simp only [TRef.ofBuf, TRef.toBuf, cast_cast, cast_eq]

theorem nullary_read (y : TRef sig Ty) (v : Ty.Contents (Elt F)) (W : Valuation τ sig (Elt F)) :
    y.ofBuf ((TRef.nullary y v).result W (Proc.devRef .tc y.ref)) = v :=
  (congrArg y.ofBuf (nullary_result y.ref (y.toBuf v) y.dev W)).trans (ofBuf_toBuf y v)

theorem unary_read (x : TRef sig Tx) (y : TRef sig Ty) (f : Tx.Contents (Elt F) → Ty.Contents (Elt F)) (W : Valuation τ sig (Elt F)) :
    y.ofBuf ((TRef.unary x y f).result W (Proc.devRef .tc y.ref)) = f (x.ofBuf (W (Proc.devRef .tc x.ref))) :=
  (congrArg y.ofBuf (unary_result x.ref y.ref (fun u => y.toBuf (f (x.ofBuf u))) x.dev y.dev W)).trans (ofBuf_toBuf y _)

theorem binary_read (a : TRef sig Ta) (b : TRef sig Tb) (y : TRef sig Ty)
    (f : Ta.Contents (Elt F) → Tb.Contents (Elt F) → Ty.Contents (Elt F)) (W : Valuation τ sig (Elt F)) :
    y.ofBuf ((TRef.binary a b y f).result W (Proc.devRef .tc y.ref))
      = f (a.ofBuf (W (Proc.devRef .tc a.ref))) (b.ofBuf (W (Proc.devRef .tc b.ref))) :=
  (congrArg y.ofBuf (binary_result a.ref b.ref y.ref (fun u v => y.toBuf (f (a.ofBuf u) (b.ofBuf v))) a.dev b.dev y.dev W)).trans
    (ofBuf_toBuf y _)

end TypedReads

/-- After the third stretch the result's buffer holds the log-softmax of the logits. -/
theorem after_hostOps3_v44 (V : Valuation τ sig (Elt F)) :
    StableHlo.after hostOps3 V (Proc.devRef .tc main_v44) = lsmChain (V (Proc.devRef .tc main_v43)) := by
  have key : (TRef.of main_v44 : TRef sig ⟨S1x50257, .f32⟩).ofBuf (StableHlo.after hostOps3 V (Proc.devRef .tc main_v44))
      = lsmChain ((TRef.of main_v43 : TRef sig ⟨S1x50257, .f32⟩).ofBuf (V (Proc.devRef .tc main_v43))) := by
    simp only [after_cons, after_nil]
    repeat (first
      | rw [nullary_read] | rw [unary_read] | rw [binary_read]
      | (rw [nullary_result_ne]; rotate_left; decide)
      | (rw [unary_result_ne]; rotate_left; decide)
      | (rw [binary_result_ne]; rotate_left; decide))
    first | done | (unfold lsmChain shiftRow; rfl)
  exact (cast_eq _ _).symm.trans (key.trans (congrArg lsmChain (cast_eq _ _)))

/-! ## The hidden row with its leading unit axis -/

/-- After the last stretch the second result's buffer holds the new hidden row broadcast to [1, 1, 1024]. -/
theorem after_hostOps3_1_v45 (V : Valuation τ sig (Elt F)) :
    StableHlo.after hostOps3_1 V (Proc.devRef .tc main_v45)
      = broadcastInDim S1x1x1024 ![1, 2] bcast_S1x1024_S1x1x1024_1_2 (V (Proc.devRef .tc main_v42)) := by
  after_results

/-! ## The embedding row and the reshaped arguments -/

/-- The embedding table's row at the token index, a negative index counted from the table's end. -/
def embRow (i : (⟨S1, .i32⟩ : BufTy).Contents (Elt F)) (E : (⟨S50257x1024, .f32⟩ : BufTy).Contents (Elt F)) :
    (⟨S1x1024, .f32⟩ : BufTy).Contents (Elt F) :=
  Host.gather gather_S50257x1024_S1x1_S1x1024_1_0_n_n_0_1_11024 E
    (broadcastInDim S1x1 ![0] bcast_S1_S1x1_0
      (select (cmpi .slt i (broadcastInDim S1 ![] bcast_S_S1 (constantI S_ 32 0#32)))
        (addi i (broadcastInDim S1 ![] bcast_S_S1 (constantI S_ 32 50257#32))) i))

theorem after_hostOps0_v6 (V : Valuation τ sig (Elt F)) :
    StableHlo.after hostOps0 V (Proc.devRef .tc main_v6)
      = embRow (V (Proc.devRef .tc main_arg0)) (V (Proc.devRef .tc main_arg3)) := by
  after_results
  unfold embRow
  rfl

theorem after_hostOps0_v7 (V : Valuation τ sig (Elt F)) :
    StableHlo.after hostOps0 V (Proc.devRef .tc main_v7)
      = shapeCast S1x1024 (V (Proc.devRef .tc main_arg1)) shapeCasts_S1x1x1024_S1x1024 := by
  after_results
  rfl

theorem after_hostOps0_v8 (V : Valuation τ sig (Elt F)) :
    StableHlo.after hostOps0 V (Proc.devRef .tc main_v8)
      = shapeCast S1x128 (V (Proc.devRef .tc main_arg5)) shapeCasts_S128_S1x128 := by
  after_results
  rfl

theorem after_hostOps0_v9 (V : Valuation τ sig (Elt F)) :
    StableHlo.after hostOps0 V (Proc.devRef .tc main_v9)
      = shapeCast S1x1024 (V (Proc.devRef .tc main_arg7)) shapeCasts_S1024_S1x1024 := by
  after_results
  rfl

theorem after_hostOps0_v10 (V : Valuation τ sig (Elt F)) :
    StableHlo.after hostOps0 V (Proc.devRef .tc main_v10)
      = shapeCast S1x3072 (V (Proc.devRef .tc main_arg10)) shapeCasts_S3072_S1x3072 := by
  after_results
  rfl

theorem after_hostOps0_v11 (V : Valuation τ sig (Elt F)) :
    StableHlo.after hostOps0 V (Proc.devRef .tc main_v11)
      = shapeCast S1x3072 (V (Proc.devRef .tc main_arg11)) shapeCasts_S3072_S1x3072 := by
  after_results
  rfl

theorem after_hostOps0_v12 (V : Valuation τ sig (Elt F)) :
    StableHlo.after hostOps0 V (Proc.devRef .tc main_v12)
      = shapeCast S1x50257 (V (Proc.devRef .tc main_arg13)) shapeCasts_S50257_S1x50257 := by
  after_results
  rfl

end Cert.KernelIdeal.Hand

end
-- ==== Proof.Val.Rows.lean ====
/-
  A row vector against the ROWS of a weight matrix, plus a bias row.

  Both the kernel's gate and projection products and the reference's corresponding stages are of this one form:
  the entry at column j is `(∑ k, x(0, k) · W(j, k)) + b(j)`. The kernel contracts the last axis of both operands
  directly; the reference first transposes the weights and then contracts the row's last axis with the transposed
  matrix's first, and broadcasts the bias along the row. At the ideal values the narrowing of the operands is the
  identity and the product into the zero accumulator is the plain sum.
-/
import proofs.«415815_j77060303224971_3_alg».proof.Proof.Gen.KernelIdeal.Skeleton
import Idealize.ShloMosaic.PureOps.Ideal.Laws
import Idealize.ShloMosaic.Lib.ValueIdx
import Idealize.ShloMosaic.Lib.Pipeline.Value

noncomputable section

namespace Cert.Bridge

open Idealize.ShloMosaic Idealize.ShloMosaic.ValueIdx

/-! ## A row block against the rows of a matrix: both operands contracted on their last axis -/

section RowsProduct
variable (M K N : Nat)

/-- Axis 0 of the left operand is the output's row. -/
theorem rows_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil), dif_pos (show (0 : Fin (⟨2, ![M, K]⟩ : Shape).rank) ∈ (DotDims.transposedRhs M K N).lhsNonContracting from List.mem_singleton.mpr rfl)]
  rfl
/-- Axis 1 of the left operand is the contracted coordinate. -/
theorem rows_lhs_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q
/-- Axis 0 of the right operand is the output's column. -/
theorem rows_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil), dif_pos (show (0 : Fin (⟨2, ![N, K]⟩ : Shape).rank) ∈ (DotDims.transposedRhs M K N).rhsNonContracting from List.mem_singleton.mpr rfl)]
  rfl
/-- Axis 1 of the right operand is the contracted coordinate. -/
theorem rows_rhs_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

end RowsProduct

/-- The entry (a, b) of an M×K block times the transpose of an N×K block, accumulated into zero, is
    `∑ c, A(a, c) · B(b, c)`: no accumulator term, no chunk order. -/
theorem matmul_rows_zero_apply {M K N : Nat} {φ₁ φ₂ : FTy} (prec : Option ContractPrecision)
    (A : FVec Ideal ⟨2, ![M, K]⟩ φ₁) (B : FVec Ideal ⟨2, ![N, K]⟩ φ₂) (a : Fin M) (b : Fin N) :
    matmul (F := Ideal) (DotDims.transposedRhs M K N) prec A B (constant ⟨2, ![M, N]⟩ .f32 0x00000000#32) (ix2 a b)
      = ∑ c : Fin K, A (ix2 a c) * B (ix2 b c) := by
  show FloatOps.matmul _ prec A B _ (ix2 a b) = _
  rw [Ideal.matmul_constant_zero_apply, ← Equiv.sum_comp (contrEquiv1 (DotDims.transposedRhs M K N) K rfl rfl).symm]
  refine Finset.sum_congr rfl fun c _ => ?_
  have hc := contrEquiv1_symm_val (DotDims.transposedRhs M K N) K rfl rfl c
  have el : (DotDims.transposedRhs M K N).lhsIdx (ix2 a b) ((contrEquiv1 (DotDims.transposedRhs M K N) K rfl rfl).symm c) = ix2 a c := funext fun ax => Fin.ext (by
    match ax with
    | ⟨0, _⟩ => exact rows_lhs_0 M K N _ _
    | ⟨1, _⟩ => exact (rows_lhs_1 M K N _ _).trans hc)
  have er : (DotDims.transposedRhs M K N).rhsIdx (ix2 a b) ((contrEquiv1 (DotDims.transposedRhs M K N) K rfl rfl).symm c) = ix2 b c := funext fun ax => Fin.ext (by
    match ax with
    | ⟨0, _⟩ => exact rows_rhs_0 M K N _ _
    | ⟨1, _⟩ => exact (rows_rhs_1 M K N _ _).trans hc)
  rw [el, er]

/-- The same for any record that IS that one (a program's record with the same six lists differs from it only in
    its well-formedness proof). -/
theorem matmul_rows_zero_apply_of_eq {M K N : Nat} {φ₁ φ₂ : FTy} (d : DotDims ⟨2, ![M, K]⟩ ⟨2, ![N, K]⟩ ⟨2, ![M, N]⟩)
    (hd : d = DotDims.transposedRhs M K N) (prec : Option ContractPrecision)
    (A : FVec Ideal ⟨2, ![M, K]⟩ φ₁) (B : FVec Ideal ⟨2, ![N, K]⟩ φ₂) (a : Fin M) (b : Fin N) :
    matmul (F := Ideal) d prec A B (constant ⟨2, ![M, N]⟩ .f32 0x00000000#32) (ix2 a b)
      = ∑ c : Fin K, A (ix2 a c) * B (ix2 b c) := by
  subst hd; exact matmul_rows_zero_apply prec A B a b

/-! ## The kernel's three products at a column -/

open Cert.KernelIdeal in
/-- The first gate product at column j: the input row against row j of the weights, plus the bias. -/
theorem k1_pay1_apply (x : Vec Ideal S1x1024 .f32) (W : Vec Ideal S1536x1024 .f32) (b : Vec Ideal S1x1536 .f32) (j : Fin 1536) :
    Cert.KernelIdeal.Gen.k1_pay1 (F := Ideal) x W b (ix2 (0 : Fin 1) j)
      = (∑ k : Fin 1024, x (ix2 (0 : Fin 1) k) * W (ix2 j k)) + b (ix2 (0 : Fin 1) j) := by
  unfold Cert.KernelIdeal.Gen.k1_pay1
  rw [addf_apply, shapeCast_self, shapeCast_self,
    matmul_rows_zero_apply_of_eq Cert.KernelIdeal.dot_S1x1024_S1536x1024_S1x1536_1_1_0_0_n_n rfl]
  rfl

open Cert.KernelIdeal in
/-- The second gate product at column j: the state row against row j of the weights, plus the bias. -/
theorem k1_pay2_apply (x : Vec Ideal S1x1024 .f32) (W : Vec Ideal S1536x1024 .f32) (b : Vec Ideal S1x1536 .f32) (j : Fin 1536) :
    Cert.KernelIdeal.Gen.k1_pay2 (F := Ideal) x W b (ix2 (0 : Fin 1) j)
      = (∑ k : Fin 1024, x (ix2 (0 : Fin 1) k) * W (ix2 j k)) + b (ix2 (0 : Fin 1) j) := by
  unfold Cert.KernelIdeal.Gen.k1_pay2
  rw [addf_apply, shapeCast_self, shapeCast_self,
    matmul_rows_zero_apply_of_eq Cert.KernelIdeal.dot_S1x1024_S1536x1024_S1x1536_1_1_0_0_n_n rfl]
  rfl

open Cert.KernelIdeal in
/-- The output projection at column j: the new state row against row j of the weights, plus the bias. -/
theorem k2_pay1_apply (x : Vec Ideal S1x1024 .f32) (W : Vec Ideal S2048x1024 .f32) (b : Vec Ideal S1x2048 .f32) (j : Fin 2048) :
    Cert.KernelIdeal.Gen.k2_pay1 (F := Ideal) x W b (ix2 (0 : Fin 1) j)
      = (∑ k : Fin 1024, x (ix2 (0 : Fin 1) k) * W (ix2 j k)) + b (ix2 (0 : Fin 1) j) := by
  unfold Cert.KernelIdeal.Gen.k2_pay1
  rw [addf_apply, shapeCast_self, shapeCast_self,
    matmul_rows_zero_apply_of_eq Cert.KernelIdeal.dot_S1x1024_S2048x1024_S1x2048_1_1_0_0_n_n rfl]
  rfl

end Cert.Bridge

end
-- ==== Proof.KI.Arr01.lean ====
/-
  The first two pallas_calls' result arrays as functions of the arrays each region is entered from. In the first
  region the one grid point's blocks are whole arrays, so each result array ends holding the body's payload of the seven
  input arrays. In the second region each result row is written in two halves along the gate axis; both halves are the
  restriction of one row (the input row against every row of the weight matrix, plus the bias), and the two halves
  cover the row, so the array ends holding that row.
-/
import proofs.«415815_j77060303224971_3_alg».proof.Proof.KI.R0
import proofs.«415815_j77060303224971_3_alg».proof.Proof.KI.R1
import proofs.«415815_j77060303224971_3_alg».proof.Proof.Val.Rows
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx
open scoped BigOperators

/-- The zero offsets of a whole-block rectangle, as the constant function. -/
theorem zero_offsets : (![0, 0] : Fin 2 → Nat) = fun _ => 0 := funext fun a => by fin_cases a <;> rfl

/-! ## The first region: one point, every block a whole array -/

section Whole

variable {F : FTy → Type} [FloatOps F]
variable (V : (c : Dev nD) → (b : Ref sig .tc) → Buf (Elt F) ((c : Thread nD τ).loc b))

/-- Result 0's one store covers its buffer and every load reads a whole buffer: what is left is the payload of the inputs. -/
theorem out0_7_eq (x0 : Vec F S1x1024 .f32) (x1 : Vec F S1x1024 .f32) (x2 : Vec F S128x1024 .f32) (x3 : Vec F S128x2048 .f32)
    (x4 : Vec F S1x128 .f32) (x5 : Vec F S1024x2048 .f32) (x6 : Vec F S1x1024 .f32) :
    out0_7 x0 x1 x2 x3 x4 x5 x6 = k0_pay3 x0 x1 x3 x4 x2 x5 x6 := by
  unfold out0_7
  rw [View.canon_unit_zero zero_offsets]
  simp only [View.ld_unit_zero (S := S1x1024) zero_offsets, View.ld_unit_zero (S := S128x1024) zero_offsets,
    View.ld_unit_zero (S := S128x2048) zero_offsets, View.ld_unit_zero (S := S1x128) zero_offsets,
    View.ld_unit_zero (S := S1024x2048) zero_offsets]

/-- The same for result 1. -/
theorem out0_8_eq (x0 : Vec F S1x1024 .f32) (x1 : Vec F S1x1024 .f32) (x3 : Vec F S128x2048 .f32) (x4 : Vec F S1x128 .f32) :
    out0_8 x0 x1 x3 x4 = k0_pay2 x0 x1 x3 x4 := by
  unfold out0_8
  rw [View.canon_unit_zero zero_offsets]
  simp only [View.ld_unit_zero (S := S1x1024) zero_offsets,
    View.ld_unit_zero (S := S128x2048) zero_offsets, View.ld_unit_zero (S := S1x128) zero_offsets]

/-! Each input window's block at the one point sits at block index (0, 0) and has the array's own sizes: read through
    it, the array is itself. -/
theorem iblk0_0 (c : Dev nD) (t : Fin cfg0.N) : iblk0 V c 0 t = V c main_v6 := by
  unfold iblk0
  have hz' : (fun a => win0_0.index t a * main_v6.ty.shape.size a) = fun _ => 0 := by
    revert t; exact (by decide +kernel : ∀ t : Fin grid0.N, (fun a => win0_0.index t a * main_v6.ty.shape.size a) = fun _ => 0)
  exact Memref.read_access_unit_zero (Elt F) main_v6 hz' (fun a => by rw [congrFun hz' a]; simp) (V c main_v6)
theorem iblk0_1 (c : Dev nD) (t : Fin cfg0.N) : iblk0 V c 1 t = V c main_v7 := by
  unfold iblk0
  have hz' : (fun a => win0_1.index t a * main_v7.ty.shape.size a) = fun _ => 0 := by
    revert t; exact (by decide +kernel : ∀ t : Fin grid0.N, (fun a => win0_1.index t a * main_v7.ty.shape.size a) = fun _ => 0)
  exact Memref.read_access_unit_zero (Elt F) main_v7 hz' (fun a => by rw [congrFun hz' a]; simp) (V c main_v7)
theorem iblk0_2 (c : Dev nD) (t : Fin cfg0.N) : iblk0 V c 2 t = V c main_arg2 := by
  unfold iblk0
  have hz' : (fun a => win0_2.index t a * main_arg2.ty.shape.size a) = fun _ => 0 := by
    revert t; exact (by decide +kernel : ∀ t : Fin grid0.N, (fun a => win0_2.index t a * main_arg2.ty.shape.size a) = fun _ => 0)
  exact Memref.read_access_unit_zero (Elt F) main_arg2 hz' (fun a => by rw [congrFun hz' a]; simp) (V c main_arg2)
theorem iblk0_3 (c : Dev nD) (t : Fin cfg0.N) : iblk0 V c 3 t = V c main_arg4 := by
  unfold iblk0
  have hz' : (fun a => win0_3.index t a * main_arg4.ty.shape.size a) = fun _ => 0 := by
    revert t; exact (by decide +kernel : ∀ t : Fin grid0.N, (fun a => win0_3.index t a * main_arg4.ty.shape.size a) = fun _ => 0)
  exact Memref.read_access_unit_zero (Elt F) main_arg4 hz' (fun a => by rw [congrFun hz' a]; simp) (V c main_arg4)
theorem iblk0_4 (c : Dev nD) (t : Fin cfg0.N) : iblk0 V c 4 t = V c main_v8 := by
  unfold iblk0
  have hz' : (fun a => win0_4.index t a * main_v8.ty.shape.size a) = fun _ => 0 := by
    revert t; exact (by decide +kernel : ∀ t : Fin grid0.N, (fun a => win0_4.index t a * main_v8.ty.shape.size a) = fun _ => 0)
  exact Memref.read_access_unit_zero (Elt F) main_v8 hz' (fun a => by rw [congrFun hz' a]; simp) (V c main_v8)
theorem iblk0_5 (c : Dev nD) (t : Fin cfg0.N) : iblk0 V c 5 t = V c main_arg6 := by
  unfold iblk0
  have hz' : (fun a => win0_5.index t a * main_arg6.ty.shape.size a) = fun _ => 0 := by
    revert t; exact (by decide +kernel : ∀ t : Fin grid0.N, (fun a => win0_5.index t a * main_arg6.ty.shape.size a) = fun _ => 0)
  exact Memref.read_access_unit_zero (Elt F) main_arg6 hz' (fun a => by rw [congrFun hz' a]; simp) (V c main_arg6)
theorem iblk0_6 (c : Dev nD) (t : Fin cfg0.N) : iblk0 V c 6 t = V c main_v9 := by
  unfold iblk0
  have hz' : (fun a => win0_6.index t a * main_v9.ty.shape.size a) = fun _ => 0 := by
    revert t; exact (by decide +kernel : ∀ t : Fin grid0.N, (fun a => win0_6.index t a * main_v9.ty.shape.size a) = fun _ => 0)
  exact Memref.read_access_unit_zero (Elt F) main_v9 hz' (fun a => by rw [congrFun hz' a]; simp) (V c main_v9)

/-- What the one point writes back to result 0's array is the payload of the seven input arrays, read through the block. -/
theorem flushed0_7_eq (c : Dev nD) (t : Fin cfg0.N) :
    (dat0 V c).flushed 7 t = ((cfg0.win 7).blk t).view.read (Elt F)
      (k0_pay3 (V c main_v6) (V c main_v7) (V c main_arg4) (V c main_v8) (V c main_arg2) (V c main_arg6) (V c main_v9)) := by
  show (cfg0.win 7).cut (grid0.coords t) ((dat0 V c).after 7 t) = _
  rw [after0_7, out0_7_eq, iblk0_0, iblk0_1, iblk0_2, iblk0_3, iblk0_4, iblk0_5, iblk0_6]
  have hz' : (fun a => win0_7.index t a * main_v13_0.ty.shape.size a) = fun _ => 0 := by
    revert t; exact (by decide +kernel : ∀ t : Fin grid0.N, (fun a => win0_7.index t a * main_v13_0.ty.shape.size a) = fun _ => 0)
  exact (Memref.read_access_unit_zero (Elt F) main_v13_0 hz' (fun a => by rw [congrFun hz' a]; simp) _).symm

/-- The same for result 1. -/
theorem flushed0_8_eq (c : Dev nD) (t : Fin cfg0.N) :
    (dat0 V c).flushed 8 t = ((cfg0.win 8).blk t).view.read (Elt F)
      (k0_pay2 (V c main_v6) (V c main_v7) (V c main_arg4) (V c main_v8)) := by
  show (cfg0.win 8).cut (grid0.coords t) ((dat0 V c).after 8 t) = _
  rw [after0_8, out0_8_eq, iblk0_0, iblk0_1, iblk0_3, iblk0_4]
  have hz' : (fun a => win0_8.index t a * main_v13_1.ty.shape.size a) = fun _ => 0 := by
    revert t; exact (by decide +kernel : ∀ t : Fin grid0.N, (fun a => win0_8.index t a * main_v13_1.ty.shape.size a) = fun _ => 0)
  exact (Memref.read_access_unit_zero (Elt F) main_v13_1 hz' (fun a => by rw [congrFun hz' a]; simp) _).symm

/-- The results' block index at the one point is (0, 0). -/
theorem idx_facts0 : ∀ t : Fin cfg0.N, win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- An index of result 0's array is in the point's block iff each coordinate is in the block's range on its axis. -/
theorem mem_blk0_7 (t : Fin cfg0.N) (i : S1x1024.Idx) :
    i ∈ ((cfg0.win 7).blk t).view.set ↔ ∀ a : Fin 2, win0_7.index t a * S1x1024.size a ≤ (i a).val ∧ (i a).val < win0_7.index t a * S1x1024.size a + S1x1024.size a := by
  show i ∈ ((View.whole main_v13_0).slice (win0_7.rect t)).set ↔ _
  rw [View.set_slice_whole, Rect.mem_set_unit]
  exact Iff.rfl

theorem mem_blk0_8 (t : Fin cfg0.N) (i : S1x128.Idx) :
    i ∈ ((cfg0.win 8).blk t).view.set ↔ ∀ a : Fin 2, win0_8.index t a * S1x128.size a ≤ (i a).val ∧ (i a).val < win0_8.index t a * S1x128.size a + S1x128.size a := by
  show i ∈ ((View.whole main_v13_1).slice (win0_8.rect t)).set ↔ _
  rw [View.set_slice_whole, Rect.mem_set_unit]
  exact Iff.rfl

/-- The one point's block is all of result 0's array. -/
theorem covered0_7 (i : S1x1024.Idx) : ∃ t : Fin cfg0.N, (cfg0.win 7).flush t = true ∧ i ∈ ((cfg0.win 7).blk t).view.set := by
  refine ⟨t0_0, flush0_7 t0_0, ?_⟩
  rw [mem_blk0_7]
  obtain ⟨e0, e1, -, -⟩ := idx_facts0 t0_0
  have h0 : (i 0).val < 1 := (i 0).isLt
  have h1 : (i 1).val < 1024 := (i 1).isLt
  intro a
  match a with
  | ⟨0, _⟩ => show win0_7.index t0_0 (0 : Fin 2) * 1 ≤ (i 0).val ∧ (i 0).val < win0_7.index t0_0 (0 : Fin 2) * 1 + 1; omega
  | ⟨1, _⟩ => show win0_7.index t0_0 (1 : Fin 2) * 1024 ≤ (i 1).val ∧ (i 1).val < win0_7.index t0_0 (1 : Fin 2) * 1024 + 1024; omega

theorem covered0_8 (i : S1x128.Idx) : ∃ t : Fin cfg0.N, (cfg0.win 8).flush t = true ∧ i ∈ ((cfg0.win 8).blk t).view.set := by
  refine ⟨t0_0, flush0_8 t0_0, ?_⟩
  rw [mem_blk0_8]
  obtain ⟨-, -, e0, e1⟩ := idx_facts0 t0_0
  have h0 : (i 0).val < 1 := (i 0).isLt
  have h1 : (i 1).val < 128 := (i 1).isLt
  intro a
  match a with
  | ⟨0, _⟩ => show win0_8.index t0_0 (0 : Fin 2) * 1 ≤ (i 0).val ∧ (i 0).val < win0_8.index t0_0 (0 : Fin 2) * 1 + 1; omega
  | ⟨1, _⟩ => show win0_8.index t0_0 (1 : Fin 2) * 128 ≤ (i 1).val ∧ (i 1).val < win0_8.index t0_0 (1 : Fin 2) * 128 + 128; omega

/-- Result 0's array after the first region: the payload of the seven input arrays as the region finds them. -/
theorem arr0_7 (c : Dev nD) : (dat0 V c).arrAt 7 cfg0.N
    = k0_pay3 (V c main_v6) (V c main_v7) (V c main_arg4) (V c main_v8) (V c main_arg2) (V c main_arg6) (V c main_v9) :=
  (dat0 V c).arrAt_eq_of_cover 7 _ (fun t _ => flushed0_7_eq V c t) covered0_7

/-- Result 1's array after the first region. -/
theorem arr0_8 (c : Dev nD) : (dat0 V c).arrAt 8 cfg0.N
    = k0_pay2 (V c main_v6) (V c main_v7) (V c main_arg4) (V c main_v8) :=
  (dat0 V c).arrAt_eq_of_cover 8 _ (fun t _ => flushed0_8_eq V c t) covered0_8

end Whole

/-! ## The second region: two points, each result written half by half -/

/-- Each result's one store covers its buffer and every load reads a whole buffer. -/
theorem out1_6_eq {F : FTy → Type} [FloatOps F] (x0 : Vec F S1x1024 .f32) (x2 : Vec F S1536x1024 .f32) (x4 : Vec F S1x1536 .f32) :
    out1_6 x0 x2 x4 = k1_pay1 x0 x2 x4 := by
  unfold out1_6
  rw [View.canon_unit_zero zero_offsets]
  simp only [View.ld_unit_zero (S := S1x1024) zero_offsets, View.ld_unit_zero (S := S1536x1024) zero_offsets,
    View.ld_unit_zero (S := S1x1536) zero_offsets]

theorem out1_7_eq {F : FTy → Type} [FloatOps F] (x1 : Vec F S1x1024 .f32) (x3 : Vec F S1536x1024 .f32) (x5 : Vec F S1x1536 .f32) :
    out1_7 x1 x3 x5 = k1_pay2 x1 x3 x5 := by
  unfold out1_7
  rw [View.canon_unit_zero zero_offsets]
  simp only [View.ld_unit_zero (S := S1x1024) zero_offsets, View.ld_unit_zero (S := S1536x1024) zero_offsets,
    View.ld_unit_zero (S := S1x1536) zero_offsets]

/-- A gate pre-activation row as one function of the whole arrays: column `J` is the row `X` against row `J` of the
    weights `W`, plus the bias `B` at `J`. -/
def gateRow (X : Vec Ideal S1x1024 .f32) (W : Vec Ideal S3072x1024 .f32) (B : Vec Ideal S1x3072 .f32) : Vec Ideal S1x3072 .f32 :=
  fun i => (∑ k : Fin 1024, X (ix2 (0 : Fin 1) k) * W (ix2 (i 1) k)) + B (ix2 (0 : Fin 1) (i 1))

/-- The first payload at column `j` of a half, when the loaded row is `X`, the loaded weight rows are rows of `W` and the
    loaded bias is part of `B`, with column `j` of the half sitting at column `i 1` of the whole. -/
theorem gate1_at (x0 : Vec Ideal S1x1024 .f32) (x2 : Vec Ideal S1536x1024 .f32) (x4 : Vec Ideal S1x1536 .f32)
    (X : Vec Ideal S1x1024 .f32) (W : Vec Ideal S3072x1024 .f32) (B : Vec Ideal S1x3072 .f32)
    (h0 : ∀ k : Fin 1024, x0 (ix2 (0 : Fin 1) k) = X (ix2 (0 : Fin 1) k))
    (j : Fin 1536) (i : S1x3072.Idx)
    (h2 : ∀ k : Fin 1024, x2 (ix2 j k) = W (ix2 (i 1) k))
    (h4 : x4 (ix2 (0 : Fin 1) j) = B (ix2 (0 : Fin 1) (i 1))) :
    k1_pay1 (F := Ideal) x0 x2 x4 (ix2 (0 : Fin 1) j) = gateRow X W B i := by
  rw [Cert.Bridge.k1_pay1_apply, h4]
  unfold gateRow
  congr 1
  exact Finset.sum_congr rfl fun k _ => by rw [h0, h2]

/-- The same for the second payload. -/
theorem gate2_at (x0 : Vec Ideal S1x1024 .f32) (x2 : Vec Ideal S1536x1024 .f32) (x4 : Vec Ideal S1x1536 .f32)
    (X : Vec Ideal S1x1024 .f32) (W : Vec Ideal S3072x1024 .f32) (B : Vec Ideal S1x3072 .f32)
    (h0 : ∀ k : Fin 1024, x0 (ix2 (0 : Fin 1) k) = X (ix2 (0 : Fin 1) k))
    (j : Fin 1536) (i : S1x3072.Idx)
    (h2 : ∀ k : Fin 1024, x2 (ix2 j k) = W (ix2 (i 1) k))
    (h4 : x4 (ix2 (0 : Fin 1) j) = B (ix2 (0 : Fin 1) (i 1))) :
    k1_pay2 (F := Ideal) x0 x2 x4 (ix2 (0 : Fin 1) j) = gateRow X W B i := by
  rw [Cert.Bridge.k1_pay2_apply, h4]
  unfold gateRow
  congr 1
  exact Finset.sum_congr rfl fun k _ => by rw [h0, h2]

/-! The printed index maps over the two points: the rows stay at block (0, 0); the weights move along the gate axis,
    axis 0; the biases and the results along it too, axis 1. -/
theorem idx1_0 : ∀ t : Fin cfg1.N, win1_0.index t (0 : Fin 2) = 0 ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = t.val :=
  (by decide +kernel : ∀ t : Fin grid1.N, _)
theorem idx1_5 : ∀ t : Fin cfg1.N, win1_5.index t (0 : Fin 2) = 0 ∧ win1_5.index t (1 : Fin 2) = t.val :=
  (by decide +kernel : ∀ t : Fin grid1.N, _)
theorem idx1_6 : ∀ t : Fin cfg1.N, win1_6.index t (0 : Fin 2) = 0 ∧ win1_6.index t (1 : Fin 2) = t.val :=
  (by decide +kernel : ∀ t : Fin grid1.N, _)
theorem idx1_7 : ∀ t : Fin cfg1.N, win1_7.index t (0 : Fin 2) = 0 ∧ win1_7.index t (1 : Fin 2) = t.val :=
  (by decide +kernel : ∀ t : Fin grid1.N, _)

section Gate

variable (V : (c : Dev nD) → (b : Ref sig .tc) → Buf (Elt Ideal) ((c : Thread nD τ).loc b))

/-! Each input window's block at point `t`, read at an index, is its array at the block index times the block's size plus
    the index. -/
theorem iblk1_0_apply (c : Dev nD) (t : Fin cfg1.N) (y : S1x1024.Idx) (i : S1x1024.Idx)
    (h0 : (i 0).val = (y 0).val) (h1 : (i 1).val = (y 1).val) :
    (iblk1 V c 0 t : Vec Ideal S1x1024 .f32) y = (V c main_v13_0 : S1x1024.Idx → Elt Ideal .f32) i := by
  obtain ⟨e0, e1⟩ := idx1_0 t
  unfold iblk1
  rw [View.read_apply]
  show V c main_v13_0 _ = V c main_v13_0 _
  congr 1
  funext a
  apply Fin.ext
  match a with
  | ⟨0, _⟩ => show win1_0.index t (0 : Fin 2) * 1 + 1 * (y 0).val = (i 0).val; rw [e0, h0]; omega
  | ⟨1, _⟩ => show win1_0.index t (1 : Fin 2) * 1024 + 1 * (y 1).val = (i 1).val; rw [e1, h1]; omega

theorem iblk1_1_apply (c : Dev nD) (t : Fin cfg1.N) (y : S1x1024.Idx) (i : S1x1024.Idx)
    (h0 : (i 0).val = (y 0).val) (h1 : (i 1).val = (y 1).val) :
    (iblk1 V c 1 t : Vec Ideal S1x1024 .f32) y = (V c main_v7 : S1x1024.Idx → Elt Ideal .f32) i := by
  obtain ⟨e0, e1⟩ := idx1_1 t
  unfold iblk1
  rw [View.read_apply]
  show V c main_v7 _ = V c main_v7 _
  congr 1
  funext a
  apply Fin.ext
  match a with
  | ⟨0, _⟩ => show win1_1.index t (0 : Fin 2) * 1 + 1 * (y 0).val = (i 0).val; rw [e0, h0]; omega
  | ⟨1, _⟩ => show win1_1.index t (1 : Fin 2) * 1024 + 1 * (y 1).val = (i 1).val; rw [e1, h1]; omega

theorem iblk1_2_apply (c : Dev nD) (t : Fin cfg1.N) (y : S1536x1024.Idx) (i : S3072x1024.Idx)
    (h0 : (i 0).val = t.val * 1536 + (y 0).val) (h1 : (i 1).val = (y 1).val) :
    (iblk1 V c 2 t : Vec Ideal S1536x1024 .f32) y = (V c main_arg8 : S3072x1024.Idx → Elt Ideal .f32) i := by
  obtain ⟨e0, e1⟩ := idx1_2 t
  unfold iblk1
  rw [View.read_apply]
  show V c main_arg8 _ = V c main_arg8 _
  congr 1
  funext a
  apply Fin.ext
  match a with
  | ⟨0, _⟩ => show win1_2.index t (0 : Fin 2) * 1536 + 1 * (y 0).val = (i 0).val; rw [e0, h0]; omega
  | ⟨1, _⟩ => show win1_2.index t (1 : Fin 2) * 1024 + 1 * (y 1).val = (i 1).val; rw [e1, h1]; omega

theorem iblk1_3_apply (c : Dev nD) (t : Fin cfg1.N) (y : S1536x1024.Idx) (i : S3072x1024.Idx)
    (h0 : (i 0).val = t.val * 1536 + (y 0).val) (h1 : (i 1).val = (y 1).val) :
    (iblk1 V c 3 t : Vec Ideal S1536x1024 .f32) y = (V c main_arg9 : S3072x1024.Idx → Elt Ideal .f32) i := by
  obtain ⟨e0, e1⟩ := idx1_3 t
  unfold iblk1
  rw [View.read_apply]
  show V c main_arg9 _ = V c main_arg9 _
  congr 1
  funext a
  apply Fin.ext
  match a with
  | ⟨0, _⟩ => show win1_3.index t (0 : Fin 2) * 1536 + 1 * (y 0).val = (i 0).val; rw [e0, h0]; omega
  | ⟨1, _⟩ => show win1_3.index t (1 : Fin 2) * 1024 + 1 * (y 1).val = (i 1).val; rw [e1, h1]; omega

theorem iblk1_4_apply (c : Dev nD) (t : Fin cfg1.N) (y : S1x1536.Idx) (i : S1x3072.Idx)
    (h0 : (i 0).val = (y 0).val) (h1 : (i 1).val = t.val * 1536 + (y 1).val) :
    (iblk1 V c 4 t : Vec Ideal S1x1536 .f32) y = (V c main_v10 : S1x3072.Idx → Elt Ideal .f32) i := by
  obtain ⟨e0, e1⟩ := idx1_4 t
  unfold iblk1
  rw [View.read_apply]
  show V c main_v10 _ = V c main_v10 _
  congr 1
  funext a
  apply Fin.ext
  match a with
  | ⟨0, _⟩ => show win1_4.index t (0 : Fin 2) * 1 + 1 * (y 0).val = (i 0).val; rw [e0, h0]; omega
  | ⟨1, _⟩ => show win1_4.index t (1 : Fin 2) * 1536 + 1 * (y 1).val = (i 1).val; rw [e1, h1]; omega

theorem iblk1_5_apply (c : Dev nD) (t : Fin cfg1.N) (y : S1x1536.Idx) (i : S1x3072.Idx)
    (h0 : (i 0).val = (y 0).val) (h1 : (i 1).val = t.val * 1536 + (y 1).val) :
    (iblk1 V c 5 t : Vec Ideal S1x1536 .f32) y = (V c main_v11 : S1x3072.Idx → Elt Ideal .f32) i := by
  obtain ⟨e0, e1⟩ := idx1_5 t
  unfold iblk1
  rw [View.read_apply]
  show V c main_v11 _ = V c main_v11 _
  congr 1
  funext a
  apply Fin.ext
  match a with
  | ⟨0, _⟩ => show win1_5.index t (0 : Fin 2) * 1 + 1 * (y 0).val = (i 0).val; rw [e0, h0]; omega
  | ⟨1, _⟩ => show win1_5.index t (1 : Fin 2) * 1536 + 1 * (y 1).val = (i 1).val; rw [e1, h1]; omega

/-- An index of result 0's array is in point `t`'s block iff each coordinate is in the block's range on its axis. -/
theorem mem_blk1_6 (t : Fin cfg1.N) (i : S1x3072.Idx) :
    i ∈ ((cfg1.win 6).blk t).view.set ↔ ∀ a : Fin 2, win1_6.index t a * S1x1536.size a ≤ (i a).val ∧ (i a).val < win1_6.index t a * S1x1536.size a + S1x1536.size a := by
  show i ∈ ((View.whole main_v14_0).slice (win1_6.rect t)).set ↔ _
  rw [View.set_slice_whole, Rect.mem_set_unit]
  exact Iff.rfl

/-- What point `t` writes back to result 0's array is block `t` of the gate row of the whole arrays. -/
theorem flushed1_6_eq (c : Dev nD) (t : Fin cfg1.N) :
    (dat1 (F := Ideal) V c).flushed 6 t = ((cfg1.win 6).blk t).view.read (Elt Ideal)
      (gateRow (V c main_v13_0) (V c main_arg8) (V c main_v10)) := by
  show (cfg1.win 6).cut (grid1.coords t) ((dat1 V c).after 6 t) = _
  rw [after1_6, out1_6_eq]
  obtain ⟨e0, e1⟩ := idx1_6 t
  refine funext fun (y : S1x1536.Idx) => ?_
  rw [View.read_apply]
  obtain ⟨a, b, rfl⟩ : ∃ (a : Fin 1) (b : Fin 1536), y = ix2 a b := ⟨y 0, y 1, eq_ix2 y⟩
  obtain rfl : a = 0 := Subsingleton.elim _ _
  have hcol : ((((cfg1.win 6).blk t).view.emb (ix2 (0 : Fin 1) b) : S1x3072.Idx) 1).val = t.val * 1536 + b.val := by
    show win1_6.index t (1 : Fin 2) * 1536 + 1 * b.val = _
    rw [e1]; omega
  show k1_pay1 (F := Ideal) (iblk1 V c 0 t) (iblk1 V c 2 t) (iblk1 V c 4 t) (ix2 (0 : Fin 1) b)
    = gateRow (V c main_v13_0) (V c main_arg8) (V c main_v10) (((cfg1.win 6).blk t).view.emb (ix2 (0 : Fin 1) b))
  refine gate1_at _ _ _ _ _ _ (fun k => ?_) b _ (fun k => ?_) ?_
  · exact iblk1_0_apply V c t _ _ rfl rfl
  · exact iblk1_2_apply V c t _ _ hcol rfl
  · exact iblk1_4_apply V c t _ _ rfl hcol

/-- Column `J` of result 0's array is in the block of point `J / 1536`: the two halves cover the row. -/
theorem covered1_6 (i : S1x3072.Idx) : ∃ t : Fin cfg1.N, (cfg1.win 6).flush t = true ∧ i ∈ ((cfg1.win 6).blk t).view.set := by
  have h0 : (i 0).val < 1 := (i 0).isLt
  have h1 : (i 1).val < 3072 := (i 1).isLt
  have hN : grid1.N = 2 := N_1
  let t : Fin cfg1.N := ⟨(i 1).val / 1536, by show (i 1).val / 1536 < grid1.N; omega⟩
  have ht : t.val = (i 1).val / 1536 := rfl
  refine ⟨t, flush1_6 t, ?_⟩
  rw [mem_blk1_6]
  obtain ⟨e0, e1⟩ := idx1_6 t
  intro a
  match a with
  | ⟨0, _⟩ => show win1_6.index t (0 : Fin 2) * 1 ≤ (i 0).val ∧ (i 0).val < win1_6.index t (0 : Fin 2) * 1 + 1; omega
  | ⟨1, _⟩ => show win1_6.index t (1 : Fin 2) * 1536 ≤ (i 1).val ∧ (i 1).val < win1_6.index t (1 : Fin 2) * 1536 + 1536; omega

/-- Result 0's array after the second region is the gate row of the whole arrays as the region finds them. -/
theorem arr1_6_eq (c : Dev nD) : (dat1 (F := Ideal) V c).arrAt 6 cfg1.N = gateRow (V c main_v13_0) (V c main_arg8) (V c main_v10) :=
  (dat1 V c).arrAt_eq_of_cover 6 _ (fun t _ => flushed1_6_eq V c t) covered1_6

/-- An index of result 1's array is in point `t`'s block iff each coordinate is in the block's range on its axis. -/
theorem mem_blk1_7 (t : Fin cfg1.N) (i : S1x3072.Idx) :
    i ∈ ((cfg1.win 7).blk t).view.set ↔ ∀ a : Fin 2, win1_7.index t a * S1x1536.size a ≤ (i a).val ∧ (i a).val < win1_7.index t a * S1x1536.size a + S1x1536.size a := by
  show i ∈ ((View.whole main_v14_1).slice (win1_7.rect t)).set ↔ _
  rw [View.set_slice_whole, Rect.mem_set_unit]
  exact Iff.rfl

/-- What point `t` writes back to result 1's array is block `t` of the gate row of the whole arrays. -/
theorem flushed1_7_eq (c : Dev nD) (t : Fin cfg1.N) :
    (dat1 (F := Ideal) V c).flushed 7 t = ((cfg1.win 7).blk t).view.read (Elt Ideal)
      (gateRow (V c main_v7) (V c main_arg9) (V c main_v11)) := by
  show (cfg1.win 7).cut (grid1.coords t) ((dat1 V c).after 7 t) = _
  rw [after1_7, out1_7_eq]
  obtain ⟨e0, e1⟩ := idx1_7 t
  refine funext fun (y : S1x1536.Idx) => ?_
  rw [View.read_apply]
  obtain ⟨a, b, rfl⟩ : ∃ (a : Fin 1) (b : Fin 1536), y = ix2 a b := ⟨y 0, y 1, eq_ix2 y⟩
  obtain rfl : a = 0 := Subsingleton.elim _ _
  have hcol : ((((cfg1.win 7).blk t).view.emb (ix2 (0 : Fin 1) b) : S1x3072.Idx) 1).val = t.val * 1536 + b.val := by
    show win1_7.index t (1 : Fin 2) * 1536 + 1 * b.val = _
    rw [e1]; omega
  show k1_pay2 (F := Ideal) (iblk1 V c 1 t) (iblk1 V c 3 t) (iblk1 V c 5 t) (ix2 (0 : Fin 1) b)
    = gateRow (V c main_v7) (V c main_arg9) (V c main_v11) (((cfg1.win 7).blk t).view.emb (ix2 (0 : Fin 1) b))
  refine gate2_at _ _ _ _ _ _ (fun k => ?_) b _ (fun k => ?_) ?_
  · exact iblk1_1_apply V c t _ _ rfl rfl
  · exact iblk1_3_apply V c t _ _ hcol rfl
  · exact iblk1_5_apply V c t _ _ rfl hcol

/-- Column `J` of result 1's array is in the block of point `J / 1536`: the two halves cover the row. -/
theorem covered1_7 (i : S1x3072.Idx) : ∃ t : Fin cfg1.N, (cfg1.win 7).flush t = true ∧ i ∈ ((cfg1.win 7).blk t).view.set := by
  have h0 : (i 0).val < 1 := (i 0).isLt
  have h1 : (i 1).val < 3072 := (i 1).isLt
  have hN : grid1.N = 2 := N_1
  let t : Fin cfg1.N := ⟨(i 1).val / 1536, by show (i 1).val / 1536 < grid1.N; omega⟩
  have ht : t.val = (i 1).val / 1536 := rfl
  refine ⟨t, flush1_7 t, ?_⟩
  rw [mem_blk1_7]
  obtain ⟨e0, e1⟩ := idx1_7 t
  intro a
  match a with
  | ⟨0, _⟩ => show win1_7.index t (0 : Fin 2) * 1 ≤ (i 0).val ∧ (i 0).val < win1_7.index t (0 : Fin 2) * 1 + 1; omega
  | ⟨1, _⟩ => show win1_7.index t (1 : Fin 2) * 1536 ≤ (i 1).val ∧ (i 1).val < win1_7.index t (1 : Fin 2) * 1536 + 1536; omega

/-- Result 1's array after the second region is the gate row of the whole arrays as the region finds them. -/
theorem arr1_7_eq (c : Dev nD) : (dat1 (F := Ideal) V c).arrAt 7 cfg1.N = gateRow (V c main_v7) (V c main_arg9) (V c main_v11) :=
  (dat1 V c).arrAt_eq_of_cover 7 _ (fun t _ => flushed1_7_eq V c t) covered1_7

/-- The gate row at column `J`, written out. -/
theorem gateRow_apply (X : Vec Ideal S1x1024 .f32) (W : Vec Ideal S3072x1024 .f32) (B : Vec Ideal S1x3072 .f32) (J : Fin 3072) :
    gateRow X W B (ix2 (0 : Fin 1) J) = (∑ k : Fin 1024, X (ix2 (0 : Fin 1) k) * W (ix2 J k)) + B (ix2 (0 : Fin 1) J) := rfl

/-- Result 0 of the second region at column `J`: the first region's result row against row `J` of the input-side weights,
    plus the input-side bias at `J` (the sum and the product are the extended reals'). -/
theorem arr1_6 (c : Dev nD) (J : Fin 3072) :
    ((dat1 (F := Ideal) V c).arrAt 6 cfg1.N : Vec Ideal S1x3072 .f32) (ix2 (0 : Fin 1) J)
      = HAdd.hAdd (α := EReal) (β := EReal) (γ := EReal)
          (∑ k : Fin 1024, HMul.hMul (α := EReal) (β := EReal) (γ := EReal)
            (V c main_v13_0 (ix2 (0 : Fin 1) k)) (V c main_arg8 (ix2 J k)))
          (V c main_v10 (ix2 (0 : Fin 1) J)) := by
  rw [arr1_6_eq]; rfl

/-- Result 1 of the second region at column `J`: the hidden row against row `J` of the hidden-side weights, plus the
    hidden-side bias at `J`. -/
theorem arr1_7 (c : Dev nD) (J : Fin 3072) :
    ((dat1 (F := Ideal) V c).arrAt 7 cfg1.N : Vec Ideal S1x3072 .f32) (ix2 (0 : Fin 1) J)
      = HAdd.hAdd (α := EReal) (β := EReal) (γ := EReal)
          (∑ k : Fin 1024, HMul.hMul (α := EReal) (β := EReal) (γ := EReal)
            (V c main_v7 (ix2 (0 : Fin 1) k)) (V c main_arg9 (ix2 J k)))
          (V c main_v11 (ix2 (0 : Fin 1) J)) := by
  rw [arr1_7_eq]; rfl

/-- The same with the three arrays named: `x`, `W` and `b` are any row, weight matrix and bias equal to the arrays the
    region is entered from. -/
theorem arr1_6_of (c : Dev nD) (J : Fin 3072) (x : S1x1024.Idx → Ideal .f32) (W : S3072x1024.Idx → Ideal .f32) (b : S1x3072.Idx → Ideal .f32)
    (hx : V c main_v13_0 = x) (hW : V c main_arg8 = W) (hb : V c main_v10 = b) :
    ((dat1 (F := Ideal) V c).arrAt 6 cfg1.N) (ix2 (0 : Fin 1) J)
      = (∑ k : Fin 1024, x (ix2 (0 : Fin 1) k) * W (ix2 J k)) + b (ix2 (0 : Fin 1) J) := by
  subst hx hW hb
  rw [arr1_6_eq]; rfl

/-- The same with the three arrays named: `x`, `W` and `b` are any row, weight matrix and bias equal to the arrays the
    region is entered from. -/
theorem arr1_7_of (c : Dev nD) (J : Fin 3072) (x : S1x1024.Idx → Ideal .f32) (W : S3072x1024.Idx → Ideal .f32) (b : S1x3072.Idx → Ideal .f32)
    (hx : V c main_v7 = x) (hW : V c main_arg9 = W) (hb : V c main_v11 = b) :
    ((dat1 (F := Ideal) V c).arrAt 7 cfg1.N) (ix2 (0 : Fin 1) J)
      = (∑ k : Fin 1024, x (ix2 (0 : Fin 1) k) * W (ix2 J k)) + b (ix2 (0 : Fin 1) J) := by
  subst hx hW hb
  rw [arr1_7_eq]; rfl

end Gate

end Cert.KernelIdeal.Hand

end
-- ==== Proof.Val.RefChains.lean ====
/-
  The reference computes the same host chains as the program. Its gate combination of the recurrent cell, its
  log-softmax of the logits, its broadcast of the new hidden row, its gather of the embedding row and its reshape of the
  old hidden state are, operation for operation, the functions the program's stretches were named as: the two
  programs differ there only in the names of their shapes and of their shape facts, which have equal values.
-/
import proofs.«415815_j77060303224971_3_alg».proof.Proof.KI.HostChains
import proofs.«415815_j77060303224971_3_alg».proof.Proof.RefRead

set_option maxRecDepth 16384

noncomputable section

namespace Cert.Bridge

open Cert.ReferenceIdeal Cert.ReferenceIdeal.ReadP Cert.KernelIdeal.Hand
open Idealize.ShloMosaic

variable {F : FTy → Type} [FloatOps F]

/-- The reference's new hidden row is the gate combination of its two gate rows and its reshaped old hidden state. -/
theorem gateChain_ref (x0 : (⟨S1, .i32⟩ : BufTy).Contents (Elt F)) (x1 : (⟨S1x1x1024, .f32⟩ : BufTy).Contents (Elt F))
    (x2 : (⟨S128x1024, .f32⟩ : BufTy).Contents (Elt F)) (x3 : (⟨S50257x1024, .f32⟩ : BufTy).Contents (Elt F))
    (x4 : (⟨S128x2048, .f32⟩ : BufTy).Contents (Elt F)) (x5 : (⟨S128, .f32⟩ : BufTy).Contents (Elt F))
    (x6 : (⟨S1024x2048, .f32⟩ : BufTy).Contents (Elt F)) (x7 : (⟨S1024, .f32⟩ : BufTy).Contents (Elt F))
    (x8 x9 : (⟨S3072x1024, .f32⟩ : BufTy).Contents (Elt F)) (x10 x11 : (⟨S3072, .f32⟩ : BufTy).Contents (Elt F)) :
    gateChain (val_main_v34 x0 x1 x2 x3 x4 x5 x6 x7 x8 x10) (val_main_v38 x1 x9 x11) (val_main_v7 x1)
      = val_main_v66 x0 x1 x2 x3 x4 x5 x6 x7 x8 x9 x10 x11 := by
  simp only [val_main_v66, val_main_v65, val_main_v64, val_main_v63, val_main_v62, val_main_cst_7, val_main_v61, val_main_v60,
    val_main_v59, val_main_v58, val_main_v57, val_main_cst_6, val_main_v56, val_main_v55, val_main_cst_5, val_main_v54,
    val_main_v53, val_main_v52, val_main_v51, val_main_v50, val_main_cst_4, val_main_v49, val_main_v48, val_main_cst_3,
    val_main_v47, val_main_v46, val_main_v45, val_main_v44, val_main_v43, val_main_v42, val_main_v41, val_main_v40, val_main_v39]
  generalize val_main_v34 x0 x1 x2 x3 x4 x5 x6 x7 x8 x10 = gx
  generalize val_main_v38 x1 x9 x11 = gh
  generalize val_main_v7 x1 = h0
  unfold gateChain sigmRow onesRow
  rfl

/-- The reference's result is the log-softmax of its logits. -/
theorem lsmChain_ref (x0 : (⟨S1, .i32⟩ : BufTy).Contents (Elt F)) (x1 : (⟨S1x1x1024, .f32⟩ : BufTy).Contents (Elt F))
    (x2 : (⟨S128x1024, .f32⟩ : BufTy).Contents (Elt F)) (x3 : (⟨S50257x1024, .f32⟩ : BufTy).Contents (Elt F))
    (x4 : (⟨S128x2048, .f32⟩ : BufTy).Contents (Elt F)) (x5 : (⟨S128, .f32⟩ : BufTy).Contents (Elt F))
    (x6 : (⟨S1024x2048, .f32⟩ : BufTy).Contents (Elt F)) (x7 : (⟨S1024, .f32⟩ : BufTy).Contents (Elt F))
    (x8 x9 : (⟨S3072x1024, .f32⟩ : BufTy).Contents (Elt F)) (x10 x11 : (⟨S3072, .f32⟩ : BufTy).Contents (Elt F))
    (x12 : (⟨S50257x1024, .f32⟩ : BufTy).Contents (Elt F)) (x13 : (⟨S50257, .f32⟩ : BufTy).Contents (Elt F)) :
    lsmChain (val_main_v70 x0 x1 x2 x3 x4 x5 x6 x7 x8 x9 x10 x11 x12 x13) = val_main_v71 x0 x1 x2 x3 x4 x5 x6 x7 x8 x9 x10 x11 x12 x13 := by
  simp only [val_main_v71, val_main_call1_v10, val_main_call1_v9, val_main_call1_v8, val_main_call1_v7, val_main_call1_cst_1,
    val_main_call1_v6, val_main_call1_v5, val_main_call1_v4, val_main_call1_v3, val_main_call1_v2, val_main_call1_v1,
    val_main_call1_cst_0, val_main_call1_v0, val_main_call1_cst]
  generalize val_main_v70 x0 x1 x2 x3 x4 x5 x6 x7 x8 x9 x10 x11 x12 x13 = x
  unfold lsmChain shiftRow
  rfl

/-- The reference's second result is its new hidden row given the leading unit axis. -/
theorem bcast_ref (x0 : (⟨S1, .i32⟩ : BufTy).Contents (Elt F)) (x1 : (⟨S1x1x1024, .f32⟩ : BufTy).Contents (Elt F))
    (x2 : (⟨S128x1024, .f32⟩ : BufTy).Contents (Elt F)) (x3 : (⟨S50257x1024, .f32⟩ : BufTy).Contents (Elt F))
    (x4 : (⟨S128x2048, .f32⟩ : BufTy).Contents (Elt F)) (x5 : (⟨S128, .f32⟩ : BufTy).Contents (Elt F))
    (x6 : (⟨S1024x2048, .f32⟩ : BufTy).Contents (Elt F)) (x7 : (⟨S1024, .f32⟩ : BufTy).Contents (Elt F))
    (x8 x9 : (⟨S3072x1024, .f32⟩ : BufTy).Contents (Elt F)) (x10 x11 : (⟨S3072, .f32⟩ : BufTy).Contents (Elt F)) :
    broadcastInDim Cert.KernelIdeal.S1x1x1024 ![1, 2] Cert.KernelIdeal.Gen.bcast_S1x1024_S1x1x1024_1_2 (val_main_v66 x0 x1 x2 x3 x4 x5 x6 x7 x8 x9 x10 x11)
      = val_main_v72 x0 x1 x2 x3 x4 x5 x6 x7 x8 x9 x10 x11 := by
  unfold val_main_v72
  rfl

/-- The reference's embedding row is the program's. -/
theorem embRow_ref (x0 : (⟨S1, .i32⟩ : BufTy).Contents (Elt F)) (x3 : (⟨S50257x1024, .f32⟩ : BufTy).Contents (Elt F)) :
    embRow x0 x3 = val_main_v6 x0 x3 := by
  simp only [val_main_v6, val_main_v5, val_main_v4, val_main_v3, val_main_v2, val_main_c_0, val_main_v1, val_main_v0, val_main_c]
  unfold embRow
  rfl

/-- The reference's old hidden row is the state reshaped to a row, as the program's. -/
theorem reshape1_ref (x1 : (⟨S1x1x1024, .f32⟩ : BufTy).Contents (Elt F)) :
    shapeCast Cert.KernelIdeal.S1x1024 x1 Cert.KernelIdeal.Gen.shapeCasts_S1x1x1024_S1x1024 = val_main_v7 x1 := by
  unfold val_main_v7
  rfl

end Cert.Bridge

end
-- ==== Proof.Val.Attn.lean ====
/-
  The first kernel's attention weights are the reference's, as vectors of extended reals.

  The kernel forms the row [e | h], multiplies it by the transposed attention weights into a zero accumulator, adds the
  bias row, and takes the softmax over the 128 lanes; the reference does the same with the host's operations (a
  transpose and a product contracting the row against the first axis, a bias broadcast along axis 1, reductions and
  broadcasts in dimensions). Each stage is compared separately: the logits entry by entry as the same sum of products
  plus the same bias entry; the softmax operation by operation on one and the same row. Only the reading of each
  operation at an index is used; no law of the arithmetic beyond 0 + x = x enters.
-/
import proofs.«415815_j77060303224971_3_alg».proof.Proof.Gen.KernelIdeal.Skeleton
import proofs.«415815_j77060303224971_3_alg».proof.Proof.RefRead
import Idealize.ShloMosaic.Lib.KernelVsHost
import Idealize.ShloMosaic.Lib.ValueLayout

noncomputable section

namespace Cert.Bridge.Attn

open Idealize.ShloMosaic Idealize.ShloMosaic.ValueIdx Idealize.SL.Sem Idealize.ShloMosaic.StableHlo

/-! ## A row times a transposed matrix: both operands contracted along their second axis -/

/-- The dimension numbers of x · Wᵀ for x : [m, k] and W : [n, k]. -/
abbrev dotNT (m k n : Nat)
    (wf : DotDims.WF (⟨2, ![m, k]⟩ : Shape) ⟨2, ![n, k]⟩ ⟨2, ![m, n]⟩ [1] [1] [0] [0] [] []) :
    DotDims ⟨2, ![m, k]⟩ ⟨2, ![n, k]⟩ ⟨2, ![m, n]⟩ where
  lhsContracting := [1]
  rhsContracting := [1]
  lhsNonContracting := [0]
  rhsNonContracting := [0]
  lhsBatch := []
  rhsBatch := []
  wf := wf

section NT
variable {m k n : Nat} (wf : DotDims.WF (⟨2, ![m, k]⟩ : Shape) ⟨2, ![n, k]⟩ ⟨2, ![m, n]⟩ [1] [1] [0] [0] [] [])

/-! The operand indices at output index (a, b) and contraction position c, one axis at a time: the left operand is
    read at (a, c), the right at (b, c). -/

theorem dotNT_lhs_0 (i : (⟨2, ![m, n]⟩ : Shape).Idx) (q : (dotNT m k n wf).contr.Idx) :
    ((dotNT m k n wf).lhsIdx i q 0).val = (i 0).val := by
  unfold DotDims.lhsIdx
  rw [dif_neg (show ¬(0 : Fin (⟨2, ![m, k]⟩ : Shape).rank) ∈ (dotNT m k n wf).lhsBatch from List.not_mem_nil),
    dif_pos (show (0 : Fin (⟨2, ![m, k]⟩ : Shape).rank) ∈ (dotNT m k n wf).lhsNonContracting from List.mem_singleton.mpr rfl)]
  rfl
theorem dotNT_lhs_1 (i : (⟨2, ![m, n]⟩ : Shape).Idx) (q : (dotNT m k n wf).contr.Idx) :
    ((dotNT m k n wf).lhsIdx i q 1).val = (q ⟨0, Nat.one_pos⟩).val :=
  (dotNT m k n wf).lhsIdx_val_of_single rfl i q
theorem dotNT_rhs_0 (i : (⟨2, ![m, n]⟩ : Shape).Idx) (q : (dotNT m k n wf).contr.Idx) :
    ((dotNT m k n wf).rhsIdx i q 0).val = (i 1).val := by
  unfold DotDims.rhsIdx
  rw [dif_neg (show ¬(0 : Fin (⟨2, ![n, k]⟩ : Shape).rank) ∈ (dotNT m k n wf).rhsBatch from List.not_mem_nil),
    dif_pos (show (0 : Fin (⟨2, ![n, k]⟩ : Shape).rank) ∈ (dotNT m k n wf).rhsNonContracting from List.mem_singleton.mpr rfl)]
  rfl
theorem dotNT_rhs_1 (i : (⟨2, ![m, n]⟩ : Shape).Idx) (q : (dotNT m k n wf).contr.Idx) :
    ((dotNT m k n wf).rhsIdx i q 1).val = (q ⟨0, Nat.one_pos⟩).val :=
  (dotNT m k n wf).rhsIdx_val_of_single rfl i q

/-- Entry (a, b) of x · Wᵀ accumulated into zero is `∑ c, x(a, c) · W(b, c)`. -/
theorem matmulNT_zero_apply {φ₁ φ₂ : FTy} (prec : Option ContractPrecision)
    (A : FVec Ideal ⟨2, ![m, k]⟩ φ₁) (B : FVec Ideal ⟨2, ![n, k]⟩ φ₂) (a : Fin m) (b : Fin n) :
    matmul (F := Ideal) (dotNT m k n wf) prec A B (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply, ← Equiv.sum_comp (contrEquiv1 (dotNT m k n wf) k rfl rfl).symm]
  refine Finset.sum_congr rfl fun c _ => ?_
  have hc := contrEquiv1_symm_val (dotNT m k n wf) k rfl rfl c
  have el : (dotNT m k n wf).lhsIdx (ix2 a b) ((contrEquiv1 (dotNT m k n wf) k rfl rfl).symm c) = ix2 a c :=
    funext fun ax => Fin.ext (by
      match ax with
      | ⟨0, _⟩ => exact dotNT_lhs_0 wf _ _
      | ⟨1, _⟩ => exact (dotNT_lhs_1 wf _ _).trans hc)
  have er : (dotNT m k n wf).rhsIdx (ix2 a b) ((contrEquiv1 (dotNT m k n wf) k rfl rfl).symm c) = ix2 b c :=
    funext fun ax => Fin.ext (by
      match ax with
      | ⟨0, _⟩ => exact dotNT_rhs_0 wf _ _
      | ⟨1, _⟩ => exact (dotNT_rhs_1 wf _ _).trans hc)
  rw [el, er]

end NT

/-! ## The two spellings of a softmax over the lanes of a one-row matrix -/

section Softmax
variable {n : Nat}

/-- One number laid along a row: the cast [1] → [1, 1] followed by the broadcast to [1, n] reads, like the two
    successive broadcasts in dimensions, the one entry everywhere. -/
theorem laidAlongRow_eq {α : Type} (y : (⟨1, ![1]⟩ : Shape).Idx → α)
    (h1 : (⟨1, ![1]⟩ : Shape).ShapeCasts ⟨2, ![1, 1]⟩) (h2 : (⟨2, ![1, 1]⟩ : Shape).Broadcasts ⟨2, ![1, n]⟩)
    (h3 : (⟨1, ![1]⟩ : Shape).BroadcastsInDim ⟨2, ![1, 1]⟩ ![0])
    (h4 : (⟨2, ![1, 1]⟩ : Shape).BroadcastsInDim ⟨2, ![1, n]⟩ ![0, 1]) :
    broadcastTo ⟨2, ![1, n]⟩ (shapeCast ⟨2, ![1, 1]⟩ y h1) h2
      = broadcastInDim ⟨2, ![1, n]⟩ ![0, 1] h4 (broadcastInDim ⟨2, ![1, 1]⟩ ![0] h3 y) := by
  funext i
  have e1 := broadcastTo_apply (shapeCast ⟨2, ![1, 1]⟩ y h1) h2 i (ix2 (0 : Fin 1) (0 : Fin 1)) (fun a => by
    match a with
    | ⟨0, _⟩ => rfl
    | ⟨1, _⟩ => rfl)
  have e2 := shapeCast_apply y h1 (ix2 (0 : Fin 1) (0 : Fin 1)) (ix1 (0 : Fin 1)) (by
    rw [Shape.rowMajor_val_two, Shape.rowMajor_val_one]; rfl)
  have e3 := broadcastInDim_apply ![0, 1] h4 (broadcastInDim ⟨2, ![1, 1]⟩ ![0] h3 y) i (ix2 (0 : Fin 1) (0 : Fin 1)) (fun a => by
    match a with
    | ⟨0, _⟩ => rfl
    | ⟨1, _⟩ => rfl)
  have e4 := broadcastInDim_apply ![0] h3 y (ix2 (0 : Fin 1) (0 : Fin 1)) (ix1 (0 : Fin 1)) (fun a => by
    match a with
    | ⟨0, _⟩ => rfl)
  exact e1.trans (e2.trans (e3.trans e4).symm)

/-- The row's maximum from −∞: the fold of `max` over the lanes, whichever program spells it. -/
theorem rowMax_eq (x : FVec Ideal ⟨2, ![1, n]⟩ .f32) (h : (⟨2, ![1, n]⟩ : Shape).Reduces [1] ⟨1, ![1]⟩)
    (hφ : FKind.Formats .f32) (hacc : (0xFF800000#32 : BitVec 32) = FKind.maximumf.neutral .f32 hφ)
    (h' : (⟨2, ![1, n]⟩ : Shape).ReducesTo [1] ⟨1, ![1]⟩) (hu : 0 < (⟨0, ![]⟩ : Shape).numel) :
    multiReduction .maximumf [1] ⟨1, ![1]⟩ x 0xFF800000#32 h hφ hacc
      = Host.reduce FloatOps.maximumf x (constant (F := Ideal) ⟨0, ![]⟩ .f32 0xFF800000#32) h' hu := by
  funext j
  rw [multiReduction_maximumf_eq_fold, Host.reduce_eq_fold, Shape.ReducesTo.drop_eq_drop h' h]
  rfl

/-- The row's sum from zero. -/
theorem rowSum_eq (x : FVec Ideal ⟨2, ![1, n]⟩ .f32) (h : (⟨2, ![1, n]⟩ : Shape).Reduces [1] ⟨1, ![1]⟩)
    (hφ : FKind.Formats .f32) (hacc : (0x00000000#32 : BitVec 32) = FKind.add.neutral .f32 hφ)
    (h' : (⟨2, ![1, n]⟩ : Shape).ReducesTo [1] ⟨1, ![1]⟩) (hu : 0 < (⟨0, ![]⟩ : Shape).numel) :
    multiReduction .add [1] ⟨1, ![1]⟩ x 0x00000000#32 h hφ hacc
      = Host.reduceAdd x (constant (F := Ideal) ⟨0, ![]⟩ .f32 0x00000000#32) h' hu :=
  multiReduction_add_eq_hostReduceAdd x 0x00000000#32 h hφ hacc _ h' hu Ideal.ofBits_zero_f32

/-- At the ideal values the vector unit's exponential and quotient are the host's. -/
theorem exp_eq_hostExp {s : Shape} (x : FVec Ideal s .f32) : exp x = Host.exp x := rfl
theorem divf_eq_hostDivf {s : Shape} (x y : FVec Ideal s .f32) : divf x y = Host.divf x y := rfl

/-- A splat of the scalar a constant's bits denote is the host's broadcast of that constant. -/
theorem splat_eq {t : Shape} (b : BitVec 32) (hb : (⟨0, ![]⟩ : Shape).BroadcastsInDim t ![]) :
    broadcast t (Scalar.ofBits (F := Ideal) .f32 b) = broadcastInDim t ![] hb (constant (F := Ideal) ⟨0, ![]⟩ .f32 b) :=
  (broadcastInDim_constant (F := Ideal) (s := ⟨0, ![]⟩) (t := t) (φ := .f32) ![] hb b).symm

end Softmax

/-! ## The first kernel's arithmetic, stage by stage

The kernel's attention weights are a composition of three stages: two rows laid side by side, a row times
transposed weights plus a bias row, and a softmax over the 128 lanes. Each stage is named here with the vector unit's
operations; the kernel's payload is their composition by unfolding. -/

section KernelStages
open Cert.KernelIdeal.Gen (k0_pay2)

/-- Two [1, 1024] rows side by side, the first through its identity cast. -/
def sideBySide (e h : FVec Ideal Cert.KernelIdeal.S1x1024 .f32) : FVec Ideal Cert.KernelIdeal.S1x2048 .f32 :=
  concatenate Cert.KernelIdeal.S1x2048 1
    [⟨Cert.KernelIdeal.S1x1024, shapeCast Cert.KernelIdeal.S1x1024 e Cert.KernelIdeal.Gen.shapeCasts_S1x1024_S1x1024⟩,
     ⟨Cert.KernelIdeal.S1x1024, h⟩]
    Cert.KernelIdeal.Gen.concatenates_S1x1024_S1x1024_S1x2048_d1

/-- A [1, 2048] row times the transpose of [n, 2048] weights, into zero, plus a [1, n] bias row. -/
def affineVec {n : Nat} (D : DotDims Cert.KernelIdeal.S1x2048 ⟨2, ![n, 2048]⟩ ⟨2, ![1, n]⟩)
    (x : FVec Ideal Cert.KernelIdeal.S1x2048 .f32) (W : FVec Ideal ⟨2, ![n, 2048]⟩ .f32) (b : FVec Ideal ⟨2, ![1, n]⟩ .f32)
    (hb : (⟨2, ![1, n]⟩ : Shape).ShapeCasts ⟨2, ![1, n]⟩) : FVec Ideal ⟨2, ![1, n]⟩ .f32 :=
  addf
    (matmul D none (truncf .bf16 x Cert.KernelIdeal.Gen.bitsLt_bf16_f32) (truncf .bf16 W Cert.KernelIdeal.Gen.bitsLt_bf16_f32)
      (constant ⟨2, ![1, n]⟩ .f32 0x00000000#32))
    (shapeCast ⟨2, ![1, n]⟩ b hb)

/-- exp (x − max x) over the lanes of a [1, 128] row, the maximum taken from −∞. -/
def shiftedExpVec (x : FVec Ideal Cert.KernelIdeal.S1x128 .f32) : FVec Ideal Cert.KernelIdeal.S1x128 .f32 :=
  exp (subf x (broadcastTo Cert.KernelIdeal.S1x128
    (shapeCast Cert.KernelIdeal.S1x1
      (maximumf (broadcast Cert.KernelIdeal.S1 (Scalar.ofBits (F := Ideal) .f32 0xFF800000#32))
        (multiReduction .maximumf [1] Cert.KernelIdeal.S1 x 0xFF800000#32 Cert.KernelIdeal.Gen.reduces_S1x128_S1 (.inl rfl) rfl))
      Cert.KernelIdeal.Gen.shapeCasts_S1_S1x1)
    Cert.KernelIdeal.Gen.broadcasts_S1x1_S1x128))

/-- The softmax of a [1, 128] row: the shifted exponentials over their sum. -/
def softmaxVec (x : FVec Ideal Cert.KernelIdeal.S1x128 .f32) : FVec Ideal Cert.KernelIdeal.S1x128 .f32 :=
  divf (shiftedExpVec x) (broadcastTo Cert.KernelIdeal.S1x128
    (shapeCast Cert.KernelIdeal.S1x1
      (multiReduction .add [1] Cert.KernelIdeal.S1 (shiftedExpVec x) 0x00000000#32 Cert.KernelIdeal.Gen.reduces_S1x128_S1 (.inl rfl) rfl)
      Cert.KernelIdeal.Gen.shapeCasts_S1_S1x1)
    Cert.KernelIdeal.Gen.broadcasts_S1x1_S1x128)

/-- The attention weights are the softmax of the affine image of [e | h]. -/
theorem pay2_stages (v0 v2 : Vec Ideal Cert.KernelIdeal.S1x1024 .f32) (v6 : Vec Ideal Cert.KernelIdeal.S128x2048 .f32)
    (v9 : Vec Ideal Cert.KernelIdeal.S1x128 .f32) :
    k0_pay2 (F := Ideal) v0 v2 v6 v9
      = softmaxVec (affineVec Cert.KernelIdeal.dot_S1x2048_S128x2048_S1x128_1_1_0_0_n_n
          (sideBySide v0 (shapeCast Cert.KernelIdeal.S1x1024 v2 Cert.KernelIdeal.Gen.shapeCasts_S1x1024_S1x1024)) v6 v9
          Cert.KernelIdeal.Gen.shapeCasts_S1x128_S1x128) := rfl

/-- The affine stage at the entry (p, j), its bias a vector cast to one row: `∑ c, x(p, c) · W(j, c) + b(j)`. -/
theorem affineVec_apply {n : Nat}
    (wf : DotDims.WF (⟨2, ![1, 2048]⟩ : Shape) ⟨2, ![n, 2048]⟩ ⟨2, ![1, n]⟩ [1] [1] [0] [0] [] [])
    (x : FVec Ideal Cert.KernelIdeal.S1x2048 .f32) (W : FVec Ideal ⟨2, ![n, 2048]⟩ .f32) (b : FVec Ideal ⟨1, ![n]⟩ .f32)
    (hcb : (⟨1, ![n]⟩ : Shape).ShapeCasts ⟨2, ![1, n]⟩) (hb : (⟨2, ![1, n]⟩ : Shape).ShapeCasts ⟨2, ![1, n]⟩)
    (p : Fin 1) (j : Fin n) :
    affineVec (dotNT 1 2048 n wf) x W (shapeCast ⟨2, ![1, n]⟩ b hcb) hb (ix2 p j)
      = (∑ c : Fin 2048, x (ix2 p c) * W (ix2 j c)) + b (ix1 j) := by
  unfold affineVec
  rw [shapeCast_self]
  show matmul (F := Ideal) (dotNT 1 2048 n wf) none _ _ _ (ix2 p j) + shapeCast ⟨2, ![1, n]⟩ b hcb (ix2 p j) = _
  rw [matmulNT_zero_apply wf, shapeCast_a_1a_apply]
  rfl

end KernelStages

/-! ## The reference's stages, and the two programs stage against stage -/

section Reference
open Cert.ReferenceIdeal Cert.ReferenceIdeal.ReadP
open Cert.KernelIdeal.Gen (k0_pay2)

/-- The host's exp (x − max x) over the lanes of a [1, 128] row. -/
def shiftedExpHost (x : FVec Ideal S1x128 .f32) : FVec Ideal S1x128 .f32 :=
  Host.exp (subf x (broadcastInDim S1x128 ![0, 1] Cert.ReferenceIdeal.Gen.bcast_S1x1_S1x128_0_1
    (broadcastInDim S1x1 ![0] Cert.ReferenceIdeal.Gen.bcast_S1_S1x1_0
      (maximumf (broadcastInDim S1 ![] Cert.ReferenceIdeal.Gen.bcast_S_S1 (constant (F := Ideal) S_ .f32 0xFF800000#32))
        (Host.reduce FloatOps.maximumf x (constant (F := Ideal) S_ .f32 0xFF800000#32)
          Cert.ReferenceIdeal.Gen.reducesTo_S1x128_S1_d1 Cert.ReferenceIdeal.Gen.h_S_)))))

/-- The host's softmax of a [1, 128] row. -/
def softmaxHost (x : FVec Ideal S1x128 .f32) : FVec Ideal S1x128 .f32 :=
  Host.divf (shiftedExpHost x) (broadcastInDim S1x128 ![0, 1] Cert.ReferenceIdeal.Gen.bcast_S1x1_S1x128_0_1
    (broadcastInDim S1x1 ![0] Cert.ReferenceIdeal.Gen.bcast_S1_S1x1_0
      (Host.reduceAdd (shiftedExpHost x) (constant (F := Ideal) S_ .f32 0x00000000#32)
        Cert.ReferenceIdeal.Gen.reducesTo_S1x128_S1_d1 Cert.ReferenceIdeal.Gen.h_S_)))

/-- The two spellings of the shifted exponentials agree on every row. -/
theorem shiftedExp_eq (x : FVec Ideal S1x128 .f32) : shiftedExpVec x = shiftedExpHost x := by
  unfold shiftedExpVec shiftedExpHost
  rw [rowMax_eq x Cert.KernelIdeal.Gen.reduces_S1x128_S1 (.inl rfl) rfl
      Cert.ReferenceIdeal.Gen.reducesTo_S1x128_S1_d1 Cert.ReferenceIdeal.Gen.h_S_,
    splat_eq 0xFF800000#32 Cert.ReferenceIdeal.Gen.bcast_S_S1,
    laidAlongRow_eq _ Cert.KernelIdeal.Gen.shapeCasts_S1_S1x1 Cert.KernelIdeal.Gen.broadcasts_S1x1_S1x128
      Cert.ReferenceIdeal.Gen.bcast_S1_S1x1_0 Cert.ReferenceIdeal.Gen.bcast_S1x1_S1x128_0_1]
  exact exp_eq_hostExp _

/-- The two spellings of the softmax agree on every row. -/
theorem softmax_eq (x : FVec Ideal S1x128 .f32) : softmaxVec x = softmaxHost x := by
  unfold softmaxVec softmaxHost
  rw [shiftedExp_eq,
    rowSum_eq (shiftedExpHost x) Cert.KernelIdeal.Gen.reduces_S1x128_S1 (.inl rfl) rfl
      Cert.ReferenceIdeal.Gen.reducesTo_S1x128_S1_d1 Cert.ReferenceIdeal.Gen.h_S_,
    laidAlongRow_eq _ Cert.KernelIdeal.Gen.shapeCasts_S1_S1x1 Cert.KernelIdeal.Gen.broadcasts_S1x1_S1x128
      Cert.ReferenceIdeal.Gen.bcast_S1_S1x1_0 Cert.ReferenceIdeal.Gen.bcast_S1x1_S1x128_0_1]
  exact divf_eq_hostDivf _ _

/-- The reference's attention weights are the host softmax of its logits. -/
theorem v23_stages (x0 : (⟨S1, .i32⟩ : BufTy).Contents (Elt Ideal)) (x1 : (⟨S1x1x1024, .f32⟩ : BufTy).Contents (Elt Ideal))
    (x3 : (⟨S50257x1024, .f32⟩ : BufTy).Contents (Elt Ideal)) (x4 : (⟨S128x2048, .f32⟩ : BufTy).Contents (Elt Ideal))
    (x5 : (⟨S128, .f32⟩ : BufTy).Contents (Elt Ideal)) :
    val_main_v23 (F := Ideal) x0 x1 x3 x4 x5 = softmaxHost (val_main_v12 (F := Ideal) x0 x1 x3 x4 x5) := by
  unfold val_main_v23 val_main_v22 val_main_v21 val_main_v20 val_main_v19 val_main_v18 val_main_v17 val_main_v16
    val_main_v15 val_main_v14 val_main_v13 val_main_cst val_main_cst_1 val_main_cst_2 softmaxHost shiftedExpHost
  rfl

/-- [e | h] is the reference's first concatenation. -/
theorem sideBySide_v8 (x0 : (⟨S1, .i32⟩ : BufTy).Contents (Elt Ideal)) (x1 : (⟨S1x1x1024, .f32⟩ : BufTy).Contents (Elt Ideal))
    (x3 : (⟨S50257x1024, .f32⟩ : BufTy).Contents (Elt Ideal)) :
    sideBySide (val_main_v6 (F := Ideal) x0 x3)
        (shapeCast S1x1024 (val_main_v7 (F := Ideal) x1) Cert.KernelIdeal.Gen.shapeCasts_S1x1024_S1x1024)
      = val_main_v8 (F := Ideal) x0 x1 x3 := by
  unfold sideBySide val_main_v8
  rw [shapeCast_self, shapeCast_self]

/-- The reference's logits at (p, j): `∑ c, [e | h](p, c) · W(j, c) + b(j)`. -/
theorem v12_entry (x0 : (⟨S1, .i32⟩ : BufTy).Contents (Elt Ideal)) (x1 : (⟨S1x1x1024, .f32⟩ : BufTy).Contents (Elt Ideal))
    (x3 : (⟨S50257x1024, .f32⟩ : BufTy).Contents (Elt Ideal)) (x4 : (⟨S128x2048, .f32⟩ : BufTy).Contents (Elt Ideal))
    (x5 : (⟨S128, .f32⟩ : BufTy).Contents (Elt Ideal)) (p : Fin 1) (j : Fin 128) :
    val_main_v12 (F := Ideal) x0 x1 x3 x4 x5 (ix2 p j)
      = (∑ c : Fin 2048, val_main_v8 (F := Ideal) x0 x1 x3 (ix2 p c) * x4 (ix2 j c)) + x5 (ix1 j) := by
  rw [val_main_v12_apply, val_main_v10_apply, val_main_v11_apply]
  refine congrArg₂ (· + ·) (Finset.sum_congr rfl fun c _ => ?_) (congrArg x5 ?_)
  · rw [val_main_v9_apply]
    refine congrArg₂ (· * ·) (congrArg _ ?_) (congrArg x4 ?_)
    · exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl)

/-- The kernel's logits are the reference's. -/
theorem logits_eq (x0 : (⟨S1, .i32⟩ : BufTy).Contents (Elt Ideal)) (x1 : (⟨S1x1x1024, .f32⟩ : BufTy).Contents (Elt Ideal))
    (x3 : (⟨S50257x1024, .f32⟩ : BufTy).Contents (Elt Ideal)) (x4 : (⟨S128x2048, .f32⟩ : BufTy).Contents (Elt Ideal))
    (x5 : (⟨S128, .f32⟩ : BufTy).Contents (Elt Ideal)) (hc5 : S128.ShapeCasts S1x128) :
    affineVec Cert.KernelIdeal.dot_S1x2048_S128x2048_S1x128_1_1_0_0_n_n
        (sideBySide (val_main_v6 (F := Ideal) x0 x3)
          (shapeCast S1x1024 (val_main_v7 (F := Ideal) x1) Cert.KernelIdeal.Gen.shapeCasts_S1x1024_S1x1024))
        x4 (shapeCast S1x128 x5 hc5) Cert.KernelIdeal.Gen.shapeCasts_S1x128_S1x128
      = val_main_v12 (F := Ideal) x0 x1 x3 x4 x5 := by
  have hD : Cert.KernelIdeal.dot_S1x2048_S128x2048_S1x128_1_1_0_0_n_n
      = dotNT 1 2048 128 Cert.KernelIdeal.Gen.dot_S1x2048_S128x2048_S1x128_1_1_0_0_n_n_wf := rfl
  funext i
  obtain ⟨p, j, rfl⟩ : ∃ (p : Fin 1) (j : Fin 128), i = ix2 p j := ⟨i 0, i 1, eq_ix2 i⟩
  rw [hD, sideBySide_v8, v12_entry]
  exact affineVec_apply _ _ x4 x5 hc5 _ p j

end Reference

end Cert.Bridge.Attn

namespace Cert.Bridge

open Idealize.ShloMosaic Idealize.ShloMosaic.ValueIdx Idealize.SL.Sem Idealize.ShloMosaic.StableHlo
open Cert.ReferenceIdeal Cert.ReferenceIdeal.ReadP
open Cert.Bridge.Attn

/-- The first result: the kernel's attention weights are the reference's. -/
theorem attn_eq (x0 : (⟨S1, .i32⟩ : BufTy).Contents (Elt Ideal)) (x1 : (⟨S1x1x1024, .f32⟩ : BufTy).Contents (Elt Ideal))
    (x3 : (⟨S50257x1024, .f32⟩ : BufTy).Contents (Elt Ideal)) (x4 : (⟨S128x2048, .f32⟩ : BufTy).Contents (Elt Ideal))
    (x5 : (⟨S128, .f32⟩ : BufTy).Contents (Elt Ideal)) (hc5 : S128.ShapeCasts S1x128) :
    Cert.KernelIdeal.Gen.k0_pay2 (F := Ideal) (val_main_v6 (F := Ideal) x0 x3) (val_main_v7 (F := Ideal) x1) x4 (shapeCast S1x128 x5 hc5)
      = val_main_v23 (F := Ideal) x0 x1 x3 x4 x5 := by
  rw [pay2_stages, logits_eq, softmax_eq, v23_stages]

end Cert.Bridge

end
-- ==== Proof.Val.Rnn.lean ====
/-
  The first kernel's combined, rectified row is the reference's, as vectors of extended reals.

  The kernel multiplies its attention weights by the encoder rows into a zero accumulator (the context row), lays the
  embedded row and the context row side by side, multiplies by the transposed combine weights into zero, adds the bias
  row and takes the maximum with the zero splat. The reference does the same with the host's operations. The context
  rows agree because a product into the zero accumulator is the host's product, entry by entry the same sum; the
  affine stage agrees entry by entry as the same sum of products plus the same bias entry; the zero splat is the
  host's broadcast of the zero constant.
-/
import proofs.«415815_j77060303224971_3_alg».proof.Proof.Val.Attn

noncomputable section

namespace Cert.Bridge

open Idealize.ShloMosaic Idealize.ShloMosaic.ValueIdx Idealize.SL.Sem Idealize.ShloMosaic.StableHlo
open Cert.ReferenceIdeal Cert.ReferenceIdeal.ReadP
open Cert.Bridge.Attn
open Cert.KernelIdeal.Gen (k0_pay2 k0_pay3)

/-- The attention weights times the encoder rows, into zero. -/
def contextVec (a : FVec Ideal Cert.KernelIdeal.S1x128 .f32) (E : FVec Ideal Cert.KernelIdeal.S128x1024 .f32) :
    FVec Ideal Cert.KernelIdeal.S1x1024 .f32 :=
  matmul Cert.KernelIdeal.dot_S1x128_S128x1024_S1x1024_1_0_0_1_n_n none
    (truncf .bf16 a Cert.KernelIdeal.Gen.bitsLt_bf16_f32) (truncf .bf16 E Cert.KernelIdeal.Gen.bitsLt_bf16_f32)
    (constant Cert.KernelIdeal.S1x1024 .f32 0x00000000#32)

/-- The positive part of a [1, 1024] row: the maximum with the zero splat. -/
def positivePartVec (y : FVec Ideal Cert.KernelIdeal.S1x1024 .f32) : FVec Ideal Cert.KernelIdeal.S1x1024 .f32 :=
  maximumf y (broadcast Cert.KernelIdeal.S1x1024 (Scalar.ofBits (F := Ideal) .f32 0x00000000#32))

/-- The combined row is the positive part of the affine image of [e | context]. -/
theorem pay3_stages (v0 v2 : Vec Ideal Cert.KernelIdeal.S1x1024 .f32) (v6 : Vec Ideal Cert.KernelIdeal.S128x2048 .f32)
    (v9 : Vec Ideal Cert.KernelIdeal.S1x128 .f32) (v24 : Vec Ideal Cert.KernelIdeal.S128x1024 .f32)
    (v29 : Vec Ideal Cert.KernelIdeal.S1024x2048 .f32) (v32 : Vec Ideal Cert.KernelIdeal.S1x1024 .f32) :
    k0_pay3 (F := Ideal) v0 v2 v6 v9 v24 v29 v32
      = positivePartVec (affineVec Cert.KernelIdeal.dot_S1x2048_S1024x2048_S1x1024_1_1_0_0_n_n
          (sideBySide v0 (contextVec (k0_pay2 (F := Ideal) v0 v2 v6 v9) v24)) v29 v32
          Cert.KernelIdeal.Gen.shapeCasts_S1x1024_S1x1024) := rfl

/-- The weighted sum of the encoder rows: the kernel's product into zero is the reference's product. -/
theorem context_eq (x0 : (⟨S1, .i32⟩ : BufTy).Contents (Elt Ideal)) (x1 : (⟨S1x1x1024, .f32⟩ : BufTy).Contents (Elt Ideal))
    (x2 : (⟨S128x1024, .f32⟩ : BufTy).Contents (Elt Ideal))
    (x3 : (⟨S50257x1024, .f32⟩ : BufTy).Contents (Elt Ideal)) (x4 : (⟨S128x2048, .f32⟩ : BufTy).Contents (Elt Ideal))
    (x5 : (⟨S128, .f32⟩ : BufTy).Contents (Elt Ideal)) :
    contextVec (val_main_v23 (F := Ideal) x0 x1 x3 x4 x5) x2 = val_main_v24 (F := Ideal) x0 x1 x2 x3 x4 x5 := by
  have hD : Cert.KernelIdeal.dot_S1x128_S128x1024_S1x1024_1_0_0_1_n_n
      = Cert.ReferenceIdeal.dot_S1x128_S128x1024_S1x1024_1_0_0_1_n_n := rfl
  unfold contextVec val_main_v24
  generalize val_main_v23 (F := Ideal) x0 x1 x3 x4 x5 = a
  rw [hD, matmul_zero_eq_dotGeneral]
  funext i
  simp only [Host.dotGeneral]
  rw [Ideal.dotGeneral_apply, Ideal.dotGeneral_apply]
  rfl

/-- [e | context] is the reference's second concatenation. -/
theorem sideBySide_v25 (x0 : (⟨S1, .i32⟩ : BufTy).Contents (Elt Ideal)) (x1 : (⟨S1x1x1024, .f32⟩ : BufTy).Contents (Elt Ideal))
    (x2 : (⟨S128x1024, .f32⟩ : BufTy).Contents (Elt Ideal))
    (x3 : (⟨S50257x1024, .f32⟩ : BufTy).Contents (Elt Ideal)) (x4 : (⟨S128x2048, .f32⟩ : BufTy).Contents (Elt Ideal))
    (x5 : (⟨S128, .f32⟩ : BufTy).Contents (Elt Ideal)) :
    sideBySide (val_main_v6 (F := Ideal) x0 x3) (val_main_v24 (F := Ideal) x0 x1 x2 x3 x4 x5)
      = val_main_v25 (F := Ideal) x0 x1 x2 x3 x4 x5 := by
  unfold sideBySide val_main_v25
  rw [shapeCast_self]

/-- The reference's combined row before the positive part, at (p, j): `∑ c, [e | context](p, c) · W(j, c) + b(j)`. -/
theorem v29_entry (x0 : (⟨S1, .i32⟩ : BufTy).Contents (Elt Ideal)) (x1 : (⟨S1x1x1024, .f32⟩ : BufTy).Contents (Elt Ideal))
    (x2 : (⟨S128x1024, .f32⟩ : BufTy).Contents (Elt Ideal))
    (x3 : (⟨S50257x1024, .f32⟩ : BufTy).Contents (Elt Ideal)) (x4 : (⟨S128x2048, .f32⟩ : BufTy).Contents (Elt Ideal))
    (x5 : (⟨S128, .f32⟩ : BufTy).Contents (Elt Ideal)) (x6 : (⟨S1024x2048, .f32⟩ : BufTy).Contents (Elt Ideal))
    (x7 : (⟨S1024, .f32⟩ : BufTy).Contents (Elt Ideal)) (p : Fin 1) (j : Fin 1024) :
    val_main_v29 (F := Ideal) x0 x1 x2 x3 x4 x5 x6 x7 (ix2 p j)
      = (∑ c : Fin 2048, val_main_v25 (F := Ideal) x0 x1 x2 x3 x4 x5 (ix2 p c) * x6 (ix2 j c)) + x7 (ix1 j) := by
  rw [val_main_v29_apply, val_main_v27_apply, val_main_v28_apply]
  refine congrArg₂ (· + ·) (Finset.sum_congr rfl fun c _ => ?_) (congrArg x7 ?_)
  · rw [val_main_v26_apply]
    refine congrArg₂ (· * ·) (congrArg _ ?_) (congrArg x6 ?_)
    · exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl)

/-- The kernel's combined row before the positive part is the reference's. -/
theorem combine_eq (x0 : (⟨S1, .i32⟩ : BufTy).Contents (Elt Ideal)) (x1 : (⟨S1x1x1024, .f32⟩ : BufTy).Contents (Elt Ideal))
    (x2 : (⟨S128x1024, .f32⟩ : BufTy).Contents (Elt Ideal))
    (x3 : (⟨S50257x1024, .f32⟩ : BufTy).Contents (Elt Ideal)) (x4 : (⟨S128x2048, .f32⟩ : BufTy).Contents (Elt Ideal))
    (x5 : (⟨S128, .f32⟩ : BufTy).Contents (Elt Ideal)) (x6 : (⟨S1024x2048, .f32⟩ : BufTy).Contents (Elt Ideal))
    (x7 : (⟨S1024, .f32⟩ : BufTy).Contents (Elt Ideal)) (hc7 : S1024.ShapeCasts S1x1024) :
    affineVec Cert.KernelIdeal.dot_S1x2048_S1024x2048_S1x1024_1_1_0_0_n_n
        (sideBySide (val_main_v6 (F := Ideal) x0 x3) (val_main_v24 (F := Ideal) x0 x1 x2 x3 x4 x5))
        x6 (shapeCast S1x1024 x7 hc7) Cert.KernelIdeal.Gen.shapeCasts_S1x1024_S1x1024
      = val_main_v29 (F := Ideal) x0 x1 x2 x3 x4 x5 x6 x7 := by
  have hD : Cert.KernelIdeal.dot_S1x2048_S1024x2048_S1x1024_1_1_0_0_n_n
      = dotNT 1 2048 1024 Cert.KernelIdeal.Gen.dot_S1x2048_S1024x2048_S1x1024_1_1_0_0_n_n_wf := rfl
  funext i
  obtain ⟨p, j, rfl⟩ : ∃ (p : Fin 1) (j : Fin 1024), i = ix2 p j := ⟨i 0, i 1, eq_ix2 i⟩
  rw [hD, sideBySide_v25, v29_entry]
  exact affineVec_apply _ _ x6 x7 hc7 _ p j

/-- The positive part against the reference's maximum with its broadcast zero. -/
theorem positivePart_eq (y : FVec Ideal S1x1024 .f32) :
    positivePartVec y = maximumf y (val_main_call0_v0 (F := Ideal)) := by
  unfold positivePartVec val_main_call0_v0 val_main_call0_cst
  rw [splat_eq 0x00000000#32 Cert.ReferenceIdeal.Gen.bcast_S_S1x1024]

/-- The second result: the kernel's combined, rectified row is the reference's. -/
theorem rnnin_eq (x0 : (⟨S1, .i32⟩ : BufTy).Contents (Elt Ideal)) (x1 : (⟨S1x1x1024, .f32⟩ : BufTy).Contents (Elt Ideal))
    (x2 : (⟨S128x1024, .f32⟩ : BufTy).Contents (Elt Ideal))
    (x3 : (⟨S50257x1024, .f32⟩ : BufTy).Contents (Elt Ideal)) (x4 : (⟨S128x2048, .f32⟩ : BufTy).Contents (Elt Ideal))
    (x5 : (⟨S128, .f32⟩ : BufTy).Contents (Elt Ideal)) (x6 : (⟨S1024x2048, .f32⟩ : BufTy).Contents (Elt Ideal))
    (x7 : (⟨S1024, .f32⟩ : BufTy).Contents (Elt Ideal)) (hc5 : S128.ShapeCasts S1x128) (hc7 : S1024.ShapeCasts S1x1024) :
    k0_pay3 (F := Ideal) (val_main_v6 (F := Ideal) x0 x3) (val_main_v7 (F := Ideal) x1) x4 (shapeCast S1x128 x5 hc5) x2 x6
        (shapeCast S1x1024 x7 hc7)
      = val_main_v30 (F := Ideal) x0 x1 x2 x3 x4 x5 x6 x7 := by
  rw [pay3_stages, attn_eq, context_eq, combine_eq, positivePart_eq]
  rfl

end Cert.Bridge

end
-- ==== Proof.Val.RefRows.lean ====
/-
  The reference's three "row against the rows of a weight matrix, plus a bias" stages, read at a column.

  Each is a sum stage over a product stage and a broadcast bias. The product stage contracts the row's last axis with
  the first axis of the TRANSPOSED weights, so its right operand at (k, J) is the weights at (J, k); the bias, a
  vector broadcast along the single row, is read at J. Hence the entry at column J is
  `(∑ k, row(0, k) · W(J, k)) + bias(J)`: the same form as the kernel's products.
-/
import proofs.«415815_j77060303224971_3_alg».proof.Proof.RefRead
import Idealize.ShloMosaic.Lib.ValueIdx

noncomputable section

namespace Cert.Bridge

open Idealize.ShloMosaic Idealize.ShloMosaic.ValueIdx

open Cert.ReferenceIdeal Cert.ReferenceIdeal.ReadP in
/-- The reference's first gate product at column J: the combined row against row J of the weights, plus the bias. -/
theorem val_v34_row (x0 : (⟨S1, .i32⟩ : BufTy).Contents (Elt Ideal)) (x1 : (⟨S1x1x1024, .f32⟩ : BufTy).Contents (Elt Ideal)) (x2 : (⟨S128x1024, .f32⟩ : BufTy).Contents (Elt Ideal)) (x3 : (⟨S50257x1024, .f32⟩ : BufTy).Contents (Elt Ideal)) (x4 : (⟨S128x2048, .f32⟩ : BufTy).Contents (Elt Ideal)) (x5 : (⟨S128, .f32⟩ : BufTy).Contents (Elt Ideal)) (x6 : (⟨S1024x2048, .f32⟩ : BufTy).Contents (Elt Ideal)) (x7 : (⟨S1024, .f32⟩ : BufTy).Contents (Elt Ideal)) (x8 : (⟨S3072x1024, .f32⟩ : BufTy).Contents (Elt Ideal)) (x10 : (⟨S3072, .f32⟩ : BufTy).Contents (Elt Ideal)) (J : Fin 3072) :
    val_main_v34 (F := Ideal) x0 x1 x2 x3 x4 x5 x6 x7 x8 x10 (ix2 (0 : Fin 1) J)
      = (∑ k : Fin 1024, val_main_v30 (F := Ideal) x0 x1 x2 x3 x4 x5 x6 x7 (ix2 (0 : Fin 1) k) * x8 (ix2 J k)) + x10 (ix1 J) := by
  rw [val_main_v34_apply, val_main_v32_apply, val_main_v33_apply]
  -- the bias is read at the column
  have hb : idx_main_v33 (ix2 (0 : Fin 1) J) = ix1 J := funext fun a => Fin.ext (by match a with | ⟨0, _⟩ => rfl)
  rw [hb]
  refine congrArg (· + x10 (ix1 J)) (Finset.sum_congr rfl fun k _ => ?_)
  rw [val_main_v31_apply]
  -- the row is read at (0, k), the transposed weights at (k, J), that is the weights at (J, k)
  have hl : lidx_main_v32 (ix2 (0 : Fin 1) J) k = ix2 (0 : Fin 1) k :=
    funext fun a => Fin.ext (by match a with | ⟨0, _⟩ => rfl | ⟨1, _⟩ => rfl)
  have hr : idx_main_v31 (ridx_main_v32 (ix2 (0 : Fin 1) J) k) = ix2 J k :=
    funext fun a => Fin.ext (by match a with | ⟨0, _⟩ => rfl | ⟨1, _⟩ => rfl)
  rw [hl, hr]

open Cert.ReferenceIdeal Cert.ReferenceIdeal.ReadP in
/-- The reference's second gate product at column J: the previous state row against row J of the weights, plus the bias. -/
theorem val_v38_row (x1 : (⟨S1x1x1024, .f32⟩ : BufTy).Contents (Elt Ideal)) (x9 : (⟨S3072x1024, .f32⟩ : BufTy).Contents (Elt Ideal)) (x11 : (⟨S3072, .f32⟩ : BufTy).Contents (Elt Ideal)) (J : Fin 3072) :
    val_main_v38 (F := Ideal) x1 x9 x11 (ix2 (0 : Fin 1) J)
      = (∑ k : Fin 1024, val_main_v7 (F := Ideal) x1 (ix2 (0 : Fin 1) k) * x9 (ix2 J k)) + x11 (ix1 J) := by
  rw [val_main_v38_apply, val_main_v36_apply, val_main_v37_apply]
  have hb : idx_main_v37 (ix2 (0 : Fin 1) J) = ix1 J := funext fun a => Fin.ext (by match a with | ⟨0, _⟩ => rfl)
  rw [hb]
  refine congrArg (· + x11 (ix1 J)) (Finset.sum_congr rfl fun k _ => ?_)
  rw [val_main_v35_apply]
  have hl : lidx_main_v36 (ix2 (0 : Fin 1) J) k = ix2 (0 : Fin 1) k :=
    funext fun a => Fin.ext (by match a with | ⟨0, _⟩ => rfl | ⟨1, _⟩ => rfl)
  have hr : idx_main_v35 (ridx_main_v36 (ix2 (0 : Fin 1) J) k) = ix2 J k :=
    funext fun a => Fin.ext (by match a with | ⟨0, _⟩ => rfl | ⟨1, _⟩ => rfl)
  rw [hl, hr]

open Cert.ReferenceIdeal Cert.ReferenceIdeal.ReadP in
/-- The reference's output projection at column J: the new state row against row J of the weights, plus the bias. -/
theorem val_v70_row (x0 : (⟨S1, .i32⟩ : BufTy).Contents (Elt Ideal)) (x1 : (⟨S1x1x1024, .f32⟩ : BufTy).Contents (Elt Ideal)) (x2 : (⟨S128x1024, .f32⟩ : BufTy).Contents (Elt Ideal)) (x3 : (⟨S50257x1024, .f32⟩ : BufTy).Contents (Elt Ideal)) (x4 : (⟨S128x2048, .f32⟩ : BufTy).Contents (Elt Ideal)) (x5 : (⟨S128, .f32⟩ : BufTy).Contents (Elt Ideal)) (x6 : (⟨S1024x2048, .f32⟩ : BufTy).Contents (Elt Ideal)) (x7 : (⟨S1024, .f32⟩ : BufTy).Contents (Elt Ideal)) (x8 x9 : (⟨S3072x1024, .f32⟩ : BufTy).Contents (Elt Ideal)) (x10 x11 : (⟨S3072, .f32⟩ : BufTy).Contents (Elt Ideal)) (x12 : (⟨S50257x1024, .f32⟩ : BufTy).Contents (Elt Ideal)) (x13 : (⟨S50257, .f32⟩ : BufTy).Contents (Elt Ideal)) (J : Fin 50257) :
    val_main_v70 (F := Ideal) x0 x1 x2 x3 x4 x5 x6 x7 x8 x9 x10 x11 x12 x13 (ix2 (0 : Fin 1) J)
      = (∑ k : Fin 1024, val_main_v66 (F := Ideal) x0 x1 x2 x3 x4 x5 x6 x7 x8 x9 x10 x11 (ix2 (0 : Fin 1) k) * x12 (ix2 J k)) + x13 (ix1 J) := by
  rw [val_main_v70_apply, val_main_v68_apply, val_main_v69_apply]
  have hb : idx_main_v69 (ix2 (0 : Fin 1) J) = ix1 J := funext fun a => Fin.ext (by match a with | ⟨0, _⟩ => rfl)
  rw [hb]
  refine congrArg (· + x13 (ix1 J)) (Finset.sum_congr rfl fun k _ => ?_)
  rw [val_main_v67_apply]
  have hl : lidx_main_v68 (ix2 (0 : Fin 1) J) k = ix2 (0 : Fin 1) k :=
    funext fun a => Fin.ext (by match a with | ⟨0, _⟩ => rfl | ⟨1, _⟩ => rfl)
  have hr : idx_main_v67 (ridx_main_v68 (ix2 (0 : Fin 1) J) k) = ix2 J k :=
    funext fun a => Fin.ext (by match a with | ⟨0, _⟩ => rfl | ⟨1, _⟩ => rfl)
  rw [hl, hr]

end Cert.Bridge

end
-- ==== Proof.KI.Chain14.lean ====
/-
  The first four stages of the value chain at the ideal values. Following the fold of buffer contents through @main:
  after the opening host stretch the embedding row, the old hidden row and the five bias rows are the reference's (a
  gather at the normalised token index; reshapes of the arguments); after the first pallas_call its two result arrays
  are the reference's attention weights and its combined, rectified row; after the second pallas_call its two result
  arrays are the reference's two gate pre-activation rows, column by column a row against a row of the weights plus
  the bias read at that column; and after the host's gate combination the new hidden row is the reference's.
-/
import proofs.«415815_j77060303224971_3_alg».proof.Proof.KI.Keep
import proofs.«415815_j77060303224971_3_alg».proof.Proof.KI.HostChains
import proofs.«415815_j77060303224971_3_alg».proof.Proof.KI.Arr01
import proofs.«415815_j77060303224971_3_alg».proof.Proof.Val.RefChains
import proofs.«415815_j77060303224971_3_alg».proof.Proof.Val.Attn
import proofs.«415815_j77060303224971_3_alg».proof.Proof.Val.Rnn
import proofs.«415815_j77060303224971_3_alg».proof.Proof.Val.RefRows
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.ReferenceIdeal.ReadP
open scoped BigOperators

variable (m : (ℓ : Loc nD τ sig) → Buf (Elt Ideal) ℓ) (c : Dev nD)

/-! ## After the opening host stretch -/

/-- The embedding row is the reference's gather. -/
theorem S1_v6 : W1 m c (Proc.devRef .tc main_v6)
    = val_main_v6 (F := Ideal) (m ((c : Thread nD τ).loc main_arg0)) (m ((c : Thread nD τ).loc main_arg3)) :=
  (after_hostOps0_v6 (W0 m c)).trans (Cert.Bridge.embRow_ref _ _)

/-- The old hidden row is the reference's reshape of the hidden state. -/
theorem S1_v7 : W1 m c (Proc.devRef .tc main_v7) = val_main_v7 (F := Ideal) (m ((c : Thread nD τ).loc main_arg1)) :=
  (after_hostOps0_v7 (W0 m c)).trans (Cert.Bridge.reshape1_ref _)

/-- The five bias vectors, each viewed as one row. -/
theorem S1_v8 : W1 m c (Proc.devRef .tc main_v8) = shapeCast S1x128 (m ((c : Thread nD τ).loc main_arg5)) shapeCasts_S128_S1x128 :=
  after_hostOps0_v8 (W0 m c)
theorem S1_v9 : W1 m c (Proc.devRef .tc main_v9) = shapeCast S1x1024 (m ((c : Thread nD τ).loc main_arg7)) shapeCasts_S1024_S1x1024 :=
  after_hostOps0_v9 (W0 m c)
theorem S1_v10 : W1 m c (Proc.devRef .tc main_v10) = shapeCast S1x3072 (m ((c : Thread nD τ).loc main_arg10)) shapeCasts_S3072_S1x3072 :=
  after_hostOps0_v10 (W0 m c)
theorem S1_v11 : W1 m c (Proc.devRef .tc main_v11) = shapeCast S1x3072 (m ((c : Thread nD τ).loc main_arg11)) shapeCasts_S3072_S1x3072 :=
  after_hostOps0_v11 (W0 m c)
theorem S1_v12 : W1 m c (Proc.devRef .tc main_v12) = shapeCast S1x50257 (m ((c : Thread nD τ).loc main_arg13)) shapeCasts_S50257_S1x50257 :=
  after_hostOps0_v12 (W0 m c)

/-! ## After the first pallas_call -/

/-- The attention weights: the call's second result array is its payload of the arrays as it finds them, which are the
    reference's embedding row and hidden row, the launch's attention weights matrix and the bias row. -/
theorem S2_v13_1 : W2 m c (Proc.devRef .tc main_v13_1)
    = val_main_v23 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  have e6 : U1 m c main_v6 = val_main_v6 (F := Ideal) (m ((c : Thread nD τ).loc main_arg0)) (m ((c : Thread nD τ).loc main_arg3)) := S1_v6 m c
  have e7 : U1 m c main_v7 = val_main_v7 (F := Ideal) (m ((c : Thread nD τ).loc main_arg1)) := S1_v7 m c
  have e4 : U1 m c main_arg4 = (m ((c : Thread nD τ).loc main_arg4)) := (W1_keep m c main_arg4 (by decide)).trans rfl
  have e8 : U1 m c main_v8 = shapeCast S1x128 (m ((c : Thread nD τ).loc main_arg5)) shapeCasts_S128_S1x128 := S1_v8 m c
  refine ((W2_arr m c 8).trans (arr0_8 (U1 m) c)).trans ?_
  rw [e6, e7, e4, e8]
  exact Cert.Bridge.attn_eq _ _ _ _ _ _

/-- The combined, rectified row: the call's first result array likewise. -/
theorem S2_v13_0 : W2 m c (Proc.devRef .tc main_v13_0)
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e6 : U1 m c main_v6 = val_main_v6 (F := Ideal) (m ((c : Thread nD τ).loc main_arg0)) (m ((c : Thread nD τ).loc main_arg3)) := S1_v6 m c
  have e7 : U1 m c main_v7 = val_main_v7 (F := Ideal) (m ((c : Thread nD τ).loc main_arg1)) := S1_v7 m c
  have e4 : U1 m c main_arg4 = (m ((c : Thread nD τ).loc main_arg4)) := (W1_keep m c main_arg4 (by decide)).trans rfl
  have e8 : U1 m c main_v8 = shapeCast S1x128 (m ((c : Thread nD τ).loc main_arg5)) shapeCasts_S128_S1x128 := S1_v8 m c
  have e2 : U1 m c main_arg2 = (m ((c : Thread nD τ).loc main_arg2)) := (W1_keep m c main_arg2 (by decide)).trans rfl
  have e6' : U1 m c main_arg6 = (m ((c : Thread nD τ).loc main_arg6)) := (W1_keep m c main_arg6 (by decide)).trans rfl
  have e9 : U1 m c main_v9 = shapeCast S1x1024 (m ((c : Thread nD τ).loc main_arg7)) shapeCasts_S1024_S1x1024 := S1_v9 m c
  refine ((W2_arr m c 7).trans (arr0_7 (U1 m) c)).trans ?_
  rw [e6, e7, e4, e8, e2, e6', e9]
  exact Cert.Bridge.rnnin_eq _ _ _ _ _ _ _ _ _ _

/-! ## After the second pallas_call -/

/-- A bias vector of the gates viewed as one row, read at column `J`, is the vector at `J`. -/
theorem gate_row_of_vec_apply (b : S3072.Idx → Ideal .f32) (J : Fin 3072) :
    shapeCast S1x3072 b shapeCasts_S3072_S1x3072 (ix2 (0 : Fin 1) J) = b (ix1 J) :=
  shapeCast_apply b shapeCasts_S3072_S1x3072 (ix2 (0 : Fin 1) J) (ix1 J) (by
    rw [Shape.rowMajor_val_one, Shape.rowMajor_val_two]
    show J.val = 0 * 3072 + J.val
    omega)

/-- The input-side gate row: at column `J` the call's first result array is the combined row against row `J` of the
    input-side weights plus the bias row at `J`, and so is the reference's. -/
theorem S3_v14_0 : W3 m c (Proc.devRef .tc main_v14_0)
    = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) := by
  funext i
  obtain ⟨r, J, rfl⟩ : ∃ (r : Fin 1) (J : Fin 3072), i = ix2 r J := ⟨i 0, i 1, eq_ix2 i⟩
  obtain rfl : r = 0 := Subsingleton.elim _ _
  have hx : U2 m c main_v13_0 = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := S2_v13_0 m c
  have hW : U2 m c main_arg8 = (m ((c : Thread nD τ).loc main_arg8)) := (W2_keep m c main_arg8 (by decide) (by decide)).trans <| (W1_keep m c main_arg8 (by decide)).trans rfl
  have hb : U2 m c main_v10 = shapeCast S1x3072 (m ((c : Thread nD τ).loc main_arg10)) shapeCasts_S3072_S1x3072 :=
    (W2_keep m c main_v10 (by decide) (by decide)).trans (S1_v10 m c)
  refine (congrFun (W3_arr m c 6) _).trans ?_
  rw [arr1_6_of (U2 m) c J _ _ _ hx hW hb, Cert.Bridge.val_v34_row, gate_row_of_vec_apply]

/-- The hidden-side gate row, likewise from the old hidden row. -/
theorem S3_v14_1 : W3 m c (Proc.devRef .tc main_v14_1)
    = val_main_v38 (F := Ideal) (m ((c : Thread nD τ).loc main_arg1)) (m ((c : Thread nD τ).loc main_arg9)) (m ((c : Thread nD τ).loc main_arg11)) := by
  funext i
  obtain ⟨r, J, rfl⟩ : ∃ (r : Fin 1) (J : Fin 3072), i = ix2 r J := ⟨i 0, i 1, eq_ix2 i⟩
  obtain rfl : r = 0 := Subsingleton.elim _ _
  have hx : U2 m c main_v7 = val_main_v7 (F := Ideal) (m ((c : Thread nD τ).loc main_arg1)) :=
    (W2_keep m c main_v7 (by decide) (by decide)).trans (S1_v7 m c)
  have hW : U2 m c main_arg9 = (m ((c : Thread nD τ).loc main_arg9)) := (W2_keep m c main_arg9 (by decide) (by decide)).trans <| (W1_keep m c main_arg9 (by decide)).trans rfl
  have hb : U2 m c main_v11 = shapeCast S1x3072 (m ((c : Thread nD τ).loc main_arg11)) shapeCasts_S3072_S1x3072 :=
    (W2_keep m c main_v11 (by decide) (by decide)).trans (S1_v11 m c)
  refine (congrFun (W3_arr m c 7) _).trans ?_
  rw [arr1_7_of (U2 m) c J _ _ _ hx hW hb, Cert.Bridge.val_v38_row, gate_row_of_vec_apply]

/-! ## After the host's gate combination -/

/-- The new hidden row: the gate combination of the two gate rows and the old hidden row, which are the reference's. -/
theorem S4_v42 : W4 m c (Proc.devRef .tc main_v42)
    = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h7 : W3 m c (Proc.devRef .tc main_v7) = val_main_v7 (F := Ideal) (m ((c : Thread nD τ).loc main_arg1)) :=
    (W3_keep m c main_v7 (by decide) (by decide)).trans <| (W2_keep m c main_v7 (by decide) (by decide)).trans (S1_v7 m c)
  refine (after_hostOps2_v42 (W3 m c)).trans ?_
  rw [S3_v14_0 m c, S3_v14_1 m c, h7]
  exact Cert.Bridge.gateChain_ref _ _ _ _ _ _ _ _ _ _ _ _

end Cert.KernelIdeal.Hand

end
-- ==== Proof.KI.Arr2.lean ====
/-
  The result array of the output projection after its twenty-five write-backs, read at one column. The vocabulary
  axis of 50257 columns is cut in blocks of 2048, the last block holding 1105 columns of the array; every point
  writes back the moved part of its block, and that part is the block of ONE function of the three argument
  arrays: at column `J`, the hidden row against row `J` of the weights, plus the bias at `J`. Column `J` lies in
  the block of point `J / 2048`, so the array ends holding that function there.
-/
import proofs.«415815_j77060303224971_3_alg».proof.Proof.KI.R2
import proofs.«415815_j77060303224971_3_alg».proof.Proof.Val.Rows
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The zero offsets of a whole-buffer rectangle, spelt as the constant function. -/
theorem zero_off2 : (![0, 0] : Fin 2 → Nat) = fun _ => 0 := funext fun a => by fin_cases a <;> rfl

/-- The block indices over the twenty-five points: the hidden row's block never moves, the weight's moves down
    the rows with the point, the bias's and the result's along the columns with it. -/
theorem maps2 : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val :=
  (by decide +kernel : ∀ t : Fin grid2.N, _)

/-- The sizes of the parts moved over the twenty-five points: the three blocks along the vocabulary axis are cut
    alike, at the axis's end (50257 = 24 · 2048 + 1105). -/
theorem cuts2 : ∀ t : Fin cfg2.N,
    win2_1.xsize (grid2.coords t) (0 : Fin 2) = win2_3.xsize (grid2.coords t) (1 : Fin 2)
    ∧ win2_1.xsize (grid2.coords t) (1 : Fin 2) = 1024
    ∧ win2_2.xsize (grid2.coords t) (0 : Fin 2) = 1
    ∧ win2_2.xsize (grid2.coords t) (1 : Fin 2) = win2_3.xsize (grid2.coords t) (1 : Fin 2)
    ∧ win2_3.xsize (grid2.coords t) (0 : Fin 2) = 1
    ∧ t.val * 2048 + win2_3.xsize (grid2.coords t) (1 : Fin 2) = min 50257 (t.val * 2048 + 2048) :=
  (by decide +kernel : ∀ t : Fin grid2.N, _)

/-- One entry of the output projection: the hidden row against row `J` of the weights, plus the bias at `J`. -/
abbrev logit2 (x : S1x1024.Idx → Ideal .f32) (W : S50257x1024.Idx → Ideal .f32) (b : S1x50257.Idx → Ideal .f32)
    (J : Fin 50257) : Ideal .f32 :=
  (∑ k : Fin 1024, x (ix2 (0 : Fin 1) k) * W (ix2 J k)) + b (ix2 (0 : Fin 1) J)

/-- The result array as one function of the hidden row, the weight array and the bias array. -/
def logits2 (x : S1x1024.Idx → Ideal .f32) (W : S50257x1024.Idx → Ideal .f32) (b : S1x50257.Idx → Ideal .f32) :
    S1x50257.Idx → Ideal .f32 :=
  fun i => logit2 x W b (i 1 : Fin 50257)

/-- An entry of a filled-out block inside the moved part is the block's own entry. -/
theorem fill_of_lt {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill; rw [dif_pos ((w.moved_iff i j).mpr h)]

/-- The hidden row's block at any point is the hidden row. -/
theorem iblk2_0_apply (c : Dev nD) (t : Fin cfg2.N) (k : Fin 1024) :
    iblk2 V c 0 t (ix2 (0 : Fin 1) k) = V c main_v42 (ix2 (0 : Fin 1) k) := by
  obtain ⟨e0, e1, -⟩ := maps2 t
  show V c main_v42 (((cfg2.win 0).blk t).view.emb (ix2 (0 : Fin 1) k)) = V c main_v42 (ix2 (0 : Fin 1) k)
  refine congrArg (V c main_v42) (funext fun a => Fin.ext ?_)
  match a with
  | ⟨0, _⟩ => show win2_0.index t (0 : Fin 2) * 1 + 1 * 0 = 0; omega
  | ⟨1, _⟩ => show win2_0.index t (1 : Fin 2) * 1024 + 1 * k.val = k.val; omega

/-- An entry of the weight block filled out, at a row inside the moved part: the weight array's entry at the
    point's first row plus that row. -/
theorem wblk2_apply (c : Dev nD) (t : Fin cfg2.N) (r : Fin 2048) (k : Fin 1024)
    (hr : r.val < win2_3.xsize (grid2.coords t) (1 : Fin 2)) (R : Fin 50257) (hR : R.val = t.val * 2048 + r.val) :
    wblk2 V c t (ix2 r k) = V c main_arg12 (ix2 R k) := by
  obtain ⟨-, -, e0, e1, -⟩ := maps2 t
  obtain ⟨x0, x1, -⟩ := cuts2 t
  unfold wblk2
  rw [fill_of_lt win2_1 (grid2.coords t) _ _ (ix2 r k) (fun a => match a with
    | ⟨0, _⟩ => by show r.val < win2_1.xsize (grid2.coords t) (0 : Fin 2); omega
    | ⟨1, _⟩ => by show k.val < win2_1.xsize (grid2.coords t) (1 : Fin 2); omega)]
  show V c main_arg12 (((cfg2.win 1).blk t).view.emb _) = V c main_arg12 (ix2 R k)
  refine congrArg (V c main_arg12) (funext fun a => Fin.ext ?_)
  match a with
  | ⟨0, _⟩ => show win2_1.index t (0 : Fin 2) * 2048 + 1 * r.val = R.val; omega
  | ⟨1, _⟩ => show win2_1.index t (1 : Fin 2) * 1024 + 1 * k.val = k.val; omega

/-- An entry of the bias block filled out, at a column inside the moved part: the bias array's entry at the
    point's first column plus that column. -/
theorem bblk2_apply (c : Dev nD) (t : Fin cfg2.N) (r : Fin 2048)
    (hr : r.val < win2_3.xsize (grid2.coords t) (1 : Fin 2)) (R : Fin 50257) (hR : R.val = t.val * 2048 + r.val) :
    bblk2 V c t (ix2 (0 : Fin 1) r) = V c main_v12 (ix2 (0 : Fin 1) R) := by
  obtain ⟨-, -, -, -, e0, e1, -⟩ := maps2 t
  obtain ⟨-, -, x0, x1, -⟩ := cuts2 t
  unfold bblk2
  rw [fill_of_lt win2_2 (grid2.coords t) _ _ (ix2 (0 : Fin 1) r) (fun a => match a with
    | ⟨0, _⟩ => by show 0 < win2_2.xsize (grid2.coords t) (0 : Fin 2); omega
    | ⟨1, _⟩ => by show r.val < win2_2.xsize (grid2.coords t) (1 : Fin 2); omega)]
  show V c main_v12 (((cfg2.win 2).blk t).view.emb _) = V c main_v12 (ix2 (0 : Fin 1) R)
  refine congrArg (V c main_v12) (funext fun a => Fin.ext ?_)
  match a with
  | ⟨0, _⟩ => show win2_2.index t (0 : Fin 2) * 1 + 1 * 0 = 0; omega
  | ⟨1, _⟩ => show win2_2.index t (1 : Fin 2) * 2048 + 1 * r.val = R.val; omega

/-- What a point writes back is its block of the one whole-array function: the body's entry at a column of the
    moved part is the hidden row against the weight row under it, plus the bias entry under it. -/
theorem flushed2_3 (c : Dev nD) (t : Fin cfg2.N) :
    (dat2 V c).flushed 3 t
      = ((cfg2.win 3).blk t).view.read (Elt Ideal) (logits2 (V c main_v42) (V c main_arg12) (V c main_v12)) := by
  show (cfg2.win 3).cut (grid2.coords t) ((dat2 V c).after 3 t) = _
  rw [after2_3]
  unfold out2_3
  rw [View.canon_unit_zero zero_off2]
  simp only [View.ld_unit_zero (S := S1x1024) zero_off2, View.ld_unit_zero (S := S2048x1024) zero_off2,
    View.ld_unit_zero (S := S1x2048) zero_off2]
  funext j
  obtain ⟨-, -, -, -, -, -, e0, e1⟩ := maps2 t
  obtain ⟨-, -, -, -, x0, x1⟩ := cuts2 t
  have hj0 : (j 0).val < win2_3.xsize (grid2.coords t) (0 : Fin 2) := (j 0).isLt
  have hj1 : (j 1).val < win2_3.xsize (grid2.coords t) (1 : Fin 2) := (j 1).isLt
  have hr : (j 1).val < 2048 := by omega
  have hR : t.val * 2048 + (j 1).val < 50257 := by omega
  -- the index inside the staging buffer, and the index of the array under it
  have hy : win2_3.xinj (grid2.coords t) j = ix2 (0 : Fin 1) (⟨(j 1).val, hr⟩ : Fin 2048) := by
    funext a; apply Fin.ext
    match a with
    | ⟨0, _⟩ => show (j 0).val = 0; omega
    | ⟨1, _⟩ => rfl
  have hi : ((cfg2.win 3).blk t).view.emb j = ix2 (0 : Fin 1) (⟨t.val * 2048 + (j 1).val, hR⟩ : Fin 50257) := by
    funext a; apply Fin.ext
    match a with
    | ⟨0, _⟩ => show win2_3.index t (0 : Fin 2) * 1 + 1 * (j 0).val = 0; omega
    | ⟨1, _⟩ => show win2_3.index t (1 : Fin 2) * 2048 + 1 * (j 1).val = t.val * 2048 + (j 1).val; omega
  show k2_pay1 (iblk2 V c 0 t) (wblk2 V c t) (bblk2 V c t) (win2_3.xinj (grid2.coords t) j)
    = logits2 (V c main_v42) (V c main_arg12) (V c main_v12) (((cfg2.win 3).blk t).view.emb j)
  rw [hy, hi, Cert.Bridge.k2_pay1_apply]
  show _ = logit2 (V c main_v42) (V c main_arg12) (V c main_v12) (⟨t.val * 2048 + (j 1).val, hR⟩ : Fin 50257)
  unfold logit2
  rw [bblk2_apply V c t ⟨(j 1).val, hr⟩ hj1 ⟨t.val * 2048 + (j 1).val, hR⟩ rfl]
  refine congrArg (· + _) (Finset.sum_congr rfl fun k _ => ?_)
  rw [iblk2_0_apply V c t k, wblk2_apply V c t ⟨(j 1).val, hr⟩ k hj1 ⟨t.val * 2048 + (j 1).val, hR⟩ rfl]

/-- An index of the result array is in a point's block iff each coordinate is in the block's range, cut at the
    array's end. -/
theorem mem_blk2_3 (t : Fin cfg2.N) (i : S1x50257.Idx) :
    i ∈ ((cfg2.win 3).blk t).view.set ↔ ∀ a : Fin 2, win2_3.index t a * S1x2048.size a ≤ (i a).val
      ∧ (i a).val < win2_3.index t a * S1x2048.size a + win2_3.xsize (grid2.coords t) a := by
  show i ∈ ((View.whole main_v43).slice (win2_3.rect t)).set ↔ _
  rw [View.set_slice_whole, Rect.mem_set_unit]
  exact Iff.rfl

/-- The result array after the twenty-five write-backs, at column `J`: the point `J / 2048` wrote it, from the
    hidden row, row `J` of the weights and the bias at `J`. -/
theorem arr2_3 (c : Dev nD) (J : Fin 50257) :
    ((dat2 (F := Ideal) V c).arrAt 3 cfg2.N) (ix2 (0 : Fin 1) J)
      = logit2 (V c main_v42) (V c main_arg12) (V c main_v12) J := by
  have hJ : J.val < 50257 := J.isLt
  have ht : J.val / 2048 < cfg2.N := by show J.val / 2048 < 25; omega
  have key := (dat2 V c).arrAt_apply_of_mem 3 (logits2 (V c main_v42) (V c main_arg12) (V c main_v12))
    (fun t _ => flushed2_3 V c t) cfg2.N ⟨J.val / 2048, ht⟩ (ix2 (0 : Fin 1) J) ht (flush2_3 _) (by
      rw [mem_blk2_3]
      obtain ⟨-, -, -, -, -, -, e0, e1⟩ := maps2 ⟨J.val / 2048, ht⟩
      obtain ⟨-, -, -, -, x0, x1⟩ := cuts2 ⟨J.val / 2048, ht⟩
      have e1' : win2_3.index ⟨J.val / 2048, ht⟩ (1 : Fin 2) = J.val / 2048 := e1
      have x1' : J.val / 2048 * 2048 + win2_3.xsize (grid2.coords ⟨J.val / 2048, ht⟩) (1 : Fin 2)
          = min 50257 (J.val / 2048 * 2048 + 2048) := x1
      intro a
      match a with
      | ⟨0, _⟩ =>
        show win2_3.index ⟨J.val / 2048, ht⟩ (0 : Fin 2) * 1 ≤ 0
          ∧ 0 < win2_3.index ⟨J.val / 2048, ht⟩ (0 : Fin 2) * 1 + win2_3.xsize (grid2.coords ⟨J.val / 2048, ht⟩) (0 : Fin 2)
        omega
      | ⟨1, _⟩ =>
        show win2_3.index ⟨J.val / 2048, ht⟩ (1 : Fin 2) * 2048 ≤ J.val
          ∧ J.val < win2_3.index ⟨J.val / 2048, ht⟩ (1 : Fin 2) * 2048 + win2_3.xsize (grid2.coords ⟨J.val / 2048, ht⟩) (1 : Fin 2)
        omega)
  exact key

/-- The same, the three argument arrays named by variables of their literal types. -/
theorem arr2_3_of (c : Dev nD) (J : Fin 50257) (x : S1x1024.Idx → Ideal .f32) (W : S50257x1024.Idx → Ideal .f32)
    (b : S1x50257.Idx → Ideal .f32) (hx : V c main_v42 = x) (hW : V c main_arg12 = W) (hb : V c main_v12 = b) :
    ((dat2 (F := Ideal) V c).arrAt 3 cfg2.N) (ix2 (0 : Fin 1) J)
      = (∑ k : Fin 1024, x (ix2 (0 : Fin 1) k) * W (ix2 J k)) + b (ix2 (0 : Fin 1) J) := by
  subst hx hW hb; exact arr2_3 V c J

end Cert.KernelIdeal.Hand

end
-- ==== Proof.KI.Chain5.lean ====
/-
  The output projection's result array against the reference's logits. After the third pallas_call the result array
  holds, at column `J`, the hidden row entering the call against row `J` of the weights, plus the bias row at `J`.
  The hidden row entering the call is the reference's new state row (a hypothesis here), the weights are written by
  nothing before the call and so are the launch's, and the bias row is written only by the host's reshape of the
  launch's bias vector before the first call. The reference's logits at column `J` are the same sum with the bias
  vector read at `J`, and a vector viewed as one row, read at (0, `J`), is the vector at `J`.
-/
import proofs.«415815_j77060303224971_3_alg».proof.Proof.KI.Keep
import proofs.«415815_j77060303224971_3_alg».proof.Proof.KI.Arr2
import proofs.«415815_j77060303224971_3_alg».proof.Proof.Val.RefRows
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (m : (ℓ : Loc nD τ sig) → Buf (Elt Ideal) ℓ)

/-- The bias vector viewed as a single row, read at column `J`, is the vector at `J`. -/
theorem row_of_vec_apply (b : S50257.Idx → Ideal .f32) (J : Fin 50257) :
    shapeCast S1x50257 b Facts₀.shapeCasts_S50257_S1x50257 (ix2 (0 : Fin 1) J) = b (ix1 J) :=
  shapeCast_apply b Facts₀.shapeCasts_S50257_S1x50257 (ix2 (0 : Fin 1) J) (ix1 J) (by
    rw [Shape.rowMajor_val_one, Shape.rowMajor_val_two]
    show J.val = 0 * 50257 + J.val
    omega)

/-- The result array of the output projection, after the third pallas_call, is the reference's logits: the hidden
    row entering the call is the reference's new state row, the weights are the launch's, and the bias row is the
    launch's bias vector viewed as a row. -/
theorem S5_of (c : Dev nD)
    (h42 : W4 m c (Proc.devRef .tc main_v42)
      = Cert.ReferenceIdeal.ReadP.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))
    (h12 : W1 m c (Proc.devRef .tc main_v12)
      = shapeCast S1x50257 (m ((c : Thread nD τ).loc main_arg13)) Facts₀.shapeCasts_S50257_S1x50257) :
    W5 m c (Proc.devRef .tc main_v43)
      = Cert.ReferenceIdeal.ReadP.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  funext i
  obtain ⟨r, J, rfl⟩ : ∃ (r : Fin 1) (J : Fin 50257), i = ix2 r J := ⟨i 0, i 1, eq_ix2 i⟩
  obtain rfl : r = 0 := Subsingleton.elim _ _
  -- the weights enter the call as launched; the bias row as the host left it before the first call
  have hW : U4 m c main_arg12 = m ((c : Thread nD τ).loc main_arg12) :=
    (W4_keep m c main_arg12 (by decide)).trans <| (W3_keep m c main_arg12 (by decide) (by decide)).trans <|
      (W2_keep m c main_arg12 (by decide) (by decide)).trans <| (W1_keep m c main_arg12 (by decide)).trans rfl
  have hb : U4 m c main_v12
      = shapeCast S1x50257 (m ((c : Thread nD τ).loc main_arg13)) Facts₀.shapeCasts_S50257_S1x50257 :=
    (W4_keep m c main_v12 (by decide)).trans <| (W3_keep m c main_v12 (by decide) (by decide)).trans <|
      (W2_keep m c main_v12 (by decide) (by decide)).trans h12
  refine (congrFun (W5_arr m c 3) _).trans ?_
  rw [arr2_3_of (U4 m) c J _ _ _ h42 hW hb, Cert.Bridge.val_v70_row, row_of_vec_apply]

end Cert.KernelIdeal.Hand

end
-- ==== Proof.KI.Final.lean ====
/-
  The last stages of the value chain and its three ends: the normalised output row, the new hidden state and the attention
  weights the idealized kernel program returns are the reference's stages of the launch contents of the arguments.
-/
import proofs.«415815_j77060303224971_3_alg».proof.Proof.Gen.KernelIdeal.Launch
import proofs.«415815_j77060303224971_3_alg».proof.Proof.Gen.KernelIdeal.Skeleton
import proofs.«415815_j77060303224971_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.PureOps.Ideal
import proofs.«415815_j77060303224971_3_alg».proof.Proof.KI.Keep
import proofs.«415815_j77060303224971_3_alg».proof.Proof.KI.Chain14
import proofs.«415815_j77060303224971_3_alg».proof.Proof.KI.Chain5
import proofs.«415815_j77060303224971_3_alg».proof.Proof.KI.HostChains
import proofs.«415815_j77060303224971_3_alg».proof.Proof.Val.RefChains

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.ReferenceIdeal.ReadP

variable (m : (ℓ : Loc nD τ sig) → Buf (Elt Ideal) ℓ) (c : Dev nD)

/-- The output row before its normalisation is the reference's. -/
theorem S5_v43 : W5 m c (Proc.devRef .tc main_v43) = val_main_v70 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  S5_of m c (S4_v42 m c) (S1_v12 m c)

/-- The normalised output row: the same host operations on both sides applied to equal rows. -/
theorem W7_v44_eq : W7 m c (Proc.devRef .tc main_v44) = val_main_v71 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [W7_keep m c main_v44 (by decide)]
  show StableHlo.after hostOps3 (W5 m c) (Proc.devRef .tc main_v44) = _
  rw [after_hostOps3_v44 (W5 m c), S5_v43 m c]
  exact Cert.Bridge.lsmChain_ref _ _ _ _ _ _ _ _ _ _ _ _ _ _

/-- The new hidden state is not touched after the gate combination. -/
theorem W6_v42_eq : W6 m c (Proc.devRef .tc main_v42) = val_main_v66 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [W6_keep m c main_v42 (by decide), W5_keep m c main_v42 (by decide)]
  exact S4_v42 m c

/-- The returned hidden state: the new one with a leading axis. -/
theorem W7_v45_eq : W7 m c (Proc.devRef .tc main_v45) = val_main_v72 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps3_1 (W6 m c) (Proc.devRef .tc main_v45) = _
  rw [after_hostOps3_1_v45 (W6 m c), W6_v42_eq m c]
  exact Cert.Bridge.bcast_ref _ _ _ _ _ _ _ _ _ _ _ _

/-- The attention weights are not touched after the first pallas_call. -/
theorem W7_v13_1_eq : W7 m c (Proc.devRef .tc main_v13_1) = val_main_v23 (m ((c : Thread nD τ).loc main_arg0)) (m ((c : Thread nD τ).loc main_arg1)) (m ((c : Thread nD τ).loc main_arg3)) (m ((c : Thread nD τ).loc main_arg4)) (m ((c : Thread nD τ).loc main_arg5)) := by
  rw [W7_keep m c main_v13_1 (by decide), W6_keep m c main_v13_1 (by decide), W5_keep m c main_v13_1 (by decide),
    W4_keep m c main_v13_1 (by decide), W3_keep m c main_v13_1 (by decide) (by decide)]
  exact S2_v13_1 m c

end Cert.KernelIdeal.Hand

end
-- ==== Proof.lean ====
/-
  One decoder step with additive attention and a gated recurrent cell, batch one: the embedded token row and the hidden row
  give attention weights over 128 encoder positions (a softmax of an affine map of the two rows side by side), the weighted
  encoder row is joined to the embedded row, projected and rectified, fed with the hidden row through the cell's two gate
  products, combined into the new hidden state, which is projected on the 50257 vocabulary rows and normalised by a
  log-softmax. The kernel program does the attention-and-combine step, the two gate products and the output projection
  in three pallas_calls (one point; two halves of the gate axis; twenty-five blocks of 2048 vocabulary rows, the last
  overhanging the arrays' end), with the gather, the gate combination and the log-softmax as host operations; the reference
  does everything as host operations on the transposed weights.

  At the ideal values every product is a plain sum over the contracted axis, a change of float format is the identity and
  the two softmaxes are the same operations on equal rows, so stage by stage the kernel program's buffers hold the
  reference's stages of the arguments: the three results agree. Only commutative-monoid laws of the extended reals are
  used, so the inputs' finiteness is never opened. The frames: the idealized kernel program's from its run (every unscoped
  buffer ends at the last contents of a fold through @main, and no item writes an argument); the word-level program's
  separately, because there an entry of a matrix product is not a function of its own weight row alone and the last block's
  result depends on words past the arrays' end that nothing names: its run says nothing of that result; the reference's from
  its run.
-/
import proofs.«415815_j77060303224971_3_alg».proof.Defs
import proofs.«415815_j77060303224971_3_alg».proof.Proof.Gen.Kernel
import proofs.«415815_j77060303224971_3_alg».proof.Proof.Gen.KernelIdeal
import proofs.«415815_j77060303224971_3_alg».proof.Proof.Gen.ReferenceIdeal
import proofs.«415815_j77060303224971_3_alg».proof.Proof.Gen.Pre_finite_inputs
import proofs.«415815_j77060303224971_3_alg».proof.Proof.Ref.Reads
import proofs.«415815_j77060303224971_3_alg».proof.Proof.K.Frame
import proofs.«415815_j77060303224971_3_alg».proof.Proof.KI.Run
import proofs.«415815_j77060303224971_3_alg».proof.Proof.KI.Final

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame_all (F := Bits) m ρ

/-- The idealized kernel program runs and leaves its arguments as launched: each argument read off the last contents of the fold. -/
theorem frame_ki : Cert.frame_KernelIdeal := fun m ρ _ =>
  (θ_run Cert.KernelIdeal.defs _ _).mono (fun _ h c => ⟨(h c _ (Cert.KernelIdeal.Hand.kmem_uc Cert.KernelIdeal.main_arg0 (by decide))).trans (Cert.KernelIdeal.Hand.W7_main_arg0 m c),
    (h c _ (Cert.KernelIdeal.Hand.kmem_uc Cert.KernelIdeal.main_arg1 (by decide))).trans (Cert.KernelIdeal.Hand.W7_main_arg1 m c),
    (h c _ (Cert.KernelIdeal.Hand.kmem_uc Cert.KernelIdeal.main_arg2 (by decide))).trans (Cert.KernelIdeal.Hand.W7_main_arg2 m c),
    (h c _ (Cert.KernelIdeal.Hand.kmem_uc Cert.KernelIdeal.main_arg3 (by decide))).trans (Cert.KernelIdeal.Hand.W7_main_arg3 m c),
    (h c _ (Cert.KernelIdeal.Hand.kmem_uc Cert.KernelIdeal.main_arg4 (by decide))).trans (Cert.KernelIdeal.Hand.W7_main_arg4 m c),
    (h c _ (Cert.KernelIdeal.Hand.kmem_uc Cert.KernelIdeal.main_arg5 (by decide))).trans (Cert.KernelIdeal.Hand.W7_main_arg5 m c),
    (h c _ (Cert.KernelIdeal.Hand.kmem_uc Cert.KernelIdeal.main_arg6 (by decide))).trans (Cert.KernelIdeal.Hand.W7_main_arg6 m c),
    (h c _ (Cert.KernelIdeal.Hand.kmem_uc Cert.KernelIdeal.main_arg7 (by decide))).trans (Cert.KernelIdeal.Hand.W7_main_arg7 m c),
    (h c _ (Cert.KernelIdeal.Hand.kmem_uc Cert.KernelIdeal.main_arg8 (by decide))).trans (Cert.KernelIdeal.Hand.W7_main_arg8 m c),
    (h c _ (Cert.KernelIdeal.Hand.kmem_uc Cert.KernelIdeal.main_arg9 (by decide))).trans (Cert.KernelIdeal.Hand.W7_main_arg9 m c),
    (h c _ (Cert.KernelIdeal.Hand.kmem_uc Cert.KernelIdeal.main_arg10 (by decide))).trans (Cert.KernelIdeal.Hand.W7_main_arg10 m c),
    (h c _ (Cert.KernelIdeal.Hand.kmem_uc Cert.KernelIdeal.main_arg11 (by decide))).trans (Cert.KernelIdeal.Hand.W7_main_arg11 m c),
    (h c _ (Cert.KernelIdeal.Hand.kmem_uc Cert.KernelIdeal.main_arg12 (by decide))).trans (Cert.KernelIdeal.Hand.W7_main_arg12 m c),
    (h c _ (Cert.KernelIdeal.Hand.kmem_uc Cert.KernelIdeal.main_arg13 (by decide))).trans (Cert.KernelIdeal.Hand.W7_main_arg13 m c)⟩)
    (Cert.KernelIdeal.Hand.run_all m ρ)

/-- The reference runs and leaves its arguments as launched: its run with the results dropped. -/
theorem frame_ri : Cert.frame_ReferenceIdeal := fun m ρ _ =>
  (θ_run Cert.ReferenceIdeal.defs _ _).mono (fun _ h c => ⟨(h c Cert.ReferenceIdeal.main_arg0).trans (Cert.ReferenceIdeal.Hand.read_arg0 (F := Ideal) _),
    (h c Cert.ReferenceIdeal.main_arg1).trans (Cert.ReferenceIdeal.Hand.read_arg1 (F := Ideal) _),
    (h c Cert.ReferenceIdeal.main_arg2).trans (Cert.ReferenceIdeal.Hand.read_arg2 (F := Ideal) _),
    (h c Cert.ReferenceIdeal.main_arg3).trans (Cert.ReferenceIdeal.Hand.read_arg3 (F := Ideal) _),
    (h c Cert.ReferenceIdeal.main_arg4).trans (Cert.ReferenceIdeal.Hand.read_arg4 (F := Ideal) _),
    (h c Cert.ReferenceIdeal.main_arg5).trans (Cert.ReferenceIdeal.Hand.read_arg5 (F := Ideal) _),
    (h c Cert.ReferenceIdeal.main_arg6).trans (Cert.ReferenceIdeal.Hand.read_arg6 (F := Ideal) _),
    (h c Cert.ReferenceIdeal.main_arg7).trans (Cert.ReferenceIdeal.Hand.read_arg7 (F := Ideal) _),
    (h c Cert.ReferenceIdeal.main_arg8).trans (Cert.ReferenceIdeal.Hand.read_arg8 (F := Ideal) _),
    (h c Cert.ReferenceIdeal.main_arg9).trans (Cert.ReferenceIdeal.Hand.read_arg9 (F := Ideal) _),
    (h c Cert.ReferenceIdeal.main_arg10).trans (Cert.ReferenceIdeal.Hand.read_arg10 (F := Ideal) _),
    (h c Cert.ReferenceIdeal.main_arg11).trans (Cert.ReferenceIdeal.Hand.read_arg11 (F := Ideal) _),
    (h c Cert.ReferenceIdeal.main_arg12).trans (Cert.ReferenceIdeal.Hand.read_arg12 (F := Ideal) _),
    (h c Cert.ReferenceIdeal.main_arg13).trans (Cert.ReferenceIdeal.Hand.read_arg13 (F := Ideal) _)⟩)
    (Cert.ReferenceIdeal.ValueP.run (F := Ideal) m ρ)

/-- The ideal pass rewrote nothing. -/
theorem preserves : Cert.preserves_Kernel_KernelIdeal := trivial

/-- From memories agreeing on the arguments both idealized programs end with the same three results: the kernel program's
    buffers hold the reference's stages of the arguments. -/
theorem algebraic : Cert.algebraic_KernelIdeal_ReferenceIdeal := by
  intro m ρ m' ρ' _ hagree
  refine ⟨fun c => Cert.KernelIdeal.Hand.W7 m c (Proc.devRef .tc Cert.KernelIdeal.main_v44),
    fun c => Cert.KernelIdeal.Hand.W7 m c (Proc.devRef .tc Cert.KernelIdeal.main_v45),
    fun c => Cert.KernelIdeal.Hand.W7 m c (Proc.devRef .tc Cert.KernelIdeal.main_v13_1), ?_, ?_⟩
  · exact (θ_run Cert.KernelIdeal.defs _ _).mono (fun _ h c => ⟨h c _ (Cert.KernelIdeal.Hand.kmem_uc Cert.KernelIdeal.main_v44 (by decide)),
      h c _ (Cert.KernelIdeal.Hand.kmem_uc Cert.KernelIdeal.main_v45 (by decide)),
      h c _ (Cert.KernelIdeal.Hand.kmem_uc Cert.KernelIdeal.main_v13_1 (by decide)),
      (h c _ (Cert.KernelIdeal.Hand.kmem_uc Cert.KernelIdeal.main_arg0 (by decide))).trans (Cert.KernelIdeal.Hand.W7_main_arg0 m c),
      (h c _ (Cert.KernelIdeal.Hand.kmem_uc Cert.KernelIdeal.main_arg1 (by decide))).trans (Cert.KernelIdeal.Hand.W7_main_arg1 m c),
      (h c _ (Cert.KernelIdeal.Hand.kmem_uc Cert.KernelIdeal.main_arg2 (by decide))).trans (Cert.KernelIdeal.Hand.W7_main_arg2 m c),
      (h c _ (Cert.KernelIdeal.Hand.kmem_uc Cert.KernelIdeal.main_arg3 (by decide))).trans (Cert.KernelIdeal.Hand.W7_main_arg3 m c),
      (h c _ (Cert.KernelIdeal.Hand.kmem_uc Cert.KernelIdeal.main_arg4 (by decide))).trans (Cert.KernelIdeal.Hand.W7_main_arg4 m c),
      (h c _ (Cert.KernelIdeal.Hand.kmem_uc Cert.KernelIdeal.main_arg5 (by decide))).trans (Cert.KernelIdeal.Hand.W7_main_arg5 m c),
      (h c _ (Cert.KernelIdeal.Hand.kmem_uc Cert.KernelIdeal.main_arg6 (by decide))).trans (Cert.KernelIdeal.Hand.W7_main_arg6 m c),
      (h c _ (Cert.KernelIdeal.Hand.kmem_uc Cert.KernelIdeal.main_arg7 (by decide))).trans (Cert.KernelIdeal.Hand.W7_main_arg7 m c),
      (h c _ (Cert.KernelIdeal.Hand.kmem_uc Cert.KernelIdeal.main_arg8 (by decide))).trans (Cert.KernelIdeal.Hand.W7_main_arg8 m c),
      (h c _ (Cert.KernelIdeal.Hand.kmem_uc Cert.KernelIdeal.main_arg9 (by decide))).trans (Cert.KernelIdeal.Hand.W7_main_arg9 m c),
      (h c _ (Cert.KernelIdeal.Hand.kmem_uc Cert.KernelIdeal.main_arg10 (by decide))).trans (Cert.KernelIdeal.Hand.W7_main_arg10 m c),
      (h c _ (Cert.KernelIdeal.Hand.kmem_uc Cert.KernelIdeal.main_arg11 (by decide))).trans (Cert.KernelIdeal.Hand.W7_main_arg11 m c),
      (h c _ (Cert.KernelIdeal.Hand.kmem_uc Cert.KernelIdeal.main_arg12 (by decide))).trans (Cert.KernelIdeal.Hand.W7_main_arg12 m c),
      (h c _ (Cert.KernelIdeal.Hand.kmem_uc Cert.KernelIdeal.main_arg13 (by decide))).trans (Cert.KernelIdeal.Hand.W7_main_arg13 m c)⟩)
      (Cert.KernelIdeal.Hand.run_all m ρ)
  · refine (θ_run Cert.ReferenceIdeal.defs _ _).mono (fun _ h c => ?_) (Cert.ReferenceIdeal.ValueP.run (F := Ideal) m' ρ')
    obtain ⟨e0, e1, e2, e3, e4, e5, e6, e7, e8, e9, e10, e11, e12, e13⟩ := hagree c
    refine ⟨(h c Cert.ReferenceIdeal.main_v71).trans ((Cert.ReferenceIdeal.Hand.read_v71 (F := Ideal) _).trans ?_),
      (h c Cert.ReferenceIdeal.main_v72).trans ((Cert.ReferenceIdeal.Hand.read_v72 (F := Ideal) _).trans ?_),
      (h c Cert.ReferenceIdeal.main_v23).trans ((Cert.ReferenceIdeal.Hand.read_v23 (F := Ideal) _).trans ?_),
      (h c Cert.ReferenceIdeal.main_arg0).trans (Cert.ReferenceIdeal.Hand.read_arg0 (F := Ideal) _),
      (h c Cert.ReferenceIdeal.main_arg1).trans (Cert.ReferenceIdeal.Hand.read_arg1 (F := Ideal) _),
      (h c Cert.ReferenceIdeal.main_arg2).trans (Cert.ReferenceIdeal.Hand.read_arg2 (F := Ideal) _),
      (h c Cert.ReferenceIdeal.main_arg3).trans (Cert.ReferenceIdeal.Hand.read_arg3 (F := Ideal) _),
      (h c Cert.ReferenceIdeal.main_arg4).trans (Cert.ReferenceIdeal.Hand.read_arg4 (F := Ideal) _),
      (h c Cert.ReferenceIdeal.main_arg5).trans (Cert.ReferenceIdeal.Hand.read_arg5 (F := Ideal) _),
      (h c Cert.ReferenceIdeal.main_arg6).trans (Cert.ReferenceIdeal.Hand.read_arg6 (F := Ideal) _),
      (h c Cert.ReferenceIdeal.main_arg7).trans (Cert.ReferenceIdeal.Hand.read_arg7 (F := Ideal) _),
      (h c Cert.ReferenceIdeal.main_arg8).trans (Cert.ReferenceIdeal.Hand.read_arg8 (F := Ideal) _),
      (h c Cert.ReferenceIdeal.main_arg9).trans (Cert.ReferenceIdeal.Hand.read_arg9 (F := Ideal) _),
      (h c Cert.ReferenceIdeal.main_arg10).trans (Cert.ReferenceIdeal.Hand.read_arg10 (F := Ideal) _),
      (h c Cert.ReferenceIdeal.main_arg11).trans (Cert.ReferenceIdeal.Hand.read_arg11 (F := Ideal) _),
      (h c Cert.ReferenceIdeal.main_arg12).trans (Cert.ReferenceIdeal.Hand.read_arg12 (F := Ideal) _),
      (h c Cert.ReferenceIdeal.main_arg13).trans (Cert.ReferenceIdeal.Hand.read_arg13 (F := Ideal) _)⟩
    · show Cert.ReferenceIdeal.ReadP.val_main_v71 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) = _
      rw [e0, e1, e2, e3, e4, e5, e6, e7, e8, e9, e10, e11, e12, e13]
      exact (Cert.KernelIdeal.Hand.W7_v44_eq m c).symm
    · show Cert.ReferenceIdeal.ReadP.val_main_v72 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = _
      rw [e0, e1, e2, e3, e4, e5, e6, e7, e8, e9, e10, e11]
      exact (Cert.KernelIdeal.Hand.W7_v45_eq m c).symm
    · show Cert.ReferenceIdeal.ReadP.val_main_v23 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
      rw [e0, e1, e3, e4, e5]
      exact (Cert.KernelIdeal.Hand.W7_v13_1_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
